-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v71_1)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_1) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x128 : Shape := ⟨2, ![400000, 128]⟩
abbrev S2x384x128 : Shape := ⟨3, ![2, 384, 128]⟩
abbrev S2x128 : Shape := ⟨2, ![2, 128]⟩
abbrev S2x128x128 : Shape := ⟨3, ![2, 128, 128]⟩
abbrev S400000 : Shape := ⟨1, ![400000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S2x384x128 : S_.BroadcastsInDim S2x384x128 (![] : Fin 0 → Fin S2x384x128.rank)
  reducesTo_S2x384x128_S_d0_1_2 : S2x384x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S400000 : S_.BroadcastsInDim S400000 (![] : Fin 0 → Fin S400000.rank)
  reducesTo_S400000_S_d0 : S400000.ReducesTo [0] S_

variable [Facts]

def fn_part3 {F : FTy → Type} [FloatOps F] (main_arg10 : IVec S400000 32) (main_arg11 : IVec S400000 32) (main_v48 : IVec S_ 1) (main_v50 : IVec S400000 1) : IVec S_ 1 :=
  let main_c_19 : IVec S_ 32 := constantI S_ 32 50000#32
  let main_v51 : IVec S400000 32 := broadcastInDim S400000 ![] bcast_S_S400000 main_c_19
  let main_v52 : IVec S400000 1 := cmpi .slt main_arg10 main_v51
  let main_v53 : IVec S400000 1 := andi main_v50 main_v52
  let main_c_20 : IVec S_ 1 := constantI S_ 1 1#1
  let main_v54 : IVec S_ 1 := (fun x v => Host.reduce IntOp.andi x v reducesTo_S400000_S_d0 h_S_) main_v53 main_c_20
  let main_v55 : IVec S_ 1 := andi main_v48 main_v54
  let main_c_21 : IVec S_ 32 := constantI S_ 32 4294917296#32
  let main_v56 : IVec S400000 32 := broadcastInDim S400000 ![] bcast_S_S400000 main_c_21
  let main_v57 : IVec S400000 1 := cmpi .sge main_arg11 main_v56
  let main_c_22 : IVec S_ 32 := constantI S_ 32 50000#32
  let main_v58 : IVec S400000 32 := broadcastInDim S400000 ![] bcast_S_S400000 main_c_22
  let main_v59 : IVec S400000 1 := cmpi .slt main_arg11 main_v58
  let main_v60 : IVec S400000 1 := andi main_v57 main_v59
  let main_c_23 : IVec S_ 1 := constantI S_ 1 1#1
  let main_v61 : IVec S_ 1 := (fun x v => Host.reduce IntOp.andi x v reducesTo_S400000_S_d0 h_S_) main_v60 main_c_23
  let main_v62 : IVec S_ 1 := andi main_v55 main_v61
  main_v62

def fn_part2 {F : FTy → Type} [FloatOps F] (main_arg7 : FVec F S2x128 .f32) (main_arg8 : FVec F S2x128x128 .f32) (main_arg9 : FVec F S2x128 .f32) (main_arg10 : IVec S400000 32) (main_arg11 : IVec S400000 32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x128 .f32 := Host.absf main_arg8
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_c_18 : IVec S_ 32 := constantI S_ 32 4294917296#32
  let main_v49 : IVec S400000 32 := broadcastInDim S400000 ![] bcast_S_S400000 main_c_18
  let main_v50 : IVec S400000 1 := cmpi .sge main_arg10 main_v49
  fn_part3 (F := F) main_arg10 main_arg11 main_v48 main_v50

def fn_part1 {F : FTy → Type} [FloatOps F] (main_arg4 : FVec F S2x128x128 .f32) (main_arg5 : FVec F S2x128 .f32) (main_arg6 : FVec F S2x384x128 .f32) (main_arg7 : FVec F S2x128 .f32) (main_arg8 : FVec F S2x128x128 .f32) (main_arg9 : FVec F S2x128 .f32) (main_arg10 : IVec S400000 32) (main_arg11 : IVec S400000 32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x384x128 .f32 := Host.absf main_arg6
  let main_cst_10 : FVec F S_ .f32 := constant S_ .f32 0x7F800000#32
  let main_v30 : FVec F S2x384x128 .f32 := broadcastInDim S2x384x128 ![] bcast_S_S2x384x128 main_cst_10
  let main_v31 : IVec S2x384x128 1 := cmpf .olt main_v29 main_v30
  let main_c_11 : IVec S_ 1 := constantI S_ 1 1#1
  let main_v32 : IVec S_ 1 := (fun x v => Host.reduce IntOp.andi x v reducesTo_S2x384x128_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S400000x128 .f32) (main_arg2 : FVec F S2x384x128 .f32) (main_arg3 : FVec F S2x128 .f32) (main_arg4 : FVec F S2x128x128 .f32) (main_arg5 : FVec F S2x128 .f32) (main_arg6 : FVec F S2x384x128 .f32) (main_arg7 : FVec F S2x128 .f32) (main_arg8 : FVec F S2x128x128 .f32) (main_arg9 : FVec F S2x128 .f32) (main_arg10 : IVec S400000 32) (main_arg11 : IVec S400000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S2x384x128 .f32 := Host.absf main_arg2
  let main_cst_2 : FVec F S_ .f32 := constant S_ .f32 0x7F800000#32
  let main_v10 : FVec F S2x384x128 .f32 := broadcastInDim S2x384x128 ![] bcast_S_S2x384x128 main_cst_2
  let main_v11 : IVec S2x384x128 1 := cmpf .olt main_v9 main_v10
  let main_c_3 : IVec S_ 1 := constantI S_ 1 1#1
  let main_v12 : IVec S_ 1 := (fun x v => Host.reduce IntOp.andi x v reducesTo_S2x384x128_S_d0_1_2 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S400000x128 : Shape := ⟨2, ![400000, 128]⟩
abbrev S2x384x128 : Shape := ⟨3, ![2, 384, 128]⟩
abbrev S2x128 : Shape := ⟨2, ![2, 128]⟩
abbrev S2x128x128 : Shape := ⟨3, ![2, 128, 128]⟩
abbrev S400000 : Shape := ⟨1, ![400000]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S1x384x128 : Shape := ⟨3, ![1, 384, 128]⟩
abbrev S384x128 : Shape := ⟨2, ![384, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S2000x128 : Shape := ⟨2, ![2000, 128]⟩

abbrev nBuf : Space → Nat
  | .hbm => 180
  | .vmem => 64
  | .smem => 0
  | _ => 0

abbrev hbmTy0_0 (i : Nat) : BufTy := match i % 128 with
  | 0 => ⟨S50000x128, .f32⟩
  | 1 => ⟨S400000x128, .f32⟩
  | 2 => ⟨S2x384x128, .f32⟩
  | 3 => ⟨S2x128, .f32⟩
  | 4 => ⟨S2x128x128, .f32⟩
  | 5 => ⟨S2x128, .f32⟩
  | 6 => ⟨S2x384x128, .f32⟩
  | 7 => ⟨S2x128, .f32⟩
  | 8 => ⟨S2x128x128, .f32⟩
  | 9 => ⟨S2x128, .f32⟩
  | 10 => ⟨S400000, .i32⟩
  | 11 => ⟨S400000, .i32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S1, .i32⟩
  | 21 => ⟨S_, .i32⟩
  | 22 => ⟨S400000x1, .i32⟩
  | 23 => ⟨S400000x1, .i1⟩
  | 24 => ⟨S1x1, .i32⟩
  | 25 => ⟨S400000x1, .i32⟩
  | 26 => ⟨S400000x1, .i1⟩
  | 27 => ⟨S400000x1, .i1⟩
  | 28 => ⟨S_, .i1⟩
  | 29 => ⟨S400000, .i1⟩
  | 30 => ⟨S400000x128, .f32⟩
  | 31 => ⟨S400000x128, .i1⟩
  | 32 => ⟨S_, .f32⟩
  | 33 => ⟨S400000x128, .f32⟩
  | 34 => ⟨S400000x128, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S1, .i32⟩
  | 44 => ⟨S_, .i32⟩
  | 45 => ⟨S400000x1, .i32⟩
  | 46 => ⟨S400000x1, .i1⟩
  | 47 => ⟨S1x1, .i32⟩
  | 48 => ⟨S400000x1, .i32⟩
  | 49 => ⟨S400000x1, .i1⟩
  | 50 => ⟨S400000x1, .i1⟩
  | 51 => ⟨S_, .i1⟩
  | 52 => ⟨S400000, .i1⟩
  | 53 => ⟨S400000x128, .f32⟩
  | 54 => ⟨S400000x128, .i1⟩
  | 55 => ⟨S_, .f32⟩
  | 56 => ⟨S400000x128, .f32⟩
  | 57 => ⟨S400000x128, .f32⟩
  | 58 => ⟨S1x384x128, .f32⟩
  | 59 => ⟨S384x128, .f32⟩
  | 60 => ⟨S1x128, .f32⟩
  | 61 => ⟨S128, .f32⟩
  | 62 => ⟨S1x128x128, .f32⟩
  | 63 => ⟨S128x128, .f32⟩
  | 64 => ⟨S1x128, .f32⟩
  | 65 => ⟨S128, .f32⟩
  | 66 => ⟨S128x128, .f32⟩
  | 67 => ⟨S128x128, .f32⟩
  | 68 => ⟨S128x128, .f32⟩
  | 69 => ⟨S1x128, .f32⟩
  | 70 => ⟨S1x128, .f32⟩
  | 71 => ⟨S400000x128, .f32⟩
  | 72 => ⟨S400000x128, .f32⟩
  | 73 => ⟨S_, .f32⟩
  | 74 => ⟨S50000x128, .f32⟩
  | 75 => ⟨S400000x1, .i32⟩
  | 76 => ⟨S50000x128, .f32⟩
  | 77 => ⟨S_, .f32⟩
  | 78 => ⟨S50000x128, .f32⟩
  | 79 => ⟨S400000x1, .i32⟩
  | 80 => ⟨S50000x128, .f32⟩
  | 81 => ⟨S1x384x128, .f32⟩
  | 82 => ⟨S384x128, .f32⟩
  | 83 => ⟨S1x128, .f32⟩
  | 84 => ⟨S128, .f32⟩
  | 85 => ⟨S1x128x128, .f32⟩
  | 86 => ⟨S128x128, .f32⟩
  | 87 => ⟨S1x128, .f32⟩
  | 88 => ⟨S128, .f32⟩
  | 89 => ⟨S128x128, .f32⟩
  | 90 => ⟨S128x128, .f32⟩
  | 91 => ⟨S128x128, .f32⟩
  | 92 => ⟨S1x128, .f32⟩
  | 93 => ⟨S1x128, .f32⟩
  | 94 => ⟨S50000x128, .f32⟩
  | 95 => ⟨S50000x128, .f32⟩
  | 96 => ⟨S_, .i32⟩
  | 97 => ⟨S400000, .i32⟩
  | 98 => ⟨S400000, .i1⟩
  | 99 => ⟨S_, .i32⟩
  | 100 => ⟨S400000, .i32⟩
  | 101 => ⟨S400000, .i32⟩
  | 102 => ⟨S400000, .i32⟩
  | 103 => ⟨S400000x1, .i32⟩
  | 104 => ⟨S1, .i32⟩
  | 105 => ⟨S_, .i32⟩
  | 106 => ⟨S400000x1, .i32⟩
  | 107 => ⟨S400000x1, .i1⟩
  | 108 => ⟨S1x1, .i32⟩
  | 109 => ⟨S400000x1, .i32⟩
  | 110 => ⟨S400000x1, .i1⟩
  | 111 => ⟨S400000x1, .i1⟩
  | 112 => ⟨S_, .i1⟩
  | 113 => ⟨S400000, .i1⟩
  | 114 => ⟨S400000x128, .f32⟩
  | 115 => ⟨S400000x128, .i1⟩
  | 116 => ⟨S_, .f32⟩
  | 117 => ⟨S400000x128, .f32⟩
  | 118 => ⟨S400000x128, .f32⟩
  | 119 => ⟨S_, .i32⟩
  | 120 => ⟨S400000, .i32⟩
  | 121 => ⟨S400000, .i1⟩
  | 122 => ⟨S_, .i32⟩
  | 123 => ⟨S400000, .i32⟩
  | 124 => ⟨S400000, .i32⟩
  | 125 => ⟨S400000, .i32⟩
  | 126 => ⟨S400000x1, .i32⟩
  | 127 => ⟨S1, .i32⟩
  | _ => ⟨S50000x128, .f32⟩

abbrev hbmTy0_1 (i : Nat) : BufTy := match i % 128 with
  | 0 => ⟨S_, .i32⟩
  | 1 => ⟨S400000x1, .i32⟩
  | 2 => ⟨S400000x1, .i1⟩
  | 3 => ⟨S1x1, .i32⟩
  | 4 => ⟨S400000x1, .i32⟩
  | 5 => ⟨S400000x1, .i1⟩
  | 6 => ⟨S400000x1, .i1⟩
  | 7 => ⟨S_, .i1⟩
  | 8 => ⟨S400000, .i1⟩
  | 9 => ⟨S400000x128, .f32⟩
  | 10 => ⟨S400000x128, .i1⟩
  | 11 => ⟨S_, .f32⟩
  | 12 => ⟨S400000x128, .f32⟩
  | 13 => ⟨S400000x128, .f32⟩
  | 14 => ⟨S1x384x128, .f32⟩
  | 15 => ⟨S384x128, .f32⟩
  | 16 => ⟨S1x128, .f32⟩
  | 17 => ⟨S128, .f32⟩
  | 18 => ⟨S1x128x128, .f32⟩
  | 19 => ⟨S128x128, .f32⟩
  | 20 => ⟨S1x128, .f32⟩
  | 21 => ⟨S128, .f32⟩
  | 22 => ⟨S128x128, .f32⟩
  | 23 => ⟨S128x128, .f32⟩
  | 24 => ⟨S128x128, .f32⟩
  | 25 => ⟨S1x128, .f32⟩
  | 26 => ⟨S1x128, .f32⟩
  | 27 => ⟨S400000x128, .f32⟩
  | 28 => ⟨S400000x128, .f32⟩
  | 29 => ⟨S_, .f32⟩
  | 30 => ⟨S50000x128, .f32⟩
  | 31 => ⟨S400000x1, .i32⟩
  | 32 => ⟨S50000x128, .f32⟩
  | 33 => ⟨S_, .f32⟩
  | 34 => ⟨S50000x128, .f32⟩
  | 35 => ⟨S400000x1, .i32⟩
  | 36 => ⟨S50000x128, .f32⟩
  | 37 => ⟨S1x384x128, .f32⟩
  | 38 => ⟨S384x128, .f32⟩
  | 39 => ⟨S1x128, .f32⟩
  | 40 => ⟨S128, .f32⟩
  | 41 => ⟨S1x128x128, .f32⟩
  | 42 => ⟨S128x128, .f32⟩
  | 43 => ⟨S1x128, .f32⟩
  | 44 => ⟨S128, .f32⟩
  | 45 => ⟨S128x128, .f32⟩
  | 46 => ⟨S128x128, .f32⟩
  | 47 => ⟨S128x128, .f32⟩
  | 48 => ⟨S1x128, .f32⟩
  | 49 => ⟨S1x128, .f32⟩
  | 50 => ⟨S50000x128, .f32⟩
  | 51 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S128x128, .f32⟩
  | .local _ .vmem, ⟨55, _⟩ => ⟨S128x128, .f32⟩
  | .local _ .vmem, ⟨56, _⟩ => ⟨S128x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15_0 : Ref sig .tc := ⟨.hbm, 71, rfl⟩
abbrev main_v15_1 : Ref sig .tc := ⟨.hbm, 72, rfl⟩
abbrev main_cst : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_cst_0 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35_0 : Ref sig .tc := ⟨.hbm, 94, rfl⟩
abbrev main_v35_1 : Ref sig .tc := ⟨.hbm, 95, rfl⟩
abbrev main_call2_c : Ref sig .tc := ⟨.hbm, 96, rfl⟩
abbrev main_call2_v0 : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_c_1 : Ref sig .tc := ⟨.hbm, 104, rfl⟩
abbrev main_call2_c_2 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_3 : Ref sig .tc := ⟨.hbm, 112, rfl⟩
abbrev main_call2_v12 : Ref sig .tc := ⟨.hbm, 113, rfl⟩
abbrev main_call2_v13 : Ref sig .tc := ⟨.hbm, 114, rfl⟩
abbrev main_call2_v14 : Ref sig .tc := ⟨.hbm, 115, rfl⟩
abbrev main_call2_cst : Ref sig .tc := ⟨.hbm, 116, rfl⟩
abbrev main_call2_v15 : Ref sig .tc := ⟨.hbm, 117, rfl⟩
abbrev main_v36 : Ref sig .tc := ⟨.hbm, 118, rfl⟩
abbrev main_call3_c : Ref sig .tc := ⟨.hbm, 119, rfl⟩
abbrev main_call3_v0 : Ref sig .tc := ⟨.hbm, 120, rfl⟩
abbrev main_call3_v1 : Ref sig .tc := ⟨.hbm, 121, rfl⟩
abbrev main_call3_c_0 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_c_1 : Ref sig .tc := ⟨.hbm, 127, rfl⟩
abbrev main_call3_c_2 : Ref sig .tc := ⟨.hbm, 128, rfl⟩
abbrev main_call3_v6 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_call3_v11 : Ref sig .tc := ⟨.hbm, 134, rfl⟩
abbrev main_call3_c_3 : Ref sig .tc := ⟨.hbm, 135, rfl⟩
abbrev main_call3_v12 : Ref sig .tc := ⟨.hbm, 136, rfl⟩
abbrev main_call3_v13 : Ref sig .tc := ⟨.hbm, 137, rfl⟩
abbrev main_call3_v14 : Ref sig .tc := ⟨.hbm, 138, rfl⟩
abbrev main_call3_cst : Ref sig .tc := ⟨.hbm, 139, rfl⟩
abbrev main_call3_v15 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_v49 : Ref sig .tc := ⟨.hbm, 153, rfl⟩
abbrev main_v50 : Ref sig .tc := ⟨.hbm, 154, rfl⟩
abbrev main_v51_0 : Ref sig .tc := ⟨.hbm, 155, rfl⟩
abbrev main_v51_1 : Ref sig .tc := ⟨.hbm, 156, rfl⟩
abbrev main_cst_1 : Ref sig .tc := ⟨.hbm, 157, rfl⟩
abbrev main_v52 : Ref sig .tc := ⟨.hbm, 158, rfl⟩
abbrev main_v53 : Ref sig .tc := ⟨.hbm, 159, rfl⟩
abbrev main_v54 : Ref sig .tc := ⟨.hbm, 160, rfl⟩
abbrev main_cst_2 : Ref sig .tc := ⟨.hbm, 161, rfl⟩
abbrev main_v55 : Ref sig .tc := ⟨.hbm, 162, rfl⟩
abbrev main_v56 : Ref sig .tc := ⟨.hbm, 163, rfl⟩
abbrev main_v57 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_v71_0 : Ref sig .tc := ⟨.hbm, 178, rfl⟩
abbrev main_v71_1 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg9_0 : Ref sig .tc := ⟨.vmem, 44, rfl⟩
abbrev cc2_stg9_1 : Ref sig .tc := ⟨.vmem, 45, rfl⟩
abbrev cc2_stg10_0 : Ref sig .tc := ⟨.vmem, 46, rfl⟩
abbrev cc2_stg10_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg4_0 : Ref sig .tc := ⟨.vmem, 55, rfl⟩
abbrev cc3_stg5_0 : Ref sig .tc := ⟨.vmem, 56, rfl⟩
abbrev cc3_stg6_0 : Ref sig .tc := ⟨.vmem, 57, rfl⟩
abbrev cc3_stg7_0 : Ref sig .tc := ⟨.vmem, 58, rfl⟩
abbrev cc3_stg8_0 : Ref sig .tc := ⟨.vmem, 59, rfl⟩
abbrev cc3_stg9_0 : Ref sig .tc := ⟨.vmem, 60, rfl⟩
abbrev cc3_stg9_1 : Ref sig .tc := ⟨.vmem, 61, rfl⟩
abbrev cc3_stg10_0 : Ref sig .tc := ⟨.vmem, 62, rfl⟩
abbrev cc3_stg10_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc1_sem10_0 : DmaSem sig := 30
abbrev cc1_sem10_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem9_1 : DmaSem sig := 45
abbrev cc2_sem10_0 : DmaSem sig := 46
abbrev cc2_sem10_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem4_0 : DmaSem sig := 55
abbrev cc3_sem5_0 : DmaSem sig := 56
abbrev cc3_sem6_0 : DmaSem sig := 57
abbrev cc3_sem7_0 : DmaSem sig := 58
abbrev cc3_sem8_0 : DmaSem sig := 59
abbrev cc3_sem9_0 : DmaSem sig := 60
abbrev cc3_sem9_1 : DmaSem sig := 61
abbrev cc3_sem10_0 : DmaSem sig := 62
abbrev cc3_sem10_1 : DmaSem sig := 63

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S2000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S2x384x128_S1x384x128_0_0_0 : S2x384x128.Slices ![0, 0, 0] S1x384x128
  shapeCasts_S1x384x128_S384x128 : S1x384x128.ShapeCasts S384x128
  slices_S2x128_S1x128_0_0 : S2x128.Slices ![0, 0] S1x128
  shapeCasts_S1x128_S128 : S1x128.ShapeCasts S128
  slices_S2x128x128_S1x128x128_0_0_0 : S2x128x128.Slices ![0, 0, 0] S1x128x128
  shapeCasts_S1x128x128_S128x128 : S1x128x128.ShapeCasts S128x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S50000x128 : S_.BroadcastsInDim S50000x128 (![] : Fin 0 → Fin S50000x128.rank)
  slices_S2x384x128_S1x384x128_1_0_0 : S2x384x128.Slices ![1, 0, 0] S1x384x128
  slices_S2x128_S1x128_1_0 : S2x128.Slices ![1, 0] S1x128
  slices_S2x128x128_S1x128x128_1_0_0 : S2x128x128.Slices ![1, 0, 0] S1x128x128
  gather_S50000x128_S400000x1_S400000x128_1_0_n_n_0_1_1128_wf : GatherDims.WF S50000x128 S400000x1 S400000x128 [1] [0] [] [0] [] 1 ![1, 128]
  dot_S2000x128_S128x128_S2000x128_1_0_0_1_n_n_wf : DotDims.WF S2000x128 S128x128 S2000x128 [1] [0] [0] [1] [] []
  scatter_S50000x128_S400000x1_S400000x128_1_0_0_1_wf : ScatterDims.WF S50000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S400000x128.size a
  hwx0_0 : ∀ i : grid0.Coords, EltTy.bits .f32 = 32 ∨ (Rect.block (s := S400000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S400000x128.size a
  hwx0_1 : ∀ i : grid0.Coords, EltTy.bits .f32 = 32 ∨ (Rect.block (s := S400000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S400000x128.size a
  hwx0_2 : ∀ i : grid0.Coords, EltTy.bits .f32 = 32 ∨ (Rect.block (s := S400000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S400000x128.size a
  hwx0_9 : ∀ i : grid0.Coords, EltTy.bits .f32 = 32 ∨ (Rect.block (s := S400000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S400000x128.size a
  hwx0_10 : ∀ i : grid0.Coords, EltTy.bits .f32 = 32 ∨ (Rect.block (s := S400000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S400000x128.size a
  hwx2_0 : ∀ i : grid2.Coords, EltTy.bits .f32 = 32 ∨ (Rect.block (s := S400000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S400000x128.size a
  hwx2_1 : ∀ i : grid2.Coords, EltTy.bits .f32 = 32 ∨ (Rect.block (s := S400000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S400000x128.size a
  hwx2_2 : ∀ i : grid2.Coords, EltTy.bits .f32 = 32 ∨ (Rect.block (s := S400000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S400000x128.size a
  hwx2_9 : ∀ i : grid2.Coords, EltTy.bits .f32 = 32 ∨ (Rect.block (s := S400000x128) S2000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S400000x128.size a
  hwx2_10 : ∀ i : grid2.Coords, EltTy.bits .f32 = 32 ∨ (Rect.block (s := S400000x128) S2000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S50000x128.size a
  hwx3_9 : ∀ i : grid3.Coords, EltTy.bits .f32 = 32 ∨ (Rect.block (s := S50000x128) S2000x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x128.size a ≤ S50000x128.size a
  hwx3_10 : ∀ i : grid3.Coords, EltTy.bits .f32 = 32 ∨ (Rect.block (s := S50000x128) S2000x128.size (cc3_transform_10 i) (hinb3_10 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15_1) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v35_1) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v15_1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v43) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v50) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v51_0) S2000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v51_1) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v35_1) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v66) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v63) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v70) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v71_0) S2000x128.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v71_1) S2000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S50000x128 : Shape := ⟨2, ![50000, 128]⟩
abbrev S400000x128 : Shape := ⟨2, ![400000, 128]⟩
abbrev S2x384x128 : Shape := ⟨3, ![2, 384, 128]⟩
abbrev S2x128 : Shape := ⟨2, ![2, 128]⟩
abbrev S2x128x128 : Shape := ⟨3, ![2, 128, 128]⟩
abbrev S400000 : Shape := ⟨1, ![400000]⟩
abbrev S_ : Shape := ⟨0, ![]⟩
abbrev S400000x1 : Shape := ⟨2, ![400000, 1]⟩
abbrev S400000x384 : Shape := ⟨2, ![400000, 384]⟩
abbrev S1x384x128 : Shape := ⟨3, ![1, 384, 128]⟩
abbrev S384x128 : Shape := ⟨2, ![384, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S50000x384 : Shape := ⟨2, ![50000, 384]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S400000x128, .f32⟩
  | 2 => ⟨S2x384x128, .f32⟩
  | 3 => ⟨S2x128, .f32⟩
  | 4 => ⟨S2x128x128, .f32⟩
  | 5 => ⟨S2x128, .f32⟩
  | 6 => ⟨S2x384x128, .f32⟩
  | 7 => ⟨S2x128, .f32⟩
  | 8 => ⟨S2x128x128, .f32⟩
  | 9 => ⟨S2x128, .f32⟩
  | 10 => ⟨S400000, .i32⟩
  | 11 => ⟨S400000, .i32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S400000x128, .f32⟩
  | 21 => ⟨S_, .i32⟩
  | 22 => ⟨S400000, .i32⟩
  | 23 => ⟨S400000, .i1⟩
  | 24 => ⟨S_, .i32⟩
  | 25 => ⟨S400000, .i32⟩
  | 26 => ⟨S400000, .i32⟩
  | 27 => ⟨S400000, .i32⟩
  | 28 => ⟨S400000x1, .i32⟩
  | 29 => ⟨S400000x128, .f32⟩
  | 30 => ⟨S400000x384, .f32⟩
  | 31 => ⟨S1x384x128, .f32⟩
  | 32 => ⟨S384x128, .f32⟩
  | 33 => ⟨S1x128, .f32⟩
  | 34 => ⟨S128, .f32⟩
  | 35 => ⟨S1x128x128, .f32⟩
  | 36 => ⟨S128x128, .f32⟩
  | 37 => ⟨S1x128, .f32⟩
  | 38 => ⟨S128, .f32⟩
  | 39 => ⟨S400000x128, .f32⟩
  | 40 => ⟨S1x128, .f32⟩
  | 41 => ⟨S400000x128, .f32⟩
  | 42 => ⟨S400000x128, .f32⟩
  | 43 => ⟨S_, .f32⟩
  | 44 => ⟨S400000x128, .f32⟩
  | 45 => ⟨S400000x128, .f32⟩
  | 46 => ⟨S400000x128, .f32⟩
  | 47 => ⟨S1x128, .f32⟩
  | 48 => ⟨S400000x128, .f32⟩
  | 49 => ⟨S400000x128, .f32⟩
  | 50 => ⟨S_, .f32⟩
  | 51 => ⟨S400000x128, .f32⟩
  | 52 => ⟨S400000x128, .f32⟩
  | 53 => ⟨S_, .f32⟩
  | 54 => ⟨S50000x128, .f32⟩
  | 55 => ⟨S400000x1, .i32⟩
  | 56 => ⟨S50000x128, .f32⟩
  | 57 => ⟨S_, .f32⟩
  | 58 => ⟨S50000x128, .f32⟩
  | 59 => ⟨S400000x1, .i32⟩
  | 60 => ⟨S50000x128, .f32⟩
  | 61 => ⟨S50000x384, .f32⟩
  | 62 => ⟨S1x384x128, .f32⟩
  | 63 => ⟨S384x128, .f32⟩
  | 64 => ⟨S1x128, .f32⟩
  | 65 => ⟨S128, .f32⟩
  | 66 => ⟨S1x128x128, .f32⟩
  | 67 => ⟨S128x128, .f32⟩
  | 68 => ⟨S1x128, .f32⟩
  | 69 => ⟨S128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S400000x128, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x128, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000x128, .f32⟩
  | 104 => ⟨S400000x384, .f32⟩
  | 105 => ⟨S1x384x128, .f32⟩
  | 106 => ⟨S384x128, .f32⟩
  | 107 => ⟨S1x128, .f32⟩
  | 108 => ⟨S128, .f32⟩
  | 109 => ⟨S1x128x128, .f32⟩
  | 110 => ⟨S128x128, .f32⟩
  | 111 => ⟨S1x128, .f32⟩
  | 112 => ⟨S128, .f32⟩
  | 113 => ⟨S400000x128, .f32⟩
  | 114 => ⟨S1x128, .f32⟩
  | 115 => ⟨S400000x128, .f32⟩
  | 116 => ⟨S400000x128, .f32⟩
  | 117 => ⟨S_, .f32⟩
  | 118 => ⟨S400000x128, .f32⟩
  | 119 => ⟨S400000x128, .f32⟩
  | 120 => ⟨S400000x128, .f32⟩
  | 121 => ⟨S1x128, .f32⟩
  | 122 => ⟨S400000x128, .f32⟩
  | 123 => ⟨S400000x128, .f32⟩
  | 124 => ⟨S_, .f32⟩
  | 125 => ⟨S400000x128, .f32⟩
  | 126 => ⟨S400000x128, .f32⟩
  | 127 => ⟨S_, .f32⟩
  | _ => ⟨S50000x128, .f32⟩

abbrev hbmTy0_1 (i : Nat) : BufTy := match i % 128 with
  | 0 => ⟨S50000x128, .f32⟩
  | 1 => ⟨S400000x1, .i32⟩
  | 2 => ⟨S50000x128, .f32⟩
  | 3 => ⟨S_, .f32⟩
  | 4 => ⟨S50000x128, .f32⟩
  | 5 => ⟨S400000x1, .i32⟩
  | 6 => ⟨S50000x128, .f32⟩
  | 7 => ⟨S50000x384, .f32⟩
  | 8 => ⟨S1x384x128, .f32⟩
  | 9 => ⟨S384x128, .f32⟩
  | 10 => ⟨S1x128, .f32⟩
  | 11 => ⟨S128, .f32⟩
  | 12 => ⟨S1x128x128, .f32⟩
  | 13 => ⟨S128x128, .f32⟩
  | 14 => ⟨S1x128, .f32⟩
  | 15 => ⟨S128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S50000x128, .f32⟩
  | 31 => ⟨S400000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_cst : Ref sig .tc := ⟨.hbm, 50, rfl⟩
abbrev main_call1_v0 : Ref sig .tc := ⟨.hbm, 51, rfl⟩
abbrev main_v32 : Ref sig .tc := ⟨.hbm, 52, rfl⟩
abbrev main_cst : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call2_cst : Ref sig .tc := ⟨.hbm, 74, rfl⟩
abbrev main_call2_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call3_cst : Ref sig .tc := ⟨.hbm, 81, rfl⟩
abbrev main_call3_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_4 : Ref sig .tc := ⟨.hbm, 86, rfl⟩
abbrev main_v60 : Ref sig .tc := ⟨.hbm, 87, rfl⟩
abbrev main_v61 : Ref sig .tc := ⟨.hbm, 88, rfl⟩
abbrev main_c_5 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_6 : Ref sig .tc := ⟨.hbm, 95, rfl⟩
abbrev main_v67 : Ref sig .tc := ⟨.hbm, 96, rfl⟩
abbrev main_v68 : Ref sig .tc := ⟨.hbm, 97, rfl⟩
abbrev main_c_7 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_call4_cst : Ref sig .tc := ⟨.hbm, 117, rfl⟩
abbrev main_call4_v0 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_call5_cst : Ref sig .tc := ⟨.hbm, 124, rfl⟩
abbrev main_call5_v0 : Ref sig .tc := ⟨.hbm, 125, rfl⟩
abbrev main_v92 : Ref sig .tc := ⟨.hbm, 126, rfl⟩
abbrev main_cst_8 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_9 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_call6_cst : Ref sig .tc := ⟨.hbm, 148, rfl⟩
abbrev main_call6_v0 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_call7_cst : Ref sig .tc := ⟨.hbm, 155, rfl⟩
abbrev main_call7_v0 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  slices_S2x384x128_S1x384x128_0_0_0 : S2x384x128.Slices ![0, 0, 0] S1x384x128
  shapeCasts_S1x384x128_S384x128 : S1x384x128.ShapeCasts S384x128
  slices_S2x128_S1x128_0_0 : S2x128.Slices ![0, 0] S1x128
  shapeCasts_S1x128_S128 : S1x128.ShapeCasts S128
  slices_S2x128x128_S1x128x128_0_0_0 : S2x128x128.Slices ![0, 0, 0] S1x128x128
  shapeCasts_S1x128x128_S128x128 : S1x128x128.ShapeCasts S128x128
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S_S50000x128 : S_.BroadcastsInDim S50000x128 (![] : Fin 0 → Fin S50000x128.rank)
  concatenates_S50000x128_S50000x128_S50000x128_S50000x384_d1 : Shape.Concatenates [S50000x128, S50000x128, S50000x128] S50000x384 1
  bcast_S1x128_S50000x128_0_1 : S1x128.BroadcastsInDim S50000x128 (![0, 1] : Fin 2 → Fin S50000x128.rank)
  slices_S2x384x128_S1x384x128_1_0_0 : S2x384x128.Slices ![1, 0, 0] S1x384x128
  slices_S2x128_S1x128_1_0 : S2x128.Slices ![1, 0] S1x128
  slices_S2x128x128_S1x128x128_1_0_0 : S2x128x128.Slices ![1, 0, 0] S1x128x128
  gather_S50000x128_S400000x1_S400000x128_1_0_n_n_0_1_1128_wf : GatherDims.WF S50000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x128_S400000x128_1_0_0_1_n_n_wf : DotDims.WF S400000x128 S128x128 S400000x128 [1] [0] [0] [1] [] []
  scatter_S50000x128_S400000x1_S400000x128_1_0_0_1_wf : ScatterDims.WF S50000x128 S400000x1 S400000x128 [1] [0] [0] 1
  dot_S50000x384_S384x128_S50000x128_1_0_0_1_n_n_wf : DotDims.WF S50000x384 S384x128 S50000x128 [1] [0] [0] [1] [] []
  dot_S50000x128_S128x128_S50000x128_1_0_0_1_n_n_wf : DotDims.WF S50000x128 S128x128 S50000x128 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RefRun.lean ====
/-
  The reference's run, stretch by stretch.

  The reference's @main is one straight line of 148 host operations.  A straight line's effect on the buffers is a
  fold: each operation rewrites its result buffer to its function of its operand buffers and leaves every other
  buffer as it was.  The fold over two lines in a row is the fold over the second from the fold over the first.  The
  line is cut into five stretches, each cut placed just before a concatenation of three arrays, so that every
  stretch reads the arrays it joins at the boundary before it:

    A  the wrapped indices and step 0's two gathers of node rows;
    B  step 0's edge perceptron and the two segment sums of its message;
    C  step 0's node perceptron, the two residual sums (nodes and edges after step 0), step 1's two gathers;
    D  step 1's edge perceptron and the two segment sums of its message;
    E  step 1's node perceptron and the two residual sums that are the results.

  At each boundary only a few buffers are still wanted: the twelve arguments (no operation writes one) and a few
  stages.  Each such buffer, read through one stretch, is the stretch's operations applied to what the stretch
  found; with the found values named by the stages of the boundary before, that is the next stage, by unfolding its
  definition operation by operation.  Chaining the five boundaries gives the two results as their stages of the
  argument arrays as launched, and the arguments unchanged.  Nothing here depends on the float values: it is stated
  for any, and read at the ideal ones at the end.
-/
import proofs.«403012_j35450660061796_1_alg».proof.Proof.RunOps
import proofs.«403012_j35450660061796_1_alg».proof.Proof.ReadP
import Idealize.ShloMosaic.Lib.StableHlo.Run
import Idealize.ShloMosaic.Lib.Pipeline.Frame

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Step 0's two gathers: the wrapped sender and receiver indices and the node rows they name. -/
def opsA : List (HloOp τ sig (Elt F)) :=
  [ nullary main_c (constantI S_ 32 0#32),
    unary main_c main_v0 (broadcastInDim S400000 ![] bcast_S_S400000 : (⟨S_, .i32⟩ : BufTy).Contents (Elt F) → (⟨S400000, .i32⟩ : BufTy).Contents (Elt F)),
    binary main_arg10 main_v0 main_v1 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v2 (broadcastInDim S400000 ![] bcast_S_S400000 : (⟨S_, .i32⟩ : BufTy).Contents (Elt F) → (⟨S400000, .i32⟩ : BufTy).Contents (Elt F)),
    binary main_arg10 main_v2 main_v3 (addi : (⟨S400000, .i32⟩ : BufTy).Contents (Elt F) → (⟨S400000, .i32⟩ : BufTy).Contents (Elt F) → (⟨S400000, .i32⟩ : BufTy).Contents (Elt F)),
    ternary main_v1 main_v3 main_arg10 main_v4 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v4 main_v5 (broadcastInDim S400000x1 ![0] bcast_S400000_S400000x1_0 : (⟨S400000, .i32⟩ : BufTy).Contents (Elt F) → (⟨S400000x1, .i32⟩ : BufTy).Contents (Elt F)),
    binary main_arg0 main_v5 main_v6 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_1 (constantI S_ 32 0#32),
    unary main_c_1 main_v7 (broadcastInDim S400000 ![] bcast_S_S400000 : (⟨S_, .i32⟩ : BufTy).Contents (Elt F) → (⟨S400000, .i32⟩ : BufTy).Contents (Elt F)),
    binary main_arg11 main_v7 main_v8 (cmpi .slt : (⟨S400000, .i32⟩ : BufTy).Contents (Elt F) → (⟨S400000, .i32⟩ : BufTy).Contents (Elt F) → (⟨S400000, .i1⟩ : BufTy).Contents (Elt F)),
    nullary main_c_2 (constantI S_ 32 50000#32),
    unary main_c_2 main_v9 (broadcastInDim S400000 ![] bcast_S_S400000 : (⟨S_, .i32⟩ : BufTy).Contents (Elt F) → (⟨S400000, .i32⟩ : BufTy).Contents (Elt F)),
    binary main_arg11 main_v9 main_v10 (addi : (⟨S400000, .i32⟩ : BufTy).Contents (Elt F) → (⟨S400000, .i32⟩ : BufTy).Contents (Elt F) → (⟨S400000, .i32⟩ : BufTy).Contents (Elt F)),
    ternary main_v8 main_v10 main_arg11 main_v11 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v11 main_v12 (broadcastInDim S400000x1 ![0] bcast_S400000_S400000x1_0 : (⟨S400000, .i32⟩ : BufTy).Contents (Elt F) → (⟨S400000x1, .i32⟩ : BufTy).Contents (Elt F)),
    binary main_arg0 main_v12 main_v13 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) ]

/-- Step 0's edge perceptron on [edges | sender rows | receiver rows] and the two segment sums of its message. -/
def opsB : List (HloOp τ sig (Elt F)) :=
  [ nary ![main_arg1, main_v6, main_v13] main_v14 (fun u => concatenate S400000x384 1 [⟨S400000x128, u 0⟩, ⟨S400000x128, u 1⟩, ⟨S400000x128, u 2⟩] concatenates_S400000x128_S400000x128_S400000x128_S400000x384_d1),
    unary main_arg2 main_v15 ((extractStridedSlice S1x384x128 ![0, 0, 0] · slices_S2x384x128_S1x384x128_0_0_0) : (⟨S2x384x128, .f32⟩ : BufTy).Contents (Elt F) → (⟨S1x384x128, .f32⟩ : BufTy).Contents (Elt F)),
    reshape main_v15 main_v16 rfl shapeCasts_S1x384x128_S384x128,
    unary main_arg3 main_v17 ((extractStridedSlice S1x128 ![0, 0] · slices_S2x128_S1x128_0_0) : (⟨S2x128, .f32⟩ : BufTy).Contents (Elt F) → (⟨S1x128, .f32⟩ : BufTy).Contents (Elt F)),
    reshape main_v17 main_v18 rfl shapeCasts_S1x128_S128,
    unary main_arg4 main_v19 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v19 main_v20 rfl shapeCasts_S1x128x128_S128x128,
    unary main_arg5 main_v21 ((extractStridedSlice S1x128 ![0, 0] · slices_S2x128_S1x128_0_0) : (⟨S2x128, .f32⟩ : BufTy).Contents (Elt F) → (⟨S1x128, .f32⟩ : BufTy).Contents (Elt F)),
    reshape main_v21 main_v22 rfl shapeCasts_S1x128_S128,
    binary main_v14 main_v16 main_v23 ((fun l r => Host.dotGeneral dot_S400000x384_S384x128_S400000x128_1_0_0_1_n_n none l r) : (⟨S400000x384, .f32⟩ : BufTy).Contents (Elt F) → (⟨S384x128, .f32⟩ : BufTy).Contents (Elt F) → (⟨S400000x128, .f32⟩ : BufTy).Contents (Elt F)),
    unary main_v18 main_v24 (broadcastInDim S1x128 ![1] bcast_S128_S1x128_1 : (⟨S128, .f32⟩ : BufTy).Contents (Elt F) → (⟨S1x128, .f32⟩ : BufTy).Contents (Elt F)),
    unary main_v24 main_v25 (broadcastInDim S400000x128 ![0, 1] bcast_S1x128_S400000x128_0_1 : (⟨S1x128, .f32⟩ : BufTy).Contents (Elt F) → (⟨S400000x128, .f32⟩ : BufTy).Contents (Elt F)),
    binary main_v23 main_v25 main_v26 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S400000x128, .f32⟩) main_call0_v0) (broadcastInDim S400000x128 ![] bcast_S_S400000x128),
    TRef.binary (TRef.of (T := ⟨S400000x128, .f32⟩) main_v26) (TRef.of (T := ⟨S400000x128, .f32⟩) main_call0_v0) (TRef.of (T := ⟨S400000x128, .f32⟩) main_v27) maximumf,
    binary main_v27 main_v20 main_v28 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_v22 main_v29 (broadcastInDim S1x128 ![1] bcast_S128_S1x128_1 : (⟨S128, .f32⟩ : BufTy).Contents (Elt F) → (⟨S1x128, .f32⟩ : BufTy).Contents (Elt F)),
    unary main_v29 main_v30 (broadcastInDim S400000x128 ![0, 1] bcast_S1x128_S400000x128_0_1 : (⟨S1x128, .f32⟩ : BufTy).Contents (Elt F) → (⟨S400000x128, .f32⟩ : BufTy).Contents (Elt F)),
    binary main_v28 main_v30 main_v31 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S400000x128, .f32⟩) main_call1_v0) (broadcastInDim S400000x128 ![] bcast_S_S400000x128),
    TRef.binary (TRef.of (T := ⟨S400000x128, .f32⟩) main_v31) (TRef.of (T := ⟨S400000x128, .f32⟩) main_call1_v0) (TRef.of (T := ⟨S400000x128, .f32⟩) main_v32) maximumf,
    nullary main_cst (constant S_ .f32 0x00000000#32),
    unary main_cst main_v33 (broadcastInDim S50000x128 ![] bcast_S_S50000x128 : (⟨S_, .f32⟩ : BufTy).Contents (Elt F) → (⟨S50000x128, .f32⟩ : BufTy).Contents (Elt F)),
    unary main_arg10 main_v34 (broadcastInDim S400000x1 ![0] bcast_S400000_S400000x1_0 : (⟨S400000, .i32⟩ : BufTy).Contents (Elt F) → (⟨S400000x1, .i32⟩ : BufTy).Contents (Elt F)),
    ternary main_v33 main_v34 main_v32 main_v35 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    nullary main_cst_3 (constant S_ .f32 0x00000000#32),
    unary main_cst_3 main_v36 (broadcastInDim S50000x128 ![] bcast_S_S50000x128 : (⟨S_, .f32⟩ : BufTy).Contents (Elt F) → (⟨S50000x128, .f32⟩ : BufTy).Contents (Elt F)),
    unary main_arg11 main_v37 (broadcastInDim S400000x1 ![0] bcast_S400000_S400000x1_0 : (⟨S400000, .i32⟩ : BufTy).Contents (Elt F) → (⟨S400000x1, .i32⟩ : BufTy).Contents (Elt F)),
    ternary main_v36 main_v37 main_v32 main_v38 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) ]

/-- Step 0's node perceptron on [nodes | the two aggregates], the two residual sums, and step 1's two gathers. -/
def opsC : List (HloOp τ sig (Elt F)) :=
  [ nary ![main_arg0, main_v35, main_v38] main_v39 (fun u => concatenate S50000x384 1 [⟨S50000x128, u 0⟩, ⟨S50000x128, u 1⟩, ⟨S50000x128, u 2⟩] concatenates_S50000x128_S50000x128_S50000x128_S50000x384_d1),
    unary main_arg6 main_v40 ((extractStridedSlice S1x384x128 ![0, 0, 0] · slices_S2x384x128_S1x384x128_0_0_0) : (⟨S2x384x128, .f32⟩ : BufTy).Contents (Elt F) → (⟨S1x384x128, .f32⟩ : BufTy).Contents (Elt F)),
    reshape main_v40 main_v41 rfl shapeCasts_S1x384x128_S384x128,
    unary main_arg7 main_v42 ((extractStridedSlice S1x128 ![0, 0] · slices_S2x128_S1x128_0_0) : (⟨S2x128, .f32⟩ : BufTy).Contents (Elt F) → (⟨S1x128, .f32⟩ : BufTy).Contents (Elt F)),
    reshape main_v42 main_v43 rfl shapeCasts_S1x128_S128,
    unary main_arg8 main_v44 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v44 main_v45 rfl shapeCasts_S1x128x128_S128x128,
    unary main_arg9 main_v46 ((extractStridedSlice S1x128 ![0, 0] · slices_S2x128_S1x128_0_0) : (⟨S2x128, .f32⟩ : BufTy).Contents (Elt F) → (⟨S1x128, .f32⟩ : BufTy).Contents (Elt F)),
    reshape main_v46 main_v47 rfl shapeCasts_S1x128_S128,
    binary main_v39 main_v41 main_v48 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    unary main_v43 main_v49 (broadcastInDim S1x128 ![1] bcast_S128_S1x128_1 : (⟨S128, .f32⟩ : BufTy).Contents (Elt F) → (⟨S1x128, .f32⟩ : BufTy).Contents (Elt F)),
    unary main_v49 main_v50 (broadcastInDim S50000x128 ![0, 1] bcast_S1x128_S50000x128_0_1 : (⟨S1x128, .f32⟩ : BufTy).Contents (Elt F) → (⟨S50000x128, .f32⟩ : BufTy).Contents (Elt F)),
    binary main_v48 main_v50 main_v51 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v51) (TRef.of (T := ⟨S50000x128, .f32⟩) main_call2_v0) (TRef.of (T := ⟨S50000x128, .f32⟩) main_v52) maximumf,
    binary main_v52 main_v45 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v47 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v56) (TRef.of (T := ⟨S50000x128, .f32⟩) main_call3_v0) (TRef.of (T := ⟨S50000x128, .f32⟩) main_v57) maximumf,
    binary main_arg0 main_v57 main_v58 (addf : (⟨S50000x128, .f32⟩ : BufTy).Contents (Elt F) → (⟨S50000x128, .f32⟩ : BufTy).Contents (Elt F) → (⟨S50000x128, .f32⟩ : BufTy).Contents (Elt F)),
    binary main_arg1 main_v32 main_v59 (addf : (⟨S400000x128, .f32⟩ : BufTy).Contents (Elt F) → (⟨S400000x128, .f32⟩ : BufTy).Contents (Elt F) → (⟨S400000x128, .f32⟩ : BufTy).Contents (Elt F)),
    nullary main_c_4 (constantI S_ 32 0#32),
    unary main_c_4 main_v60 (broadcastInDim S400000 ![] bcast_S_S400000 : (⟨S_, .i32⟩ : BufTy).Contents (Elt F) → (⟨S400000, .i32⟩ : BufTy).Contents (Elt F)),
    binary main_arg10 main_v60 main_v61 (cmpi .slt : (⟨S400000, .i32⟩ : BufTy).Contents (Elt F) → (⟨S400000, .i32⟩ : BufTy).Contents (Elt F) → (⟨S400000, .i1⟩ : BufTy).Contents (Elt F)),
    nullary main_c_5 (constantI S_ 32 50000#32),
    unary main_c_5 main_v62 (broadcastInDim S400000 ![] bcast_S_S400000 : (⟨S_, .i32⟩ : BufTy).Contents (Elt F) → (⟨S400000, .i32⟩ : BufTy).Contents (Elt F)),
    binary main_arg10 main_v62 main_v63 (addi : (⟨S400000, .i32⟩ : BufTy).Contents (Elt F) → (⟨S400000, .i32⟩ : BufTy).Contents (Elt F) → (⟨S400000, .i32⟩ : BufTy).Contents (Elt F)),
    ternary main_v61 main_v63 main_arg10 main_v64 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v64 main_v65 (broadcastInDim S400000x1 ![0] bcast_S400000_S400000x1_0 : (⟨S400000, .i32⟩ : BufTy).Contents (Elt F) → (⟨S400000x1, .i32⟩ : BufTy).Contents (Elt F)),
    binary main_v58 main_v65 main_v66 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_6 (constantI S_ 32 0#32),
    unary main_c_6 main_v67 (broadcastInDim S400000 ![] bcast_S_S400000 : (⟨S_, .i32⟩ : BufTy).Contents (Elt F) → (⟨S400000, .i32⟩ : BufTy).Contents (Elt F)),
    binary main_arg11 main_v67 main_v68 (cmpi .slt : (⟨S400000, .i32⟩ : BufTy).Contents (Elt F) → (⟨S400000, .i32⟩ : BufTy).Contents (Elt F) → (⟨S400000, .i1⟩ : BufTy).Contents (Elt F)),
    nullary main_c_7 (constantI S_ 32 50000#32),
    unary main_c_7 main_v69 (broadcastInDim S400000 ![] bcast_S_S400000 : (⟨S_, .i32⟩ : BufTy).Contents (Elt F) → (⟨S400000, .i32⟩ : BufTy).Contents (Elt F)),
    binary main_arg11 main_v69 main_v70 (addi : (⟨S400000, .i32⟩ : BufTy).Contents (Elt F) → (⟨S400000, .i32⟩ : BufTy).Contents (Elt F) → (⟨S400000, .i32⟩ : BufTy).Contents (Elt F)),
    ternary main_v68 main_v70 main_arg11 main_v71 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v71 main_v72 (broadcastInDim S400000x1 ![0] bcast_S400000_S400000x1_0 : (⟨S400000, .i32⟩ : BufTy).Contents (Elt F) → (⟨S400000x1, .i32⟩ : BufTy).Contents (Elt F)),
    binary main_v58 main_v72 main_v73 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) ]

/-- Step 1's edge perceptron and the two segment sums of its message. -/
def opsD : List (HloOp τ sig (Elt F)) :=
  [ nary ![main_v59, main_v66, main_v73] main_v74 (fun u => concatenate S400000x384 1 [⟨S400000x128, u 0⟩, ⟨S400000x128, u 1⟩, ⟨S400000x128, u 2⟩] concatenates_S400000x128_S400000x128_S400000x128_S400000x384_d1),
    unary main_arg2 main_v75 ((extractStridedSlice S1x384x128 ![1, 0, 0] · slices_S2x384x128_S1x384x128_1_0_0) : (⟨S2x384x128, .f32⟩ : BufTy).Contents (Elt F) → (⟨S1x384x128, .f32⟩ : BufTy).Contents (Elt F)),
    reshape main_v75 main_v76 rfl shapeCasts_S1x384x128_S384x128,
    unary main_arg3 main_v77 ((extractStridedSlice S1x128 ![1, 0] · slices_S2x128_S1x128_1_0) : (⟨S2x128, .f32⟩ : BufTy).Contents (Elt F) → (⟨S1x128, .f32⟩ : BufTy).Contents (Elt F)),
    reshape main_v77 main_v78 rfl shapeCasts_S1x128_S128,
    unary main_arg4 main_v79 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v79 main_v80 rfl shapeCasts_S1x128x128_S128x128,
    unary main_arg5 main_v81 ((extractStridedSlice S1x128 ![1, 0] · slices_S2x128_S1x128_1_0) : (⟨S2x128, .f32⟩ : BufTy).Contents (Elt F) → (⟨S1x128, .f32⟩ : BufTy).Contents (Elt F)),
    reshape main_v81 main_v82 rfl shapeCasts_S1x128_S128,
    binary main_v74 main_v76 main_v83 ((fun l r => Host.dotGeneral dot_S400000x384_S384x128_S400000x128_1_0_0_1_n_n none l r) : (⟨S400000x384, .f32⟩ : BufTy).Contents (Elt F) → (⟨S384x128, .f32⟩ : BufTy).Contents (Elt F) → (⟨S400000x128, .f32⟩ : BufTy).Contents (Elt F)),
    unary main_v78 main_v84 (broadcastInDim S1x128 ![1] bcast_S128_S1x128_1 : (⟨S128, .f32⟩ : BufTy).Contents (Elt F) → (⟨S1x128, .f32⟩ : BufTy).Contents (Elt F)),
    unary main_v84 main_v85 (broadcastInDim S400000x128 ![0, 1] bcast_S1x128_S400000x128_0_1 : (⟨S1x128, .f32⟩ : BufTy).Contents (Elt F) → (⟨S400000x128, .f32⟩ : BufTy).Contents (Elt F)),
    binary main_v83 main_v85 main_v86 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S400000x128, .f32⟩) main_call4_v0) (broadcastInDim S400000x128 ![] bcast_S_S400000x128),
    TRef.binary (TRef.of (T := ⟨S400000x128, .f32⟩) main_v86) (TRef.of (T := ⟨S400000x128, .f32⟩) main_call4_v0) (TRef.of (T := ⟨S400000x128, .f32⟩) main_v87) maximumf,
    binary main_v87 main_v80 main_v88 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_v82 main_v89 (broadcastInDim S1x128 ![1] bcast_S128_S1x128_1 : (⟨S128, .f32⟩ : BufTy).Contents (Elt F) → (⟨S1x128, .f32⟩ : BufTy).Contents (Elt F)),
    unary main_v89 main_v90 (broadcastInDim S400000x128 ![0, 1] bcast_S1x128_S400000x128_0_1 : (⟨S1x128, .f32⟩ : BufTy).Contents (Elt F) → (⟨S400000x128, .f32⟩ : BufTy).Contents (Elt F)),
    binary main_v88 main_v90 main_v91 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S400000x128, .f32⟩) main_call5_v0) (broadcastInDim S400000x128 ![] bcast_S_S400000x128),
    TRef.binary (TRef.of (T := ⟨S400000x128, .f32⟩) main_v91) (TRef.of (T := ⟨S400000x128, .f32⟩) main_call5_v0) (TRef.of (T := ⟨S400000x128, .f32⟩) main_v92) maximumf,
    nullary main_cst_8 (constant S_ .f32 0x00000000#32),
    unary main_cst_8 main_v93 (broadcastInDim S50000x128 ![] bcast_S_S50000x128 : (⟨S_, .f32⟩ : BufTy).Contents (Elt F) → (⟨S50000x128, .f32⟩ : BufTy).Contents (Elt F)),
    unary main_arg10 main_v94 (broadcastInDim S400000x1 ![0] bcast_S400000_S400000x1_0 : (⟨S400000, .i32⟩ : BufTy).Contents (Elt F) → (⟨S400000x1, .i32⟩ : BufTy).Contents (Elt F)),
    ternary main_v93 main_v94 main_v92 main_v95 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    nullary main_cst_9 (constant S_ .f32 0x00000000#32),
    unary main_cst_9 main_v96 (broadcastInDim S50000x128 ![] bcast_S_S50000x128 : (⟨S_, .f32⟩ : BufTy).Contents (Elt F) → (⟨S50000x128, .f32⟩ : BufTy).Contents (Elt F)),
    unary main_arg11 main_v97 (broadcastInDim S400000x1 ![0] bcast_S400000_S400000x1_0 : (⟨S400000, .i32⟩ : BufTy).Contents (Elt F) → (⟨S400000x1, .i32⟩ : BufTy).Contents (Elt F)),
    ternary main_v96 main_v97 main_v92 main_v98 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) ]

/-- Step 1's node perceptron and the two residual sums that are the results. -/
def opsE : List (HloOp τ sig (Elt F)) :=
  [ nary ![main_v58, main_v95, main_v98] main_v99 (fun u => concatenate S50000x384 1 [⟨S50000x128, u 0⟩, ⟨S50000x128, u 1⟩, ⟨S50000x128, u 2⟩] concatenates_S50000x128_S50000x128_S50000x128_S50000x384_d1),
    unary main_arg6 main_v100 ((extractStridedSlice S1x384x128 ![1, 0, 0] · slices_S2x384x128_S1x384x128_1_0_0) : (⟨S2x384x128, .f32⟩ : BufTy).Contents (Elt F) → (⟨S1x384x128, .f32⟩ : BufTy).Contents (Elt F)),
    reshape main_v100 main_v101 rfl shapeCasts_S1x384x128_S384x128,
    unary main_arg7 main_v102 ((extractStridedSlice S1x128 ![1, 0] · slices_S2x128_S1x128_1_0) : (⟨S2x128, .f32⟩ : BufTy).Contents (Elt F) → (⟨S1x128, .f32⟩ : BufTy).Contents (Elt F)),
    reshape main_v102 main_v103 rfl shapeCasts_S1x128_S128,
    unary main_arg8 main_v104 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v104 main_v105 rfl shapeCasts_S1x128x128_S128x128,
    unary main_arg9 main_v106 ((extractStridedSlice S1x128 ![1, 0] · slices_S2x128_S1x128_1_0) : (⟨S2x128, .f32⟩ : BufTy).Contents (Elt F) → (⟨S1x128, .f32⟩ : BufTy).Contents (Elt F)),
    reshape main_v106 main_v107 rfl shapeCasts_S1x128_S128,
    binary main_v99 main_v101 main_v108 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    unary main_v103 main_v109 (broadcastInDim S1x128 ![1] bcast_S128_S1x128_1 : (⟨S128, .f32⟩ : BufTy).Contents (Elt F) → (⟨S1x128, .f32⟩ : BufTy).Contents (Elt F)),
    unary main_v109 main_v110 (broadcastInDim S50000x128 ![0, 1] bcast_S1x128_S50000x128_0_1 : (⟨S1x128, .f32⟩ : BufTy).Contents (Elt F) → (⟨S50000x128, .f32⟩ : BufTy).Contents (Elt F)),
    binary main_v108 main_v110 main_v111 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v111) (TRef.of (T := ⟨S50000x128, .f32⟩) main_call6_v0) (TRef.of (T := ⟨S50000x128, .f32⟩) main_v112) maximumf,
    binary main_v112 main_v105 main_v113 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v107 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v113 main_v115 main_v116 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v116) (TRef.of (T := ⟨S50000x128, .f32⟩) main_call7_v0) (TRef.of (T := ⟨S50000x128, .f32⟩) main_v117) maximumf,
    binary main_v58 main_v117 main_v118 (addf : (⟨S50000x128, .f32⟩ : BufTy).Contents (Elt F) → (⟨S50000x128, .f32⟩ : BufTy).Contents (Elt F) → (⟨S50000x128, .f32⟩ : BufTy).Contents (Elt F)),
    binary main_v59 main_v92 main_v119 (addf : (⟨S400000x128, .f32⟩ : BufTy).Contents (Elt F) → (⟨S400000x128, .f32⟩ : BufTy).Contents (Elt F) → (⟨S400000x128, .f32⟩ : BufTy).Contents (Elt F)) ]

/-- The reference's whole line of 148 operations is the five stretches in a row. -/
theorem ops_split : (Value.ops (F := F)) = opsA ++ (opsB ++ (opsC ++ (opsD ++ opsE))) := rfl

/-! ## The argument arrays pass every stretch untouched -/

section
variable (W : Valuation τ sig (Elt F))
  (x0 : (⟨S50000x128, .f32⟩ : BufTy).Contents (Elt F))
  (x1 : (⟨S400000x128, .f32⟩ : BufTy).Contents (Elt F))
  (x2 : (⟨S2x384x128, .f32⟩ : BufTy).Contents (Elt F))
  (x3 : (⟨S2x128, .f32⟩ : BufTy).Contents (Elt F))
  (x4 : (⟨S2x128x128, .f32⟩ : BufTy).Contents (Elt F))
  (x5 : (⟨S2x128, .f32⟩ : BufTy).Contents (Elt F))
  (x6 : (⟨S2x384x128, .f32⟩ : BufTy).Contents (Elt F))
  (x7 : (⟨S2x128, .f32⟩ : BufTy).Contents (Elt F))
  (x8 : (⟨S2x128x128, .f32⟩ : BufTy).Contents (Elt F))
  (x9 : (⟨S2x128, .f32⟩ : BufTy).Contents (Elt F))
  (x10 : (⟨S400000, .i32⟩ : BufTy).Contents (Elt F))
  (x11 : (⟨S400000, .i32⟩ : BufTy).Contents (Elt F))

/-- The valuation holds the twelve argument arrays at their buffers. -/
structure Holds : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11

variable {W} {x0 x1 x2 x3 x4 x5 x6 x7 x8 x9 x10 x11}

/-! No operation of any of the five stretches writes an argument. -/

theorem Holds.throughA (h : Holds W x0 x1 x2 x3 x4 x5 x6 x7 x8 x9 x10 x11) : Holds (after opsA W) x0 x1 x2 x3 x4 x5 x6 x7 x8 x9 x10 x11 := by
  obtain ⟨h0, h1, h2, h3, h4, h5, h6, h7, h8, h9, h10, h11⟩ := h
  constructor <;> (simp only [opsA]; after_results_simp; assumption)

theorem Holds.throughB (h : Holds W x0 x1 x2 x3 x4 x5 x6 x7 x8 x9 x10 x11) : Holds (after opsB W) x0 x1 x2 x3 x4 x5 x6 x7 x8 x9 x10 x11 := by
  obtain ⟨h0, h1, h2, h3, h4, h5, h6, h7, h8, h9, h10, h11⟩ := h
  constructor <;> (simp only [opsB]; after_results_simp; assumption)

theorem Holds.throughC (h : Holds W x0 x1 x2 x3 x4 x5 x6 x7 x8 x9 x10 x11) : Holds (after opsC W) x0 x1 x2 x3 x4 x5 x6 x7 x8 x9 x10 x11 := by
  obtain ⟨h0, h1, h2, h3, h4, h5, h6, h7, h8, h9, h10, h11⟩ := h
  constructor <;> (simp only [opsC]; after_results_simp; assumption)

theorem Holds.throughD (h : Holds W x0 x1 x2 x3 x4 x5 x6 x7 x8 x9 x10 x11) : Holds (after opsD W) x0 x1 x2 x3 x4 x5 x6 x7 x8 x9 x10 x11 := by
  obtain ⟨h0, h1, h2, h3, h4, h5, h6, h7, h8, h9, h10, h11⟩ := h
  constructor <;> (simp only [opsD]; after_results_simp; assumption)

theorem Holds.throughE (h : Holds W x0 x1 x2 x3 x4 x5 x6 x7 x8 x9 x10 x11) : Holds (after opsE W) x0 x1 x2 x3 x4 x5 x6 x7 x8 x9 x10 x11 := by
  obtain ⟨h0, h1, h2, h3, h4, h5, h6, h7, h8, h9, h10, h11⟩ := h
  constructor <;> (simp only [opsE]; after_results_simp; assumption)

/-! A stage computed by an earlier stretch and still wanted passes the later ones untouched. -/

theorem keepD_v58 : after opsD W (Proc.devRef .tc main_v58) = W (Proc.devRef .tc main_v58) := by
  simp only [opsD]; after_results_simp
theorem keepD_v59 : after opsD W (Proc.devRef .tc main_v59) = W (Proc.devRef .tc main_v59) := by
  simp only [opsD]; after_results_simp

/-! ## Each stretch's live results, from the values it finds

Reading a result buffer through its stretch leaves the stretch's operations applied to what the stretch found in the
buffers it reads; with those named (the arguments, and the earlier stretches' stages) that is the stage itself, which
unfolds operation by operation to the same term. -/

/-- Step 0's gathered sender rows. -/
theorem stepA_v6 (h : Holds W x0 x1 x2 x3 x4 x5 x6 x7 x8 x9 x10 x11) :
    after opsA W (Proc.devRef .tc main_v6) = Read.val_main_v6 (F := F) x0 x10 := by
  simp only [opsA]; after_results_simp
  rw [h.a0, h.a10]
  rfl

/-- Step 0's gathered receiver rows. -/
theorem stepA_v13 (h : Holds W x0 x1 x2 x3 x4 x5 x6 x7 x8 x9 x10 x11) :
    after opsA W (Proc.devRef .tc main_v13) = Read.val_main_v13 (F := F) x0 x11 := by
  simp only [opsA]; after_results_simp
  rw [h.a0, h.a11]
  rfl

/-- Step 0's message: the edge perceptron of the edges and the gathered rows. -/
theorem stepB_v32 (h : Holds W x0 x1 x2 x3 x4 x5 x6 x7 x8 x9 x10 x11)
    (h6 : W (Proc.devRef .tc main_v6) = Read.val_main_v6 (F := F) x0 x10)
    (h13 : W (Proc.devRef .tc main_v13) = Read.val_main_v13 (F := F) x0 x11) :
    after opsB W (Proc.devRef .tc main_v32) = Read.val_main_v32 (F := F) x0 x1 x2 x3 x4 x5 x10 x11 := by
  simp only [opsB]; after_results_simp
  dsimp only [Matrix.cons_val]
  simp only [TRef.ofBuf, TRef.toBuf, cast_eq]
  rw [h6, h13, h.a1, h.a2, h.a3, h.a4, h.a5]
  rfl

/-- The message summed into the sender nodes. -/
theorem stepB_v35 (h : Holds W x0 x1 x2 x3 x4 x5 x6 x7 x8 x9 x10 x11)
    (h6 : W (Proc.devRef .tc main_v6) = Read.val_main_v6 (F := F) x0 x10)
    (h13 : W (Proc.devRef .tc main_v13) = Read.val_main_v13 (F := F) x0 x11) :
    after opsB W (Proc.devRef .tc main_v35) = Read.val_main_v35 (F := F) x0 x1 x2 x3 x4 x5 x10 x11 := by
  simp only [opsB]; after_results_simp
  dsimp only [Matrix.cons_val]
  simp only [TRef.ofBuf, TRef.toBuf, cast_eq]
  rw [h6, h13, h.a1, h.a2, h.a3, h.a4, h.a5, h.a10]
  rfl

/-- The message summed into the receiver nodes. -/
theorem stepB_v38 (h : Holds W x0 x1 x2 x3 x4 x5 x6 x7 x8 x9 x10 x11)
    (h6 : W (Proc.devRef .tc main_v6) = Read.val_main_v6 (F := F) x0 x10)
    (h13 : W (Proc.devRef .tc main_v13) = Read.val_main_v13 (F := F) x0 x11) :
    after opsB W (Proc.devRef .tc main_v38) = Read.val_main_v38 (F := F) x0 x1 x2 x3 x4 x5 x10 x11 := by
  simp only [opsB]; after_results_simp
  dsimp only [Matrix.cons_val]
  simp only [TRef.ofBuf, TRef.toBuf, cast_eq]
  rw [h6, h13, h.a1, h.a2, h.a3, h.a4, h.a5, h.a11]
  rfl

/-- The nodes after step 0: the residual sum of the nodes and the node perceptron of the nodes and the two aggregates. -/
theorem stepC_v58 (h : Holds W x0 x1 x2 x3 x4 x5 x6 x7 x8 x9 x10 x11)
    (h35 : W (Proc.devRef .tc main_v35) = Read.val_main_v35 (F := F) x0 x1 x2 x3 x4 x5 x10 x11)
    (h38 : W (Proc.devRef .tc main_v38) = Read.val_main_v38 (F := F) x0 x1 x2 x3 x4 x5 x10 x11) :
    after opsC W (Proc.devRef .tc main_v58) = Read.val_main_v58 (F := F) x0 x1 x2 x3 x4 x5 x6 x7 x8 x9 x10 x11 := by
  simp only [opsC]; after_results_simp
  dsimp only [Matrix.cons_val]
  simp only [TRef.ofBuf, TRef.toBuf, cast_eq]
  rw [h35, h38, h.a0, h.a6, h.a7, h.a8, h.a9]
  rfl

/-- The edges after step 0: the residual sum of the edges and the message. -/
theorem stepC_v59 (h : Holds W x0 x1 x2 x3 x4 x5 x6 x7 x8 x9 x10 x11)
    (h32 : W (Proc.devRef .tc main_v32) = Read.val_main_v32 (F := F) x0 x1 x2 x3 x4 x5 x10 x11) :
    after opsC W (Proc.devRef .tc main_v59) = Read.val_main_v59 (F := F) x0 x1 x2 x3 x4 x5 x10 x11 := by
  simp only [opsC]; after_results_simp
  rw [h32, h.a1]
  rfl

/-- Step 1's gathered sender rows, of the nodes after step 0. -/
theorem stepC_v66 (h : Holds W x0 x1 x2 x3 x4 x5 x6 x7 x8 x9 x10 x11)
    (h35 : W (Proc.devRef .tc main_v35) = Read.val_main_v35 (F := F) x0 x1 x2 x3 x4 x5 x10 x11)
    (h38 : W (Proc.devRef .tc main_v38) = Read.val_main_v38 (F := F) x0 x1 x2 x3 x4 x5 x10 x11) :
    after opsC W (Proc.devRef .tc main_v66) = Read.val_main_v66 (F := F) x0 x1 x2 x3 x4 x5 x6 x7 x8 x9 x10 x11 := by
  simp only [opsC]; after_results_simp
  dsimp only [Matrix.cons_val]
  simp only [TRef.ofBuf, TRef.toBuf, cast_eq]
  rw [h35, h38, h.a0, h.a6, h.a7, h.a8, h.a9, h.a10]
  rfl

/-- Step 1's gathered receiver rows. -/
theorem stepC_v73 (h : Holds W x0 x1 x2 x3 x4 x5 x6 x7 x8 x9 x10 x11)
    (h35 : W (Proc.devRef .tc main_v35) = Read.val_main_v35 (F := F) x0 x1 x2 x3 x4 x5 x10 x11)
    (h38 : W (Proc.devRef .tc main_v38) = Read.val_main_v38 (F := F) x0 x1 x2 x3 x4 x5 x10 x11) :
    after opsC W (Proc.devRef .tc main_v73) = Read.val_main_v73 (F := F) x0 x1 x2 x3 x4 x5 x6 x7 x8 x9 x10 x11 := by
  simp only [opsC]; after_results_simp
  dsimp only [Matrix.cons_val]
  simp only [TRef.ofBuf, TRef.toBuf, cast_eq]
  rw [h35, h38, h.a0, h.a6, h.a7, h.a8, h.a9, h.a11]
  rfl

/-- Step 1's message. -/
theorem stepD_v92 (h : Holds W x0 x1 x2 x3 x4 x5 x6 x7 x8 x9 x10 x11)
    (h59 : W (Proc.devRef .tc main_v59) = Read.val_main_v59 (F := F) x0 x1 x2 x3 x4 x5 x10 x11)
    (h66 : W (Proc.devRef .tc main_v66) = Read.val_main_v66 (F := F) x0 x1 x2 x3 x4 x5 x6 x7 x8 x9 x10 x11)
    (h73 : W (Proc.devRef .tc main_v73) = Read.val_main_v73 (F := F) x0 x1 x2 x3 x4 x5 x6 x7 x8 x9 x10 x11) :
    after opsD W (Proc.devRef .tc main_v92) = Read.val_main_v92 (F := F) x0 x1 x2 x3 x4 x5 x6 x7 x8 x9 x10 x11 := by
  simp only [opsD]; after_results_simp
  dsimp only [Matrix.cons_val]
  simp only [TRef.ofBuf, TRef.toBuf, cast_eq]
  rw [h59, h66, h73, h.a2, h.a3, h.a4, h.a5]
  rfl

/-- Step 1's message summed into the sender nodes. -/
theorem stepD_v95 (h : Holds W x0 x1 x2 x3 x4 x5 x6 x7 x8 x9 x10 x11)
    (h59 : W (Proc.devRef .tc main_v59) = Read.val_main_v59 (F := F) x0 x1 x2 x3 x4 x5 x10 x11)
    (h66 : W (Proc.devRef .tc main_v66) = Read.val_main_v66 (F := F) x0 x1 x2 x3 x4 x5 x6 x7 x8 x9 x10 x11)
    (h73 : W (Proc.devRef .tc main_v73) = Read.val_main_v73 (F := F) x0 x1 x2 x3 x4 x5 x6 x7 x8 x9 x10 x11) :
    after opsD W (Proc.devRef .tc main_v95) = Read.val_main_v95 (F := F) x0 x1 x2 x3 x4 x5 x6 x7 x8 x9 x10 x11 := by
  simp only [opsD]; after_results_simp
  dsimp only [Matrix.cons_val]
  simp only [TRef.ofBuf, TRef.toBuf, cast_eq]
  rw [h59, h66, h73, h.a2, h.a3, h.a4, h.a5, h.a10]
  rfl

/-- Step 1's message summed into the receiver nodes. -/
theorem stepD_v98 (h : Holds W x0 x1 x2 x3 x4 x5 x6 x7 x8 x9 x10 x11)
    (h59 : W (Proc.devRef .tc main_v59) = Read.val_main_v59 (F := F) x0 x1 x2 x3 x4 x5 x10 x11)
    (h66 : W (Proc.devRef .tc main_v66) = Read.val_main_v66 (F := F) x0 x1 x2 x3 x4 x5 x6 x7 x8 x9 x10 x11)
    (h73 : W (Proc.devRef .tc main_v73) = Read.val_main_v73 (F := F) x0 x1 x2 x3 x4 x5 x6 x7 x8 x9 x10 x11) :
    after opsD W (Proc.devRef .tc main_v98) = Read.val_main_v98 (F := F) x0 x1 x2 x3 x4 x5 x6 x7 x8 x9 x10 x11 := by
  simp only [opsD]; after_results_simp
  dsimp only [Matrix.cons_val]
  simp only [TRef.ofBuf, TRef.toBuf, cast_eq]
  rw [h59, h66, h73, h.a2, h.a3, h.a4, h.a5, h.a11]
  rfl

/-- The first result: the nodes after step 1. -/
theorem stepE_v118 (h : Holds W x0 x1 x2 x3 x4 x5 x6 x7 x8 x9 x10 x11)
    (h58 : W (Proc.devRef .tc main_v58) = Read.val_main_v58 (F := F) x0 x1 x2 x3 x4 x5 x6 x7 x8 x9 x10 x11)
    (h95 : W (Proc.devRef .tc main_v95) = Read.val_main_v95 (F := F) x0 x1 x2 x3 x4 x5 x6 x7 x8 x9 x10 x11)
    (h98 : W (Proc.devRef .tc main_v98) = Read.val_main_v98 (F := F) x0 x1 x2 x3 x4 x5 x6 x7 x8 x9 x10 x11) :
    after opsE W (Proc.devRef .tc main_v118) = Read.val_main_v118 (F := F) x0 x1 x2 x3 x4 x5 x6 x7 x8 x9 x10 x11 := by
  simp only [opsE]; after_results_simp
  dsimp only [Matrix.cons_val]
  simp only [TRef.ofBuf, TRef.toBuf, cast_eq]
  rw [h58, h95, h98, h.a6, h.a7, h.a8, h.a9]
  rfl

/-- The second result: the edges after step 1. -/
theorem stepE_v119 (h : Holds W x0 x1 x2 x3 x4 x5 x6 x7 x8 x9 x10 x11)
    (h59 : W (Proc.devRef .tc main_v59) = Read.val_main_v59 (F := F) x0 x1 x2 x3 x4 x5 x10 x11)
    (h92 : W (Proc.devRef .tc main_v92) = Read.val_main_v92 (F := F) x0 x1 x2 x3 x4 x5 x6 x7 x8 x9 x10 x11) :
    after opsE W (Proc.devRef .tc main_v119) = Read.val_main_v119 (F := F) x0 x1 x2 x3 x4 x5 x6 x7 x8 x9 x10 x11 := by
  simp only [opsE]; after_results_simp
  rw [h59, h92]
  rfl

end

/-! ## The five boundaries from the launch memory -/

section
variable (m : (ℓ : Loc nD τ sig) → Buf (Elt F) ℓ) (c : Dev nD)

/-- Core c's buffers after each of the five stretches, from its launch contents. -/
def WA : Valuation τ sig (Elt F) := after opsA (launchContents m c)
def WB : Valuation τ sig (Elt F) := after opsB (WA m c)
def WC : Valuation τ sig (Elt F) := after opsC (WB m c)
def WD : Valuation τ sig (Elt F) := after opsD (WC m c)
def WE : Valuation τ sig (Elt F) := after opsE (WD m c)

/-- The whole line run from the launch contents ends at the fifth boundary. -/
theorem after_ops : after (Value.ops (F := F)) (launchContents m c) = WE m c := by
  rw [ops_split, after_append, after_append, after_append, after_append]
  rfl

/-- A valuation holds core c's argument arrays as launched. -/
abbrev HoldsL (W : Valuation τ sig (Elt F)) : Prop :=
  Holds W (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

theorem hl0 : HoldsL m c (launchContents m c) := ⟨rfl, rfl, rfl, rfl, rfl, rfl, rfl, rfl, rfl, rfl, rfl, rfl⟩
theorem hlA : HoldsL m c (WA m c) := (hl0 m c).throughA
theorem hlB : HoldsL m c (WB m c) := (hlA m c).throughB
theorem hlC : HoldsL m c (WC m c) := (hlB m c).throughC
theorem hlD : HoldsL m c (WD m c) := (hlC m c).throughD
theorem hlE : HoldsL m c (WE m c) := (hlD m c).throughE

theorem wa_v6 : WA m c (Proc.devRef .tc main_v6) = Read.val_main_v6 (F := F) (m ((c.tc : Thread nD τ).loc main_arg0)) (m ((c.tc : Thread nD τ).loc main_arg10)) := stepA_v6 (hl0 m c)
theorem wa_v13 : WA m c (Proc.devRef .tc main_v13) = Read.val_main_v13 (F := F) (m ((c.tc : Thread nD τ).loc main_arg0)) (m ((c.tc : Thread nD τ).loc main_arg11)) := stepA_v13 (hl0 m c)
theorem wb_v32 : WB m c (Proc.devRef .tc main_v32) = Read.val_main_v32 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := stepB_v32 (hlA m c) (wa_v6 m c) (wa_v13 m c)
theorem wb_v35 : WB m c (Proc.devRef .tc main_v35) = Read.val_main_v35 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := stepB_v35 (hlA m c) (wa_v6 m c) (wa_v13 m c)
theorem wb_v38 : WB m c (Proc.devRef .tc main_v38) = Read.val_main_v38 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := stepB_v38 (hlA m c) (wa_v6 m c) (wa_v13 m c)
theorem wc_v58 : WC m c (Proc.devRef .tc main_v58) = Read.val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := stepC_v58 (hlB m c) (wb_v35 m c) (wb_v38 m c)
theorem wc_v59 : WC m c (Proc.devRef .tc main_v59) = Read.val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := stepC_v59 (hlB m c) (wb_v32 m c)
theorem wc_v66 : WC m c (Proc.devRef .tc main_v66) = Read.val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := stepC_v66 (hlB m c) (wb_v35 m c) (wb_v38 m c)
theorem wc_v73 : WC m c (Proc.devRef .tc main_v73) = Read.val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := stepC_v73 (hlB m c) (wb_v35 m c) (wb_v38 m c)
theorem wd_v58 : WD m c (Proc.devRef .tc main_v58) = Read.val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := keepD_v58.trans (wc_v58 m c)
theorem wd_v59 : WD m c (Proc.devRef .tc main_v59) = Read.val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := keepD_v59.trans (wc_v59 m c)
theorem wd_v92 : WD m c (Proc.devRef .tc main_v92) = Read.val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := stepD_v92 (hlC m c) (wc_v59 m c) (wc_v66 m c) (wc_v73 m c)
theorem wd_v95 : WD m c (Proc.devRef .tc main_v95) = Read.val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := stepD_v95 (hlC m c) (wc_v59 m c) (wc_v66 m c) (wc_v73 m c)
theorem wd_v98 : WD m c (Proc.devRef .tc main_v98) = Read.val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := stepD_v98 (hlC m c) (wc_v59 m c) (wc_v66 m c) (wc_v73 m c)
theorem we_v118 : WE m c (Proc.devRef .tc main_v118) = Read.val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := stepE_v118 (hlD m c) (wd_v58 m c) (wd_v95 m c) (wd_v98 m c)
theorem we_v119 : WE m c (Proc.devRef .tc main_v119) = Read.val_main_v119 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := stepE_v119 (hlD m c) (wd_v59 m c) (wd_v92 m c)

end

/-! ## The run -/

/-- Every operation determines its results (none allocates), stretch by stretch. -/
theorem freshA : ∀ op ∈ (opsA : List (HloOp τ sig (Elt F))), op.fresh = ∅ := by
  intro _ h; (repeat (cases h with | head => rfl | tail _ h => ?_)); exact nomatch h
theorem freshB : ∀ op ∈ (opsB : List (HloOp τ sig (Elt F))), op.fresh = ∅ := by
  intro _ h; (repeat (cases h with | head => rfl | tail _ h => ?_)); exact nomatch h
theorem freshC : ∀ op ∈ (opsC : List (HloOp τ sig (Elt F))), op.fresh = ∅ := by
  intro _ h; (repeat (cases h with | head => rfl | tail _ h => ?_)); exact nomatch h
theorem freshD : ∀ op ∈ (opsD : List (HloOp τ sig (Elt F))), op.fresh = ∅ := by
  intro _ h; (repeat (cases h with | head => rfl | tail _ h => ?_)); exact nomatch h
theorem freshE : ∀ op ∈ (opsE : List (HloOp τ sig (Elt F))), op.fresh = ∅ := by
  intro _ h; (repeat (cases h with | head => rfl | tail _ h => ?_)); exact nomatch h
theorem fresh_ops : ∀ op ∈ (Value.ops : List (HloOp τ sig (Elt F))), op.fresh = ∅ := by
  intro op h
  rw [ops_split] at h
  simp only [List.mem_append] at h
  rcases h with h | h | h | h | h
  exacts [freshA op h, freshB op h, freshC op h, freshD op h, freshE op h]

/-- On every device, for any float values, from any memory with zero counters: every weakly fair execution of @main
    terminates with the two results at their stages of the argument arrays as launched, and the arguments unchanged. -/
theorem run_any (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = Read.val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v119) = Read.val_main_v119 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c main_v118).trans ((congrFun (after_ops m c) _).trans (we_v118 m c)),
       (h c main_v119).trans ((congrFun (after_ops m c) _).trans (we_v119 m c)),
       (h c main_arg0).trans ((congrFun (after_ops m c) _).trans (hlE m c).a0),
       (h c main_arg1).trans ((congrFun (after_ops m c) _).trans (hlE m c).a1),
       (h c main_arg2).trans ((congrFun (after_ops m c) _).trans (hlE m c).a2),
       (h c main_arg3).trans ((congrFun (after_ops m c) _).trans (hlE m c).a3),
       (h c main_arg4).trans ((congrFun (after_ops m c) _).trans (hlE m c).a4),
       (h c main_arg5).trans ((congrFun (after_ops m c) _).trans (hlE m c).a5),
       (h c main_arg6).trans ((congrFun (after_ops m c) _).trans (hlE m c).a6),
       (h c main_arg7).trans ((congrFun (after_ops m c) _).trans (hlE m c).a7),
       (h c main_arg8).trans ((congrFun (after_ops m c) _).trans (hlE m c).a8),
       (h c main_arg9).trans ((congrFun (after_ops m c) _).trans (hlE m c).a9),
       (h c main_arg10).trans ((congrFun (after_ops m c) _).trans (hlE m c).a10),
       (h c main_arg11).trans ((congrFun (after_ops m c) _).trans (hlE m c).a11)⟩)
    (run_seq Value.scopedRefs_eq Value.scopedSems_eq defs main (fun _ => Value.ops) Value.main_eq (fun _ => Value.ops_sub) m ρ (fun _ => fresh_ops))

/-- The same at the ideal values. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118) = Read.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v119) = Read.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  run_any m ρ

end Cert.ReferenceIdeal.RefRun

end
-- ==== Proof.Spec.lean ====
/-
  The mathematics both programs compute, stated once over whole arrays at the ideal instance (extended reals).

  A two-layer perceptron on rows.  For row arrays X, A, B of width 128 (M rows each), three 128x128 matrices Wa, Wb, Wc
  (the three row-chunks of the first layer's 384x128 weight), a bias b1, a second 128x128 matrix W2 and a bias b2:

      hidden r k = max (((x_r . Wa_k + a_r . Wb_k) + b_r . Wc_k) + b1_k) 0
      mlpOut (r, j) = max ((sum_k hidden r k * W2 (k, j)) + b2_j) 0
      mlpRes (r, j) = X (r, j) + mlpOut (r, j)

  The sum of the three partial products is what a product of the concatenated row [x_r | a_r | b_r] with the whole
  first-layer weight is, regrouped; grouping and order of a finite sum do not matter on the extended reals, so no
  finiteness is used anywhere.

  One message-passing step gathers the sender and receiver rows of the node array for every edge, updates the edges
  by the perceptron (keeping both the message and the residual sum), sums the messages into their sender and receiver
  nodes, and updates the nodes by a second perceptron.  Two steps are taken; the results are the node and edge
  arrays after the second.
-/
import proofs.«403012_j35450660061796_1_alg».proof.KernelIdeal
import Idealize.ShloMosaic.PureOps.Ideal
import Idealize.ShloMosaic.Lib.ValueIdx

noncomputable section

namespace Cert.Spec

open Idealize.ShloMosaic Idealize.ShloMosaic.ValueIdx Cert.KernelIdeal Cert.KernelIdeal.Facts₀

variable [Cert.KernelIdeal.Facts₀]

/-- An array of M rows of width 128. -/
abbrev Rows (M : Nat) : Type := FVec Ideal (⟨2, ![M, 128]⟩ : Shape) .f32
abbrev Mat : Type := FVec Ideal S128x128 .f32
abbrev Bias : Type := FVec Ideal S1x128 .f32

/-- The hidden layer at row r, unit k: the three partial products, the bias, the rectifier. -/
def hidden {M : Nat} (X A B : Rows M) (Wa Wb Wc : Mat) (b1 : Bias) (r : Fin M) (k : Fin 128) : EReal :=
  max ((((∑ l : Fin 128, X (ix2 r l) * Wa (ix2 l k)) + (∑ l : Fin 128, A (ix2 r l) * Wb (ix2 l k)))
      + (∑ l : Fin 128, B (ix2 r l) * Wc (ix2 l k))) + b1 (ix2 (0 : Fin 1) k)) 0

/-- The perceptron's output (the message). -/
def mlpOut {M : Nat} (X A B : Rows M) (Wa Wb Wc : Mat) (b1 : Bias) (W2 : Mat) (b2 : Bias) : Rows M :=
  fun i => max ((∑ k : Fin 128, hidden X A B Wa Wb Wc b1 (i 0) k * W2 (ix2 k (i 1))) + b2 (ix2 (0 : Fin 1) (i 1))) 0

/-- The residual update: the first operand plus the message. -/
def mlpRes {M : Nat} (X A B : Rows M) (Wa Wb Wc : Mat) (b1 : Bias) (W2 : Mat) (b2 : Bias) : Rows M :=
  fun i => X i + mlpOut X A B Wa Wb Wc b1 W2 b2 i

/-! ## The host operations both programs share, spelt as they print -/

/-- An index array with its negative entries counted from the end (python's convention), as a column. -/
def wrapIdx (idx : IVec S400000 32) : IVec S400000x1 32 :=
  broadcastInDim S400000x1 ![0] bcast_S400000_S400000x1_0
    (select (cmpi .slt idx (broadcastInDim S400000 ![] bcast_S_S400000 (constantI S_ 32 0#32)))
      (addi idx (broadcastInDim S400000 ![] bcast_S_S400000 (constantI S_ 32 50000#32))) idx)

/-- The node rows an index array names, one per edge. -/
def gatherRows (nodes : Rows 50000) (idx : IVec S400000 32) : Rows 400000 :=
  Host.gather gather_S50000x128_S400000x1_S400000x128_1_0_n_n_0_1_1128 nodes (wrapIdx idx)

/-- The edge rows summed into the nodes an index array names. -/
def segSum (idx : IVec S400000 32) (upd : Rows 400000) : Rows 50000 :=
  Host.scatterAdd scatter_S50000x128_S400000x1_S400000x128_1_0_0_1
    (broadcastInDim S50000x128 ![] bcast_S_S50000x128 (constant S_ .f32 0x00000000#32))
    (broadcastInDim S400000x1 ![0] bcast_S400000_S400000x1_0 idx) upd

/-- The three row-chunks of a first-layer weight, and a bias as a one-row matrix. -/
def chunkA (W1 : FVec Ideal S384x128 .f32) : Mat := extractStridedSlice S128x128 ![0, 0] W1 slices_S384x128_S128x128_0_0
def chunkB (W1 : FVec Ideal S384x128 .f32) : Mat := extractStridedSlice S128x128 ![128, 0] W1 slices_S384x128_S128x128_128_0
def chunkC (W1 : FVec Ideal S384x128 .f32) : Mat := extractStridedSlice S128x128 ![256, 0] W1 slices_S384x128_S128x128_256_0
def biasRow (b : FVec Ideal S128 .f32) : Bias := shapeCast S1x128 b shapeCasts_S128_S1x128

/-- Step h's slices of the stacked weights. -/
def w1At0 (W : FVec Ideal S2x384x128 .f32) : FVec Ideal S384x128 .f32 :=
  shapeCast S384x128 (extractStridedSlice S1x384x128 ![0, 0, 0] W slices_S2x384x128_S1x384x128_0_0_0) shapeCasts_S1x384x128_S384x128
def w1At1 (W : FVec Ideal S2x384x128 .f32) : FVec Ideal S384x128 .f32 :=
  shapeCast S384x128 (extractStridedSlice S1x384x128 ![1, 0, 0] W slices_S2x384x128_S1x384x128_1_0_0) shapeCasts_S1x384x128_S384x128
def w2At0 (W : FVec Ideal S2x128x128 .f32) : Mat :=
  shapeCast S128x128 (extractStridedSlice S1x128x128 ![0, 0, 0] W slices_S2x128x128_S1x128x128_0_0_0) shapeCasts_S1x128x128_S128x128
def w2At1 (W : FVec Ideal S2x128x128 .f32) : Mat :=
  shapeCast S128x128 (extractStridedSlice S1x128x128 ![1, 0, 0] W slices_S2x128x128_S1x128x128_1_0_0) shapeCasts_S1x128x128_S128x128
def bAt0 (b : FVec Ideal S2x128 .f32) : FVec Ideal S128 .f32 :=
  shapeCast S128 (extractStridedSlice S1x128 ![0, 0] b slices_S2x128_S1x128_0_0) shapeCasts_S1x128_S128
def bAt1 (b : FVec Ideal S2x128 .f32) : FVec Ideal S128 .f32 :=
  shapeCast S128 (extractStridedSlice S1x128 ![1, 0] b slices_S2x128_S1x128_1_0) shapeCasts_S1x128_S128

/-! ## The two steps -/

/-- The twelve argument arrays. -/
structure Args where
  nodes : Rows 50000
  edges : Rows 400000
  eW1 : FVec Ideal S2x384x128 .f32
  eb1 : FVec Ideal S2x128 .f32
  eW2 : FVec Ideal S2x128x128 .f32
  eb2 : FVec Ideal S2x128 .f32
  nW1 : FVec Ideal S2x384x128 .f32
  nb1 : FVec Ideal S2x128 .f32
  nW2 : FVec Ideal S2x128x128 .f32
  nb2 : FVec Ideal S2x128 .f32
  snd : IVec S400000 32
  rcv : IVec S400000 32

variable (a : Args)

/-- Step 0: gathered rows, the message, the updated edges, the two aggregates, the updated nodes. -/
def sRows0 : Rows 400000 := gatherRows a.nodes a.snd
def rRows0 : Rows 400000 := gatherRows a.nodes a.rcv
def msg0 : Rows 400000 :=
  mlpOut a.edges (sRows0 a) (rRows0 a) (chunkA (w1At0 a.eW1)) (chunkB (w1At0 a.eW1)) (chunkC (w1At0 a.eW1))
    (biasRow (bAt0 a.eb1)) (w2At0 a.eW2) (biasRow (bAt0 a.eb2))
def edges1 : Rows 400000 :=
  mlpRes a.edges (sRows0 a) (rRows0 a) (chunkA (w1At0 a.eW1)) (chunkB (w1At0 a.eW1)) (chunkC (w1At0 a.eW1))
    (biasRow (bAt0 a.eb1)) (w2At0 a.eW2) (biasRow (bAt0 a.eb2))
def sent0 : Rows 50000 := segSum a.snd (msg0 a)
def recv0 : Rows 50000 := segSum a.rcv (msg0 a)
def nodes1 : Rows 50000 :=
  mlpRes a.nodes (sent0 a) (recv0 a) (chunkA (w1At0 a.nW1)) (chunkB (w1At0 a.nW1)) (chunkC (w1At0 a.nW1))
    (biasRow (bAt0 a.nb1)) (w2At0 a.nW2) (biasRow (bAt0 a.nb2))

/-- Step 1, from step 0's nodes and edges. -/
def sRows1 : Rows 400000 := gatherRows (nodes1 a) a.snd
def rRows1 : Rows 400000 := gatherRows (nodes1 a) a.rcv
def msg1 : Rows 400000 :=
  mlpOut (edges1 a) (sRows1 a) (rRows1 a) (chunkA (w1At1 a.eW1)) (chunkB (w1At1 a.eW1)) (chunkC (w1At1 a.eW1))
    (biasRow (bAt1 a.eb1)) (w2At1 a.eW2) (biasRow (bAt1 a.eb2))
def edges2 : Rows 400000 :=
  mlpRes (edges1 a) (sRows1 a) (rRows1 a) (chunkA (w1At1 a.eW1)) (chunkB (w1At1 a.eW1)) (chunkC (w1At1 a.eW1))
    (biasRow (bAt1 a.eb1)) (w2At1 a.eW2) (biasRow (bAt1 a.eb2))
def sent1 : Rows 50000 := segSum a.snd (msg1 a)
def recv1 : Rows 50000 := segSum a.rcv (msg1 a)
def nodes2 : Rows 50000 :=
  mlpRes (nodes1 a) (sent1 a) (recv1 a) (chunkA (w1At1 a.nW1)) (chunkB (w1At1 a.nW1)) (chunkC (w1At1 a.nW1))
    (biasRow (bAt1 a.nb1)) (w2At1 a.nW2) (biasRow (bAt1 a.nb2))

/-- Every entry of an index array names a row of the 50000-row node array, counted from the front or (negative)
    from the end. -/
def InRange (idx : IVec S400000 32) : Prop :=
  ∀ e : S400000.Idx, -50000 ≤ (idx e).toInt ∧ (idx e).toInt < 50000

end Cert.Spec

end
-- ==== Proof.Take.lean ====
/-
  Reading rows of the node array by an index array, the way the kernel's host program does it.

  The kernel names a row per edge in three moves.  First every negative index is counted from the end: an entry s
  becomes s + 50000 when s < 0 and stays s otherwise.  Then the rows are read at the resulting positions, a position
  outside the array being moved to its nearest end.  Last, every row whose position lay outside [0, 49999] is
  overwritten with a not-a-number filler.  The reference makes only the first two moves.

  When every entry s of the index array satisfies -50000 ≤ s < 50000 (read as a signed 32-bit word), the position
  w = (s + 50000 if s < 0, else s) satisfies 0 ≤ w ≤ 49999: for s < 0 the sum s + 50000 lies in [0, 49999] and does not
  wrap, and for s ≥ 0 it is s itself.  So no row is overwritten and the two readings agree.  This file states the
  kernel's reading as one function of the node array and the index array, proves that agreement, and shows that each of
  the four stretches of host operations that perform it leaves exactly that function's value in its result buffer.
-/
import proofs.«403012_j35450660061796_1_alg».proof.Proof.Gen.KernelIdeal.Launch
import proofs.«403012_j35450660061796_1_alg».proof.Proof.Spec
import Idealize.ShloMosaic.Lib.StableHlo.Run
import Idealize.ShloMosaic.Lib.ValueIdx
import Idealize.ShloMosaic.PureOps.Reduce

set_option maxRecDepth 16384

noncomputable section

namespace Cert.KernelIdeal.Take

open Idealize.ShloMosaic Idealize.ShloMosaic.ValueIdx
open Cert.KernelIdeal Cert.KernelIdeal.Gen

/-- The kernel's reading: the rows at the wrapped positions, each row whose wrapped position is outside [0, 49999]
    replaced by the filler.  The mask of the rows kept is the conjunction, reduced over the column's one entry, of
    "position ≥ 0" and "position ≤ 49999". -/
def take (nodes : Spec.Rows 50000) (idx : IVec S400000 32) : Spec.Rows 400000 :=
  select
    (broadcastInDim S400000x128 ![0] bcast_S400000_S400000x128_0
      (Host.reduce IntOp.andi
        (andi
          (cmpi .sge (Spec.wrapIdx idx) (broadcastInDim S400000x1 ![] bcast_S_S400000x1 (constantI S_ 32 0#32)))
          (cmpi .sle (Spec.wrapIdx idx)
            (broadcastInDim S400000x1 ![0, 1] bcast_S1x1_S400000x1_0_1
              (broadcastInDim S1x1 ![1] bcast_S1_S1x1_1 (constantI S1 32 49999#32)))))
        (constantI S_ 1 1#1) reducesTo_S400000x1_S400000_d1 h_S_))
    (Host.gather gather_S50000x128_S400000x1_S400000x128_1_0_n_n_0_1_1128 nodes (Spec.wrapIdx idx))
    (broadcastInDim S400000x128 ![] bcast_S_S400000x128 (constant (F := Ideal) S_ .f32 0x7FC00000#32))

/-! ## One entry: the wrapped position of an entry in range is a row of the array -/

/-- For a signed 32-bit word s with -50000 ≤ s < 50000, the word w = (s + 50000 if s < 0, else s) has
    0 ≤ w ≤ 49999: below zero the sum lies in [0, 49999], far inside the signed range, so the 32-bit addition is the
    integers'; from zero on w is s. -/
theorem wrap_lo_hi (s : BitVec 32) (h1 : -50000 ≤ s.toInt) (h2 : s.toInt < 50000) :
    0 ≤ (Scalar.select (IntOp.cmpi .slt s 0#32) (IntOp.addi s 50000#32) s).toInt
      ∧ (Scalar.select (IntOp.cmpi .slt s 0#32) (IntOp.addi s 50000#32) s).toInt ≤ 49999 := by
  have h0 : (0#32 : BitVec 32).toInt = 0 := by decide
  have h5 : (50000#32 : BitVec 32).toInt = 50000 := by decide
  by_cases hs : s.toInt < 0
  · have hc : IntOp.cmpi .slt s 0#32 = 1#1 := by
      show BitVec.ofBool (s.slt 0#32) = 1#1
      rw [BitVec.slt, h0, decide_eq_true hs]; rfl
    rw [hc, select_one]
    show 0 ≤ (s + 50000#32).toInt ∧ (s + 50000#32).toInt ≤ 49999
    rw [BitVec.toInt_add, h5, Int.bmod_def]
    omega
  · have hc : IntOp.cmpi .slt s 0#32 = 0#1 := by
      show BitVec.ofBool (s.slt 0#32) = 0#1
      rw [BitVec.slt, h0, decide_eq_false hs]; rfl
    rw [hc, select_zero]
    omega

/-- So both of the kernel's tests on the wrapped position, "≥ 0" and "≤ 49999", come out true, and so does their
    conjunction. -/
theorem wrap_mask (s : BitVec 32) (h1 : -50000 ≤ s.toInt) (h2 : s.toInt < 50000) :
    IntOp.andi
      (IntOp.cmpi .sge (Scalar.select (IntOp.cmpi .slt s 0#32) (IntOp.addi s 50000#32) s) 0#32)
      (IntOp.cmpi .sle (Scalar.select (IntOp.cmpi .slt s 0#32) (IntOp.addi s 50000#32) s) 49999#32) = 1#1 := by
  obtain ⟨hlo, hhi⟩ := wrap_lo_hi s h1 h2
  have h0 : (0#32 : BitVec 32).toInt = 0 := by decide
  have h9 : (49999#32 : BitVec 32).toInt = 49999 := by decide
  show BitVec.ofBool ((0#32 : BitVec 32).sle _) &&& BitVec.ofBool (BitVec.sle _ 49999#32) = 1#1
  rw [BitVec.sle, BitVec.sle, h0, h9, decide_eq_true hlo, decide_eq_true hhi]; rfl

/-- A conjunction of truths, folded from a truth, is a truth. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-! ## The whole array -/

/-- The wrapped position at a row of the column is the wrap of one entry of the index array. -/
theorem wrapIdx_apply (idx : IVec S400000 32) (k : S400000x1.Idx) :
    ∃ e : S400000.Idx, Spec.wrapIdx idx k
      = Scalar.select (IntOp.cmpi .slt (idx e) 0#32) (IntOp.addi (idx e) 50000#32) (idx e) :=
  ⟨_, rfl⟩

/-- With every entry in range the mask of the rows kept is all ones: each of its entries is a conjunction, over one
    position, of two tests that both hold. -/
theorem mask_one (idx : IVec S400000 32) (h : Spec.InRange idx) (j : S400000.Idx) :
    Host.reduce IntOp.andi
        (andi
          (cmpi .sge (Spec.wrapIdx idx) (broadcastInDim S400000x1 ![] bcast_S_S400000x1 (constantI S_ 32 0#32)))
          (cmpi .sle (Spec.wrapIdx idx)
            (broadcastInDim S400000x1 ![0, 1] bcast_S1x1_S400000x1_0_1
              (broadcastInDim S1x1 ![1] bcast_S1_S1x1_1 (constantI S1 32 49999#32)))))
        (constantI S_ 1 1#1) reducesTo_S400000x1_S400000_d1 h_S_ j = 1#1 := by
  rw [Host.reduce_eq_foldl]
  refine foldl_andi_ones _ _ fun k _ => ?_
  obtain ⟨e, he⟩ := wrapIdx_apply idx k
  show IntOp.andi (IntOp.cmpi .sge (Spec.wrapIdx idx k) 0#32) (IntOp.cmpi .sle (Spec.wrapIdx idx k) 49999#32) = 1#1
  rw [he]
  exact wrap_mask (idx e) (h e).1 (h e).2

/-- With every entry in range the kernel's reading is the reference's: no row is replaced by the filler. -/
theorem take_eq (nodes : Spec.Rows 50000) (idx : IVec S400000 32) (h : Spec.InRange idx) :
    take nodes idx = Spec.gatherRows nodes idx := by
  funext i
  unfold take
  rw [select_apply]
  have hm : ∀ i, broadcastInDim S400000x128 ![0] bcast_S400000_S400000x128_0
      (Host.reduce IntOp.andi
        (andi
          (cmpi .sge (Spec.wrapIdx idx) (broadcastInDim S400000x1 ![] bcast_S_S400000x1 (constantI S_ 32 0#32)))
          (cmpi .sle (Spec.wrapIdx idx)
            (broadcastInDim S400000x1 ![0, 1] bcast_S1x1_S400000x1_0_1
              (broadcastInDim S1x1 ![1] bcast_S1_S1x1_1 (constantI S1 32 49999#32)))))
        (constantI S_ 1 1#1) reducesTo_S400000x1_S400000_d1 h_S_) i = 1#1 := fun i => mask_one idx h _
  rw [hm, select_one]
  rfl

/-! ## The four stretches of host operations

Each stretch is the same twenty-three operations over its own buffers; read at its result buffer, what it leaves is
`take` of the node buffer and the index buffer it reads, whatever the buffers held before. -/

/-- A value carried into a buffer of its own type and back is itself. -/
theorem ofBuf_toBuf {sig : RefSig} {T : BufTy} {Val : EltTy → Type} (x : StableHlo.TRef sig T) (v : T.Contents Val) :
    x.ofBuf (x.toBuf v) = v := by
  simp only [StableHlo.TRef.ofBuf, StableHlo.TRef.toBuf, cast_cast, cast_eq]

variable (W : Valuation τ sig (Elt Ideal))

/-- The first step's sender rows. -/
theorem hostOps0_take :
    StableHlo.after (hostOps0 (F := Ideal)) W (Proc.devRef .tc main_v0)
      = take (W (Proc.devRef .tc main_arg0)) (W (Proc.devRef .tc main_arg10)) := by
  simp only [hostOps0]
  after_results_simp
  simp only [ofBuf_toBuf,
    show (.of main_arg10 : StableHlo.TRef sig ⟨S400000, .i32⟩).ofBuf (W (Proc.devRef .tc main_arg10))
      = W (Proc.devRef .tc main_arg10) from rfl,
    show (.of main_arg0 : StableHlo.TRef sig ⟨S50000x128, .f32⟩).ofBuf (W (Proc.devRef .tc main_arg0))
      = W (Proc.devRef .tc main_arg0) from rfl]
  rw [show ∀ v : (⟨S400000x128, .f32⟩ : BufTy).Contents (Elt Ideal),
      (.of main_v0 : StableHlo.TRef sig ⟨S400000x128, .f32⟩).toBuf v = v from fun v => rfl]
  unfold take Spec.wrapIdx
  rfl

/-- The first step's receiver rows. -/
theorem hostOps0_1_take :
    StableHlo.after (hostOps0_1 (F := Ideal)) W (Proc.devRef .tc main_v1)
      = take (W (Proc.devRef .tc main_arg0)) (W (Proc.devRef .tc main_arg11)) := by
  simp only [hostOps0_1]
  after_results_simp
  simp only [ofBuf_toBuf,
    show (.of main_arg11 : StableHlo.TRef sig ⟨S400000, .i32⟩).ofBuf (W (Proc.devRef .tc main_arg11))
      = W (Proc.devRef .tc main_arg11) from rfl,
    show (.of main_arg0 : StableHlo.TRef sig ⟨S50000x128, .f32⟩).ofBuf (W (Proc.devRef .tc main_arg0))
      = W (Proc.devRef .tc main_arg0) from rfl]
  rw [show ∀ v : (⟨S400000x128, .f32⟩ : BufTy).Contents (Elt Ideal),
      (.of main_v1 : StableHlo.TRef sig ⟨S400000x128, .f32⟩).toBuf v = v from fun v => rfl]
  unfold take Spec.wrapIdx
  rfl

/-- The second step's sender rows, read from the node array the first step left. -/
theorem hostOps2_take :
    StableHlo.after (hostOps2 (F := Ideal)) W (Proc.devRef .tc main_v36)
      = take (W (Proc.devRef .tc main_v35_1)) (W (Proc.devRef .tc main_arg10)) := by
  simp only [hostOps2]
  after_results_simp
  simp only [ofBuf_toBuf,
    show (.of main_arg10 : StableHlo.TRef sig ⟨S400000, .i32⟩).ofBuf (W (Proc.devRef .tc main_arg10))
      = W (Proc.devRef .tc main_arg10) from rfl,
    show (.of main_v35_1 : StableHlo.TRef sig ⟨S50000x128, .f32⟩).ofBuf (W (Proc.devRef .tc main_v35_1))
      = W (Proc.devRef .tc main_v35_1) from rfl]
  rw [show ∀ v : (⟨S400000x128, .f32⟩ : BufTy).Contents (Elt Ideal),
      (.of main_v36 : StableHlo.TRef sig ⟨S400000x128, .f32⟩).toBuf v = v from fun v => rfl]
  unfold take Spec.wrapIdx
  rfl

/-- The second step's receiver rows. -/
theorem hostOps2_1_take :
    StableHlo.after (hostOps2_1 (F := Ideal)) W (Proc.devRef .tc main_v37)
      = take (W (Proc.devRef .tc main_v35_1)) (W (Proc.devRef .tc main_arg11)) := by
  simp only [hostOps2_1]
  after_results_simp
  simp only [ofBuf_toBuf,
    show (.of main_arg11 : StableHlo.TRef sig ⟨S400000, .i32⟩).ofBuf (W (Proc.devRef .tc main_arg11))
      = W (Proc.devRef .tc main_arg11) from rfl,
    show (.of main_v35_1 : StableHlo.TRef sig ⟨S50000x128, .f32⟩).ofBuf (W (Proc.devRef .tc main_v35_1))
      = W (Proc.devRef .tc main_v35_1) from rfl]
  rw [show ∀ v : (⟨S400000x128, .f32⟩ : BufTy).Contents (Elt Ideal),
      (.of main_v37 : StableHlo.TRef sig ⟨S400000x128, .f32⟩).toBuf v = v from fun v => rfl]
  unfold take Spec.wrapIdx
  rfl

end Cert.KernelIdeal.Take

end
-- ==== Proof.Block.lean ====
/-
  One grid point of the kernel: what the body stores, as mathematics.

  The body loads three 2000-row blocks x, a, b, the three first-layer chunks, the first bias (one row), the second
  weight and the second bias, and stores  relu (relu (((x Wa + a Wb) + b Wc) + b1) W2 + b2)  into its first output
  block and  x + that  into its second.  At the ideal instance the roundings to bf16 before each product are the
  identity and a product into the zero accumulator is the plain sum over the contracted axis, so the two stored
  blocks are the perceptron's message and residual (Spec.mlpOut, Spec.mlpRes) of the loaded blocks, entry by entry.

  The perceptron is row-local: entry (r, j) of its result depends on the three row operands only through their
  rows r.  So a block of rows of the whole-array result is the result of the blocks of rows.
-/
import proofs.«403012_j35450660061796_1_alg».proof.Proof.Gen.KernelIdeal.Skeleton
import proofs.«403012_j35450660061796_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Idealize.ShloMosaic.Pipeline
open Cert.KernelIdeal Cert.KernelIdeal.Gen Cert.KernelIdeal.Facts₀
open Cert.Spec (Rows Mat Bias mlpOut mlpRes)

/-- The body's contraction: rows of the left operand against columns of the right. -/
abbrev D := dot_S2000x128_S128x128_S2000x128_1_0_0_1_n_n

theorem lhs0 (j : S2000x128.Idx) (k : D.contr.Idx) : (D.lhsIdx j k 0).val = (j 0).val := rfl
theorem lhs1 (j : S2000x128.Idx) (k : D.contr.Idx) : (D.lhsIdx j k 1).val = (k ⟨0, by decide⟩).val := rfl
theorem rhs0 (j : S2000x128.Idx) (k : D.contr.Idx) : (D.rhsIdx j k 0).val = (k ⟨0, by decide⟩).val := rfl
theorem rhs1 (j : S2000x128.Idx) (k : D.contr.Idx) : (D.rhsIdx j k 1).val = (j 1).val := rfl

/-- A product of a 2000x128 block with a 128x128 matrix into the zero accumulator, at (p, q): the row-column sum. -/
theorem mm_apply (x : FVec Ideal S2000x128 .bf16) (w : FVec Ideal S128x128 .bf16) (p : Fin 2000) (q : Fin 128) :
    matmul (F := Ideal) D none x w (constant (F := Ideal) S2000x128 .f32 0x00000000#32) (ix2 p q)
      = ∑ l : Fin 128, x (ix2 p l) * w (ix2 l q) := by
  simp only [matmul]
  rw [Ideal.matmul_constant_zero_apply]
  rw [← Equiv.sum_comp (contrEquiv1 D 128 rfl rfl).symm]
  refine Finset.sum_congr rfl fun l _ => ?_
  have hk : (((contrEquiv1 D 128 rfl rfl).symm l) ⟨0, by decide⟩ : ℕ) = l.val := contrEquiv1_symm_val D 128 rfl rfl l
  have e1 : D.lhsIdx (ix2 p q) ((contrEquiv1 D 128 rfl rfl).symm l) = ix2 p l := by
    funext a; apply Fin.ext
    match a with
    | ⟨0, _⟩ => exact lhs0 _ _
    | ⟨1, _⟩ => exact (lhs1 _ _).trans hk
  have e2 : D.rhsIdx (ix2 p q) ((contrEquiv1 D 128 rfl rfl).symm l) = ix2 l q := by
    funext a; apply Fin.ext
    match a with
    | ⟨0, _⟩ => exact (rhs0 _ _).trans hk
    | ⟨1, _⟩ => exact rhs1 _ _
  rw [e1, e2]

/-- The zero the rectifier compares against. -/
theorem zero_f32 : (Scalar.ofBits (F := Ideal) .f32 0x00000000#32 : Ideal .f32) = 0 := Ideal.ofBits_zero_f32

/-- The second product of the body, at (p, q): the hidden layer's row p against column q of the second weight. -/
theorem pay3_apply (x0 x1 x2 : Vec Ideal S2000x128 .f32) (x3 x4 x5 : Vec Ideal S128x128 .f32) (x6 : Vec Ideal S1x128 .f32)
    (x7 : Vec Ideal S128x128 .f32) (p : Fin 2000) (q : Fin 128) :
    k0_pay3 (F := Ideal) x0 x1 x2 x3 x4 x5 x6 x7 (ix2 p q)
      = ∑ k : Fin 128, Spec.hidden (M := 2000) x0 x1 x2 x3 x4 x5 x6 p k * x7 (ix2 k q) := by
  unfold k0_pay3
  simp only [shapeCast_self]
  rw [mm_apply]
  refine Finset.sum_congr rfl fun k _ => ?_
  rw [truncf_apply, truncf_apply, maximumf_apply, addf_apply, addf_apply, addf_apply, mm_apply, mm_apply, mm_apply,
    broadcast_apply, broadcastTo_1b_ab_apply, zero_f32]
  rfl

/-- The first stored block is the message of the loaded blocks. -/
theorem pay1_eq (x0 x1 x2 : Vec Ideal S2000x128 .f32) (x3 x4 x5 : Vec Ideal S128x128 .f32) (x6 : Vec Ideal S1x128 .f32)
    (x7 : Vec Ideal S128x128 .f32) (x8 : Vec Ideal S1x128 .f32) :
    k0_pay1 (F := Ideal) (k0_pay3 x0 x1 x2 x3 x4 x5 x6 x7) (k0_pay4 x8) = mlpOut (M := 2000) x0 x1 x2 x3 x4 x5 x6 x7 x8 := by
  funext j
  obtain ⟨p, q, rfl⟩ : ∃ (p : Fin 2000) (q : Fin 128), j = ix2 p q := ⟨j 0, j 1, eq_ix2 j⟩
  unfold k0_pay1 k0_pay4
  simp only [shapeCast_self]
  rw [maximumf_apply, addf_apply, pay3_apply, broadcast_apply, broadcastTo_1b_ab_apply, zero_f32]
  rfl

/-- The second stored block is the residual update of the loaded blocks. -/
theorem pay2_eq (x0 x1 x2 : Vec Ideal S2000x128 .f32) (x3 x4 x5 : Vec Ideal S128x128 .f32) (x6 : Vec Ideal S1x128 .f32)
    (x7 : Vec Ideal S128x128 .f32) (x8 : Vec Ideal S1x128 .f32) :
    k0_pay2 (F := Ideal) x0 (k0_pay3 x0 x1 x2 x3 x4 x5 x6 x7) (k0_pay4 x8) = mlpRes (M := 2000) x0 x1 x2 x3 x4 x5 x6 x7 x8 := by
  funext j
  unfold k0_pay2
  rw [addf_apply, pay1_eq]
  rfl

/-! The second pair of kernels cuts the same body into payloads differently: the second bias is broadcast inside
    the first payload, and an identity reshape of x is a payload of its own. -/

theorem k2_pay4_apply (x0 x1 x2 : Vec Ideal S2000x128 .f32) (x3 x4 x5 : Vec Ideal S128x128 .f32) (x6 : Vec Ideal S1x128 .f32)
    (x7 : Vec Ideal S128x128 .f32) (p : Fin 2000) (q : Fin 128) :
    k2_pay4 (F := Ideal) x0 x1 x2 x3 x4 x5 x6 x7 (ix2 p q)
      = ∑ k : Fin 128, Spec.hidden (M := 2000) x0 x1 x2 x3 x4 x5 x6 p k * x7 (ix2 k q) := by
  unfold k2_pay4 k2_pay3
  simp only [shapeCast_self]
  rw [mm_apply]
  refine Finset.sum_congr rfl fun k _ => ?_
  rw [truncf_apply, truncf_apply, maximumf_apply, addf_apply, addf_apply, addf_apply, mm_apply, mm_apply, mm_apply,
    broadcast_apply, broadcastTo_1b_ab_apply, zero_f32]
  rfl

theorem k2_pay1_eq (x0 x1 x2 : Vec Ideal S2000x128 .f32) (x3 x4 x5 : Vec Ideal S128x128 .f32) (x6 : Vec Ideal S1x128 .f32)
    (x7 : Vec Ideal S128x128 .f32) (x8 : Vec Ideal S1x128 .f32) :
    k2_pay1 (F := Ideal) (k2_pay4 x0 x1 x2 x3 x4 x5 x6 x7) (k2_pay5 x8) = mlpOut (M := 2000) x0 x1 x2 x3 x4 x5 x6 x7 x8 := by
  funext j
  obtain ⟨p, q, rfl⟩ : ∃ (p : Fin 2000) (q : Fin 128), j = ix2 p q := ⟨j 0, j 1, eq_ix2 j⟩
  unfold k2_pay1 k2_pay5
  simp only [shapeCast_self]
  rw [maximumf_apply, addf_apply, k2_pay4_apply, broadcast_apply, broadcastTo_1b_ab_apply, zero_f32]
  rfl

theorem k2_pay2_eq (x0 x1 x2 : Vec Ideal S2000x128 .f32) (x3 x4 x5 : Vec Ideal S128x128 .f32) (x6 : Vec Ideal S1x128 .f32)
    (x7 : Vec Ideal S128x128 .f32) (x8 : Vec Ideal S1x128 .f32) :
    k2_pay2 (F := Ideal) (k2_pay3 x0) (k2_pay4 x0 x1 x2 x3 x4 x5 x6 x7) (k2_pay5 x8) = mlpRes (M := 2000) x0 x1 x2 x3 x4 x5 x6 x7 x8 := by
  funext j
  unfold k2_pay2
  rw [addf_apply, k2_pay1_eq]
  unfold k2_pay3
  simp only [shapeCast_self]
  rfl

/-! Kernels 1 and 3 print the bodies of kernels 0 and 2. -/
theorem k1_pay1_def : @k1_pay1 Ideal _ = @k0_pay1 Ideal _ := rfl
theorem k1_pay2_def : @k1_pay2 Ideal _ = @k0_pay2 Ideal _ := rfl
theorem k1_pay3_def : @k1_pay3 Ideal _ = @k0_pay3 Ideal _ := rfl
theorem k1_pay4_def : @k1_pay4 Ideal = @k0_pay4 Ideal := rfl
theorem k3_pay1_def : @k3_pay1 Ideal _ = @k2_pay1 Ideal _ := rfl
theorem k3_pay2_def : @k3_pay2 Ideal _ = @k2_pay2 Ideal _ := rfl
theorem k3_pay3_def : @k3_pay3 Ideal = @k2_pay3 Ideal := rfl
theorem k3_pay4_def : @k3_pay4 Ideal _ = @k2_pay4 Ideal _ := rfl
theorem k3_pay5_def : @k3_pay5 Ideal = @k2_pay5 Ideal := rfl

/-! ## Row-locality -/

/-- Entry (r, q) of the message depends on the row operands only through their rows r: two triples of row arrays
    (of any heights) whose rows r and r' agree give the same entry. -/
theorem mlpOut_rows {M M' : Nat} (X A B : Rows M) (X' A' B' : Rows M') (Wa Wb Wc : Mat) (b1 : Bias) (W2 : Mat) (b2 : Bias)
    (r : Fin M) (r' : Fin M') (q : Fin 128)
    (hX : ∀ l : Fin 128, X (ix2 r l) = X' (ix2 r' l)) (hA : ∀ l : Fin 128, A (ix2 r l) = A' (ix2 r' l))
    (hB : ∀ l : Fin 128, B (ix2 r l) = B' (ix2 r' l)) :
    mlpOut X A B Wa Wb Wc b1 W2 b2 (ix2 r q) = mlpOut X' A' B' Wa Wb Wc b1 W2 b2 (ix2 r' q) := by
  have hh : ∀ k : Fin 128, Spec.hidden X A B Wa Wb Wc b1 r k = Spec.hidden X' A' B' Wa Wb Wc b1 r' k := fun k => by
    unfold Spec.hidden
    simp only [hX, hA, hB]
  show max ((∑ k : Fin 128, Spec.hidden X A B Wa Wb Wc b1 r k * W2 (ix2 k q)) + b2 (ix2 (0 : Fin 1) q)) 0
     = max ((∑ k : Fin 128, Spec.hidden X' A' B' Wa Wb Wc b1 r' k * W2 (ix2 k q)) + b2 (ix2 (0 : Fin 1) q)) 0
  simp only [hh]

/-- The same for the residual update, whose entry also reads the first operand at (r, q) itself. -/
theorem mlpRes_rows {M M' : Nat} (X A B : Rows M) (X' A' B' : Rows M') (Wa Wb Wc : Mat) (b1 : Bias) (W2 : Mat) (b2 : Bias)
    (r : Fin M) (r' : Fin M') (q : Fin 128)
    (hX : ∀ l : Fin 128, X (ix2 r l) = X' (ix2 r' l)) (hA : ∀ l : Fin 128, A (ix2 r l) = A' (ix2 r' l))
    (hB : ∀ l : Fin 128, B (ix2 r l) = B' (ix2 r' l)) :
    mlpRes X A B Wa Wb Wc b1 W2 b2 (ix2 r q) = mlpRes X' A' B' Wa Wb Wc b1 W2 b2 (ix2 r' q) := by
  show X (ix2 r q) + mlpOut X A B Wa Wb Wc b1 W2 b2 (ix2 r q) = X' (ix2 r' q) + mlpOut X' A' B' Wa Wb Wc b1 W2 b2 (ix2 r' q)
  rw [hX q, mlpOut_rows X A B X' A' B' Wa Wb Wc b1 W2 b2 r r' q hX hA hB]

end Cert.KernelIdeal.Block

end
-- ==== Proof.Region0.lean ====
/-
  Kernel region 0 (200 grid points of 2000 rows over 400000 rows), read as values at the ideal instance: whatever the buffers
  hold when the region is entered, after it the first output array holds the perceptron's message and the second the
  residual update (Spec.mlpOut, Spec.mlpRes) of the nine operand arrays.  Point t loads rows 2000 t .. 2000 t + 1999
  of the three row operands and the whole weights and biases, and writes back the same rows of the two results; the
  perceptron is row-local, and the 200 blocks tile the 400000 rows.
-/
import proofs.«403012_j35450660061796_1_alg».proof.Proof.Gen.KernelIdeal.Frame
import proofs.«403012_j35450660061796_1_alg».proof.Proof.Block
import Idealize.ShloMosaic.Lib.Pipeline.Value
import Idealize.ShloMosaic.Lib.ValueIdx

set_option maxRecDepth 16384
-- the two write-back lemmas unify nine window blocks of dependent types with plain blocks
set_option maxHeartbeats 1600000

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0); a weight's or bias's is (0, 0). -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_9.index t (0 : Fin 2) = t.val
    ∧ win0_9.index t (1 : Fin 2) = 0
    ∧ win0_10.index t (0 : Fin 2) = t.val
    ∧ win0_10.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ t.val < 200 :=
  (by decide +kernel : ∀ t : Fin grid0.N, _)

/-- Every block row index below 200 is some point's. -/
theorem idx_onto : ∀ q0 : Fin 200, ∃ t : Fin cfg0.N, t.val = q0.val :=
  (by decide +kernel : ∀ q0 : Fin 200, ∃ t : Fin grid0.N, t.val = q0.val)

/-- What grid point t writes back through output window 9 is block t of the whole-array message of the arrays the
    region finds: rows 2000 t .. 2000 t + 1999, which depend on those rows of the row operands only. -/
theorem flushed9_eq (c : Dev nD) (t : Fin cfg0.N) :
    (dat0 V c).flushed 9 t = ((cfg0.win 9).blk t).view.read (Elt Ideal) (Spec.mlpOut (M := 400000) (V c main_arg1) (V c main_v0) (V c main_v1) (V c main_v10) (V c main_v11) (V c main_v12) (V c main_v13) (V c main_v7) (V c main_v14)) := by
  show (cfg0.win 9).cut (grid0.coords t) ((dat0 V c).after 9 t) = _
  rw [after0_9]
  unfold out0_9
  rw [View.canon_unit_zero hz]
  simp only [View.ld_unit_zero (S := S2000x128) hz, View.ld_unit_zero (S := S128x128) hz, View.ld_unit_zero (S := S1x128) hz]
  rw [Block.pay1_eq]
  obtain ⟨f0, f1, f2, f3, f4, f5, f6, f7, f8, f9, f10, f11, f12, f13, f14, f15, f16, f17, f18, f19, f20, f21, f22⟩ := idx_facts t
  have hr0 : ∀ (p : Fin 2000) (l : Fin 128) (hp : t.val * 2000 + p.val < 400000), iblk0 V c 0 t (ix2 p l) = V c main_arg1 (ix2 (⟨t.val * 2000 + p.val, hp⟩ : Fin 400000) l) := by
    intro p l hp
    show V c main_arg1 (((cfg0.win 0).blk t).view.emb (ix2 p l)) = _
    refine congrArg (V c main_arg1) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * l.val = l.val; omega
  have hr1 : ∀ (p : Fin 2000) (l : Fin 128) (hp : t.val * 2000 + p.val < 400000), iblk0 V c 1 t (ix2 p l) = V c main_v0 (ix2 (⟨t.val * 2000 + p.val, hp⟩ : Fin 400000) l) := by
    intro p l hp
    show V c main_v0 (((cfg0.win 1).blk t).view.emb (ix2 p l)) = _
    refine congrArg (V c main_v0) (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * l.val = l.val; omega
  have hr2 : ∀ (p : Fin 2000) (l : Fin 128) (hp : t.val * 2000 + p.val < 400000), iblk0 V c 2 t (ix2 p l) = V c main_v1 (ix2 (⟨t.val * 2000 + p.val, hp⟩ : Fin 400000) l) := by
    intro p l hp
    show V c main_v1 (((cfg0.win 2).blk t).view.emb (ix2 p l)) = _
    refine congrArg (V c main_v1) (funext fun a => Fin.ext ?_)
    match a with
    | ⟨0, _⟩ => show win0_2.index t (0 : Fin 2) * 2000 + 1 * p.val = t.val * 2000 + p.val; omega
    | ⟨1, _⟩ => show win0_2.index t (1 : Fin 2) * 128 + 1 * l.val = l.val; omega
  have hw3 : iblk0 V c 3 t = V c main_v10 := by
    funext y
    show V c main_v10 (((cfg0.win 3).blk t).view.emb y) = _
    refine congrArg (V c main_v10) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have hw4 : iblk0 V c 4 t = V c main_v11 := by
    funext y
    show V c main_v11 (((cfg0.win 4).blk t).view.emb y) = _
    refine congrArg (V c main_v11) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have hw5 : iblk0 V c 5 t = V c main_v12 := by
    funext y
    show V c main_v12 (((cfg0.win 5).blk t).view.emb y) = _
    refine congrArg (V c main_v12) (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  have hw6 : iblk0 V c 6 t = V c main_v13 := by
    funext y
    show V c main_v13 (((cfg0.win 6).blk t).view.emb y) = _
    refine congrArg (V c main_v13) (funext fun a => Fin.ext ?_)
    match a with
    | ⟨0, _⟩ => show win0_6.index t (0 : Fin 2) * 1 + 1 * (y 0).val = (y 0).val; omega
    | ⟨1, _⟩ => show win0_6.index t (1 : Fin 2) * 128 + 1 * (y 1).val = (y 1).val; omega
  have hw7 : iblk0 V c 7 t = V c main_v7 := by
    funext y
    show V c main_v7 (((cfg0.win 7).blk t).view.emb y) = _
    refine congrArg (V c main_v7) (funext fun a => Fin.ext ?_)
    match a with
    | ⟨0, _⟩ => show win0_7.index t (0 : Fin 2) * 128 + 1 * (y 0).val = (y 0).val; omega
    | ⟨1, _⟩ => show win0_7.index t (1 : Fin 2) * 128 + 1 * (y 1).val = (y 1).val; omega
  have hw8 : iblk0 V c 8 t = V c main_v14 := by
    funext y
    show V c main_v14 (((cfg0.win 8).blk t).view.emb y) = _
    refine congrArg (V c main_v14) (funext fun a => Fin.ext ?_)
    match a with
    | ⟨0, _⟩ => show win0_8.index t (0 : Fin 2) * 1 + 1 * (y 0).val = (y 0).val; omega
    | ⟨1, _⟩ => show win0_8.index t (1 : Fin 2) * 128 + 1 * (y 1).val = (y 1).val; omega
  funext j
  obtain ⟨p, q, rfl⟩ : ∃ (p : Fin 2000) (q : Fin 128), j = ix2 p q := ⟨j 0, j 1, eq_ix2 j⟩
  have hp : t.val * 2000 + p.val < 400000 := by have := p.isLt; omega
  have he : ((cfg0.win 9).blk t).view.emb (ix2 p q) = ix2 (⟨t.val * 2000 + p.val, hp⟩ : Fin 400000) q := by
    funext a; apply Fin.ext
    match a with
    | ⟨0, _⟩ => show win0_9.index t (0 : Fin 2) * 2000 + 1 * p.val = t.val * 2000 + p.val; omega
    | ⟨1, _⟩ => show win0_9.index t (1 : Fin 2) * 128 + 1 * q.val = q.val; omega
  show Spec.mlpOut (M := 2000) (iblk0 V c 0 t) (iblk0 V c 1 t) (iblk0 V c 2 t) (iblk0 V c 3 t) (iblk0 V c 4 t) (iblk0 V c 5 t) (iblk0 V c 6 t) (iblk0 V c 7 t) (iblk0 V c 8 t) (ix2 p q) = Spec.mlpOut (M := 400000) (V c main_arg1) (V c main_v0) (V c main_v1) (V c main_v10) (V c main_v11) (V c main_v12) (V c main_v13) (V c main_v7) (V c main_v14) (((cfg0.win 9).blk t).view.emb (ix2 p q))
  rw [he, hw3, hw4, hw5, hw6, hw7, hw8]
  exact Block.mlpOut_rows _ _ _ _ _ _ _ _ _ _ _ _ p _ q (fun l => hr0 p l hp) (fun l => hr1 p l hp) (fun l => hr2 p l hp)

/-- What grid point t writes back through output window 10 is block t of the whole-array residual update of the arrays the
    region finds: rows 2000 t .. 2000 t + 1999, which depend on those rows of the row operands only. -/
theorem flushed10_eq (c : Dev nD) (t : Fin cfg0.N) :
    (dat0 V c).flushed 10 t = ((cfg0.win 10).blk t).view.read (Elt Ideal) (Spec.mlpRes (M := 400000) (V c main_arg1) (V c main_v0) (V c main_v1) (V c main_v10) (V c main_v11) (V c main_v12) (V c main_v13) (V c main_v7) (V c main_v14)) := by
  show (cfg0.win 10).cut (grid0.coords t) ((dat0 V c).after 10 t) = _
  rw [after0_10]
  unfold out0_10
  rw [View.canon_unit_zero hz]
  simp only [View.ld_unit_zero (S := S2000x128) hz, View.ld_unit_zero (S := S128x128) hz, View.ld_unit_zero (S := S1x128) hz]
  rw [Block.pay2_eq]
  obtain ⟨f0, f1, f2, f3, f4, f5, f6, f7, f8, f9, f10, f11, f12, f13, f14, f15, f16, f17, f18, f19, f20, f21, f22⟩ := idx_facts t
  have hr0 : ∀ (p : Fin 2000) (l : Fin 128) (hp : t.val * 2000 + p.val < 400000), iblk0 V c 0 t (ix2 p l) = V c main_arg1 (ix2 (⟨t.val * 2000 + p.val, hp⟩ : Fin 400000) l) := by
    intro p l hp
    show V c main_arg1 (((cfg0.win 0).blk t).view.emb (ix2 p l)) = _
    refine congrArg (V c main_arg1) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * l.val = l.val; omega
  have hr1 : ∀ (p : Fin 2000) (l : Fin 128) (hp : t.val * 2000 + p.val < 400000), iblk0 V c 1 t (ix2 p l) = V c main_v0 (ix2 (⟨t.val * 2000 + p.val, hp⟩ : Fin 400000) l) := by
    intro p l hp
    show V c main_v0 (((cfg0.win 1).blk t).view.emb (ix2 p l)) = _
    refine congrArg (V c main_v0) (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * l.val = l.val; omega
  have hr2 : ∀ (p : Fin 2000) (l : Fin 128) (hp : t.val * 2000 + p.val < 400000), iblk0 V c 2 t (ix2 p l) = V c main_v1 (ix2 (⟨t.val * 2000 + p.val, hp⟩ : Fin 400000) l) := by
    intro p l hp
    show V c main_v1 (((cfg0.win 2).blk t).view.emb (ix2 p l)) = _
    refine congrArg (V c main_v1) (funext fun a => Fin.ext ?_)
    match a with
    | ⟨0, _⟩ => show win0_2.index t (0 : Fin 2) * 2000 + 1 * p.val = t.val * 2000 + p.val; omega
    | ⟨1, _⟩ => show win0_2.index t (1 : Fin 2) * 128 + 1 * l.val = l.val; omega
  have hw3 : iblk0 V c 3 t = V c main_v10 := by
    funext y
    show V c main_v10 (((cfg0.win 3).blk t).view.emb y) = _
    refine congrArg (V c main_v10) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have hw4 : iblk0 V c 4 t = V c main_v11 := by
    funext y
    show V c main_v11 (((cfg0.win 4).blk t).view.emb y) = _
    refine congrArg (V c main_v11) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have hw5 : iblk0 V c 5 t = V c main_v12 := by
    funext y
    show V c main_v12 (((cfg0.win 5).blk t).view.emb y) = _
    refine congrArg (V c main_v12) (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  have hw6 : iblk0 V c 6 t = V c main_v13 := by
    funext y
    show V c main_v13 (((cfg0.win 6).blk t).view.emb y) = _
    refine congrArg (V c main_v13) (funext fun a => Fin.ext ?_)
    match a with
    | ⟨0, _⟩ => show win0_6.index t (0 : Fin 2) * 1 + 1 * (y 0).val = (y 0).val; omega
    | ⟨1, _⟩ => show win0_6.index t (1 : Fin 2) * 128 + 1 * (y 1).val = (y 1).val; omega
  have hw7 : iblk0 V c 7 t = V c main_v7 := by
    funext y
    show V c main_v7 (((cfg0.win 7).blk t).view.emb y) = _
    refine congrArg (V c main_v7) (funext fun a => Fin.ext ?_)
    match a with
    | ⟨0, _⟩ => show win0_7.index t (0 : Fin 2) * 128 + 1 * (y 0).val = (y 0).val; omega
    | ⟨1, _⟩ => show win0_7.index t (1 : Fin 2) * 128 + 1 * (y 1).val = (y 1).val; omega
  have hw8 : iblk0 V c 8 t = V c main_v14 := by
    funext y
    show V c main_v14 (((cfg0.win 8).blk t).view.emb y) = _
    refine congrArg (V c main_v14) (funext fun a => Fin.ext ?_)
    match a with
    | ⟨0, _⟩ => show win0_8.index t (0 : Fin 2) * 1 + 1 * (y 0).val = (y 0).val; omega
    | ⟨1, _⟩ => show win0_8.index t (1 : Fin 2) * 128 + 1 * (y 1).val = (y 1).val; omega
  funext j
  obtain ⟨p, q, rfl⟩ : ∃ (p : Fin 2000) (q : Fin 128), j = ix2 p q := ⟨j 0, j 1, eq_ix2 j⟩
  have hp : t.val * 2000 + p.val < 400000 := by have := p.isLt; omega
  have he : ((cfg0.win 10).blk t).view.emb (ix2 p q) = ix2 (⟨t.val * 2000 + p.val, hp⟩ : Fin 400000) q := by
    funext a; apply Fin.ext
    match a with
    | ⟨0, _⟩ => show win0_10.index t (0 : Fin 2) * 2000 + 1 * p.val = t.val * 2000 + p.val; omega
    | ⟨1, _⟩ => show win0_10.index t (1 : Fin 2) * 128 + 1 * q.val = q.val; omega
  show Spec.mlpRes (M := 2000) (iblk0 V c 0 t) (iblk0 V c 1 t) (iblk0 V c 2 t) (iblk0 V c 3 t) (iblk0 V c 4 t) (iblk0 V c 5 t) (iblk0 V c 6 t) (iblk0 V c 7 t) (iblk0 V c 8 t) (ix2 p q) = Spec.mlpRes (M := 400000) (V c main_arg1) (V c main_v0) (V c main_v1) (V c main_v10) (V c main_v11) (V c main_v12) (V c main_v13) (V c main_v7) (V c main_v14) (((cfg0.win 10).blk t).view.emb (ix2 p q))
  rw [he, hw3, hw4, hw5, hw6, hw7, hw8]
  exact Block.mlpRes_rows _ _ _ _ _ _ _ _ _ _ _ _ p _ q (fun l => hr0 p l hp) (fun l => hr1 p l hp) (fun l => hr2 p l hp)

theorem mem_blk9 (t : Fin cfg0.N) (i : S400000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v15_0).slice (win0_9.rect t)).set ↔ _
  rw [View.set_slice_whole, Rect.mem_set_unit]
  exact Iff.rfl

/-- Every row of the array lies in the block of the grid point  row / 2000 . -/
theorem cover9 (i : S400000x128.Idx) : ∃ t : Fin cfg0.N, (cfg0.win 9).flush t = true ∧ i ∈ ((cfg0.win 9).blk t).view.set := by
  have hi0 : (i 0).val < 400000 := (i 0).isLt
  have hi1 : (i 1).val < 128 := (i 1).isLt
  obtain ⟨t, ht⟩ := idx_onto ⟨(i 0).val / 2000, by omega⟩
  obtain ⟨f0, f1, f2, f3, f4, f5, f6, f7, f8, f9, f10, f11, f12, f13, f14, f15, f16, f17, f18, f19, f20, f21, f22⟩ := idx_facts t
  have e : t.val = (i 0).val / 2000 := ht
  refine ⟨t, flush0_9 t, ?_⟩
  rw [mem_blk9]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

theorem mem_blk10 (t : Fin cfg0.N) (i : S400000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v15_1).slice (win0_10.rect t)).set ↔ _
  rw [View.set_slice_whole, Rect.mem_set_unit]
  exact Iff.rfl

/-- Every row of the array lies in the block of the grid point  row / 2000 . -/
theorem cover10 (i : S400000x128.Idx) : ∃ t : Fin cfg0.N, (cfg0.win 10).flush t = true ∧ i ∈ ((cfg0.win 10).blk t).view.set := by
  have hi0 : (i 0).val < 400000 := (i 0).isLt
  have hi1 : (i 1).val < 128 := (i 1).isLt
  obtain ⟨t, ht⟩ := idx_onto ⟨(i 0).val / 2000, by omega⟩
  obtain ⟨f0, f1, f2, f3, f4, f5, f6, f7, f8, f9, f10, f11, f12, f13, f14, f15, f16, f17, f18, f19, f20, f21, f22⟩ := idx_facts t
  have e : t.val = (i 0).val / 2000 := ht
  refine ⟨t, flush0_10 t, ?_⟩
  rw [mem_blk10]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 128 ≤ (i 1).val ∧ (i 1).val < win0_10.index t (1 : Fin 2) * 128 + 128; omega

/-- After the region the first output array is the message of the operand arrays as the region found them. -/
theorem msg (c : Dev nD) : (dat0 V c).arrAt 9 cfg0.N = Spec.mlpOut (M := 400000) (V c main_arg1) (V c main_v0) (V c main_v1) (V c main_v10) (V c main_v11) (V c main_v12) (V c main_v13) (V c main_v7) (V c main_v14) :=
  (dat0 V c).arrAt_eq_of_cover 9 _ (fun t _ => flushed9_eq V c t) (cover9)

/-- After the region the second output array is the residual update. -/
theorem res (c : Dev nD) : (dat0 V c).arrAt 10 cfg0.N = Spec.mlpRes (M := 400000) (V c main_arg1) (V c main_v0) (V c main_v1) (V c main_v10) (V c main_v11) (V c main_v12) (V c main_v13) (V c main_v7) (V c main_v14) :=
  (dat0 V c).arrAt_eq_of_cover 10 _ (fun t _ => flushed10_eq V c t) (cover10)

end Cert.KernelIdeal.Region0

end
-- ==== Proof.Region1.lean ====
/-
  Kernel region 1 (25 grid points of 2000 rows over 50000 rows), read as values at the ideal instance: whatever the buffers
  hold when the region is entered, after it the first output array holds the perceptron's message and the second the
  residual update (Spec.mlpOut, Spec.mlpRes) of the nine operand arrays.  Point t loads rows 2000 t .. 2000 t + 1999
  of the three row operands and the whole weights and biases, and writes back the same rows of the two results; the
  perceptron is row-local, and the 25 blocks tile the 50000 rows.
-/
import proofs.«403012_j35450660061796_1_alg».proof.Proof.Gen.KernelIdeal.Frame
import proofs.«403012_j35450660061796_1_alg».proof.Proof.Block
import Idealize.ShloMosaic.Lib.Pipeline.Value
import Idealize.ShloMosaic.Lib.ValueIdx

set_option maxRecDepth 16384
-- the two write-back lemmas unify nine window blocks of dependent types with plain blocks
set_option maxHeartbeats 1600000

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0); a weight's or bias's is (0, 0). -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_9.index t (0 : Fin 2) = t.val
    ∧ win1_9.index t (1 : Fin 2) = 0
    ∧ win1_10.index t (0 : Fin 2) = t.val
    ∧ win1_10.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ t.val < 25 :=
  (by decide +kernel : ∀ t : Fin grid1.N, _)

/-- Every block row index below 25 is some point's. -/
theorem idx_onto : ∀ q0 : Fin 25, ∃ t : Fin cfg1.N, t.val = q0.val :=
  (by decide +kernel : ∀ q0 : Fin 25, ∃ t : Fin grid1.N, t.val = q0.val)

/-- What grid point t writes back through output window 9 is block t of the whole-array message of the arrays the
    region finds: rows 2000 t .. 2000 t + 1999, which depend on those rows of the row operands only. -/
theorem flushed9_eq (c : Dev nD) (t : Fin cfg1.N) :
    (dat1 V c).flushed 9 t = ((cfg1.win 9).blk t).view.read (Elt Ideal) (Spec.mlpOut (M := 50000) (V c main_arg0) (V c main_v18) (V c main_v21) (V c main_v30) (V c main_v31) (V c main_v32) (V c main_v33) (V c main_v27) (V c main_v34)) := by
  show (cfg1.win 9).cut (grid1.coords t) ((dat1 V c).after 9 t) = _
  rw [after1_9]
  unfold out1_9
  rw [View.canon_unit_zero hz]
  simp only [View.ld_unit_zero (S := S2000x128) hz, View.ld_unit_zero (S := S128x128) hz, View.ld_unit_zero (S := S1x128) hz]
  rw [Block.k1_pay1_def, Block.k1_pay3_def, Block.k1_pay4_def, Block.pay1_eq]
  obtain ⟨f0, f1, f2, f3, f4, f5, f6, f7, f8, f9, f10, f11, f12, f13, f14, f15, f16, f17, f18, f19, f20, f21, f22⟩ := idx_facts t
  have hr0 : ∀ (p : Fin 2000) (l : Fin 128) (hp : t.val * 2000 + p.val < 50000), iblk1 V c 0 t (ix2 p l) = V c main_arg0 (ix2 (⟨t.val * 2000 + p.val, hp⟩ : Fin 50000) l) := by
    intro p l hp
    show V c main_arg0 (((cfg1.win 0).blk t).view.emb (ix2 p l)) = _
    refine congrArg (V c main_arg0) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * l.val = l.val; omega
  have hr1 : ∀ (p : Fin 2000) (l : Fin 128) (hp : t.val * 2000 + p.val < 50000), iblk1 V c 1 t (ix2 p l) = V c main_v18 (ix2 (⟨t.val * 2000 + p.val, hp⟩ : Fin 50000) l) := by
    intro p l hp
    show V c main_v18 (((cfg1.win 1).blk t).view.emb (ix2 p l)) = _
    refine congrArg (V c main_v18) (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * l.val = l.val; omega
  have hr2 : ∀ (p : Fin 2000) (l : Fin 128) (hp : t.val * 2000 + p.val < 50000), iblk1 V c 2 t (ix2 p l) = V c main_v21 (ix2 (⟨t.val * 2000 + p.val, hp⟩ : Fin 50000) l) := by
    intro p l hp
    show V c main_v21 (((cfg1.win 2).blk t).view.emb (ix2 p l)) = _
    refine congrArg (V c main_v21) (funext fun a => Fin.ext ?_)
    match a with
    | ⟨0, _⟩ => show win1_2.index t (0 : Fin 2) * 2000 + 1 * p.val = t.val * 2000 + p.val; omega
    | ⟨1, _⟩ => show win1_2.index t (1 : Fin 2) * 128 + 1 * l.val = l.val; omega
  have hw3 : iblk1 V c 3 t = V c main_v30 := by
    funext y
    show V c main_v30 (((cfg1.win 3).blk t).view.emb y) = _
    refine congrArg (V c main_v30) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have hw4 : iblk1 V c 4 t = V c main_v31 := by
    funext y
    show V c main_v31 (((cfg1.win 4).blk t).view.emb y) = _
    refine congrArg (V c main_v31) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have hw5 : iblk1 V c 5 t = V c main_v32 := by
    funext y
    show V c main_v32 (((cfg1.win 5).blk t).view.emb y) = _
    refine congrArg (V c main_v32) (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega
  have hw6 : iblk1 V c 6 t = V c main_v33 := by
    funext y
    show V c main_v33 (((cfg1.win 6).blk t).view.emb y) = _
    refine congrArg (V c main_v33) (funext fun a => Fin.ext ?_)
    match a with
    | ⟨0, _⟩ => show win1_6.index t (0 : Fin 2) * 1 + 1 * (y 0).val = (y 0).val; omega
    | ⟨1, _⟩ => show win1_6.index t (1 : Fin 2) * 128 + 1 * (y 1).val = (y 1).val; omega
  have hw7 : iblk1 V c 7 t = V c main_v27 := by
    funext y
    show V c main_v27 (((cfg1.win 7).blk t).view.emb y) = _
    refine congrArg (V c main_v27) (funext fun a => Fin.ext ?_)
    match a with
    | ⟨0, _⟩ => show win1_7.index t (0 : Fin 2) * 128 + 1 * (y 0).val = (y 0).val; omega
    | ⟨1, _⟩ => show win1_7.index t (1 : Fin 2) * 128 + 1 * (y 1).val = (y 1).val; omega
  have hw8 : iblk1 V c 8 t = V c main_v34 := by
    funext y
    show V c main_v34 (((cfg1.win 8).blk t).view.emb y) = _
    refine congrArg (V c main_v34) (funext fun a => Fin.ext ?_)
    match a with
    | ⟨0, _⟩ => show win1_8.index t (0 : Fin 2) * 1 + 1 * (y 0).val = (y 0).val; omega
    | ⟨1, _⟩ => show win1_8.index t (1 : Fin 2) * 128 + 1 * (y 1).val = (y 1).val; omega
  funext j
  obtain ⟨p, q, rfl⟩ : ∃ (p : Fin 2000) (q : Fin 128), j = ix2 p q := ⟨j 0, j 1, eq_ix2 j⟩
  have hp : t.val * 2000 + p.val < 50000 := by have := p.isLt; omega
  have he : ((cfg1.win 9).blk t).view.emb (ix2 p q) = ix2 (⟨t.val * 2000 + p.val, hp⟩ : Fin 50000) q := by
    funext a; apply Fin.ext
    match a with
    | ⟨0, _⟩ => show win1_9.index t (0 : Fin 2) * 2000 + 1 * p.val = t.val * 2000 + p.val; omega
    | ⟨1, _⟩ => show win1_9.index t (1 : Fin 2) * 128 + 1 * q.val = q.val; omega
  show Spec.mlpOut (M := 2000) (iblk1 V c 0 t) (iblk1 V c 1 t) (iblk1 V c 2 t) (iblk1 V c 3 t) (iblk1 V c 4 t) (iblk1 V c 5 t) (iblk1 V c 6 t) (iblk1 V c 7 t) (iblk1 V c 8 t) (ix2 p q) = Spec.mlpOut (M := 50000) (V c main_arg0) (V c main_v18) (V c main_v21) (V c main_v30) (V c main_v31) (V c main_v32) (V c main_v33) (V c main_v27) (V c main_v34) (((cfg1.win 9).blk t).view.emb (ix2 p q))
  rw [he, hw3, hw4, hw5, hw6, hw7, hw8]
  exact Block.mlpOut_rows _ _ _ _ _ _ _ _ _ _ _ _ p _ q (fun l => hr0 p l hp) (fun l => hr1 p l hp) (fun l => hr2 p l hp)

/-- What grid point t writes back through output window 10 is block t of the whole-array residual update of the arrays the
    region finds: rows 2000 t .. 2000 t + 1999, which depend on those rows of the row operands only. -/
theorem flushed10_eq (c : Dev nD) (t : Fin cfg1.N) :
    (dat1 V c).flushed 10 t = ((cfg1.win 10).blk t).view.read (Elt Ideal) (Spec.mlpRes (M := 50000) (V c main_arg0) (V c main_v18) (V c main_v21) (V c main_v30) (V c main_v31) (V c main_v32) (V c main_v33) (V c main_v27) (V c main_v34)) := by
  show (cfg1.win 10).cut (grid1.coords t) ((dat1 V c).after 10 t) = _
  rw [after1_10]
  unfold out1_10
  rw [View.canon_unit_zero hz]
  simp only [View.ld_unit_zero (S := S2000x128) hz, View.ld_unit_zero (S := S128x128) hz, View.ld_unit_zero (S := S1x128) hz]
  rw [Block.k1_pay2_def, Block.k1_pay3_def, Block.k1_pay4_def, Block.pay2_eq]
  obtain ⟨f0, f1, f2, f3, f4, f5, f6, f7, f8, f9, f10, f11, f12, f13, f14, f15, f16, f17, f18, f19, f20, f21, f22⟩ := idx_facts t
  have hr0 : ∀ (p : Fin 2000) (l : Fin 128) (hp : t.val * 2000 + p.val < 50000), iblk1 V c 0 t (ix2 p l) = V c main_arg0 (ix2 (⟨t.val * 2000 + p.val, hp⟩ : Fin 50000) l) := by
    intro p l hp
    show V c main_arg0 (((cfg1.win 0).blk t).view.emb (ix2 p l)) = _
    refine congrArg (V c main_arg0) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * l.val = l.val; omega
  have hr1 : ∀ (p : Fin 2000) (l : Fin 128) (hp : t.val * 2000 + p.val < 50000), iblk1 V c 1 t (ix2 p l) = V c main_v18 (ix2 (⟨t.val * 2000 + p.val, hp⟩ : Fin 50000) l) := by
    intro p l hp
    show V c main_v18 (((cfg1.win 1).blk t).view.emb (ix2 p l)) = _
    refine congrArg (V c main_v18) (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * l.val = l.val; omega
  have hr2 : ∀ (p : Fin 2000) (l : Fin 128) (hp : t.val * 2000 + p.val < 50000), iblk1 V c 2 t (ix2 p l) = V c main_v21 (ix2 (⟨t.val * 2000 + p.val, hp⟩ : Fin 50000) l) := by
    intro p l hp
    show V c main_v21 (((cfg1.win 2).blk t).view.emb (ix2 p l)) = _
    refine congrArg (V c main_v21) (funext fun a => Fin.ext ?_)
    match a with
    | ⟨0, _⟩ => show win1_2.index t (0 : Fin 2) * 2000 + 1 * p.val = t.val * 2000 + p.val; omega
    | ⟨1, _⟩ => show win1_2.index t (1 : Fin 2) * 128 + 1 * l.val = l.val; omega
  have hw3 : iblk1 V c 3 t = V c main_v30 := by
    funext y
    show V c main_v30 (((cfg1.win 3).blk t).view.emb y) = _
    refine congrArg (V c main_v30) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have hw4 : iblk1 V c 4 t = V c main_v31 := by
    funext y
    show V c main_v31 (((cfg1.win 4).blk t).view.emb y) = _
    refine congrArg (V c main_v31) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have hw5 : iblk1 V c 5 t = V c main_v32 := by
    funext y
    show V c main_v32 (((cfg1.win 5).blk t).view.emb y) = _
    refine congrArg (V c main_v32) (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega
  have hw6 : iblk1 V c 6 t = V c main_v33 := by
    funext y
    show V c main_v33 (((cfg1.win 6).blk t).view.emb y) = _
    refine congrArg (V c main_v33) (funext fun a => Fin.ext ?_)
    match a with
    | ⟨0, _⟩ => show win1_6.index t (0 : Fin 2) * 1 + 1 * (y 0).val = (y 0).val; omega
    | ⟨1, _⟩ => show win1_6.index t (1 : Fin 2) * 128 + 1 * (y 1).val = (y 1).val; omega
  have hw7 : iblk1 V c 7 t = V c main_v27 := by
    funext y
    show V c main_v27 (((cfg1.win 7).blk t).view.emb y) = _
    refine congrArg (V c main_v27) (funext fun a => Fin.ext ?_)
    match a with
    | ⟨0, _⟩ => show win1_7.index t (0 : Fin 2) * 128 + 1 * (y 0).val = (y 0).val; omega
    | ⟨1, _⟩ => show win1_7.index t (1 : Fin 2) * 128 + 1 * (y 1).val = (y 1).val; omega
  have hw8 : iblk1 V c 8 t = V c main_v34 := by
    funext y
    show V c main_v34 (((cfg1.win 8).blk t).view.emb y) = _
    refine congrArg (V c main_v34) (funext fun a => Fin.ext ?_)
    match a with
    | ⟨0, _⟩ => show win1_8.index t (0 : Fin 2) * 1 + 1 * (y 0).val = (y 0).val; omega
    | ⟨1, _⟩ => show win1_8.index t (1 : Fin 2) * 128 + 1 * (y 1).val = (y 1).val; omega
  funext j
  obtain ⟨p, q, rfl⟩ : ∃ (p : Fin 2000) (q : Fin 128), j = ix2 p q := ⟨j 0, j 1, eq_ix2 j⟩
  have hp : t.val * 2000 + p.val < 50000 := by have := p.isLt; omega
  have he : ((cfg1.win 10).blk t).view.emb (ix2 p q) = ix2 (⟨t.val * 2000 + p.val, hp⟩ : Fin 50000) q := by
    funext a; apply Fin.ext
    match a with
    | ⟨0, _⟩ => show win1_10.index t (0 : Fin 2) * 2000 + 1 * p.val = t.val * 2000 + p.val; omega
    | ⟨1, _⟩ => show win1_10.index t (1 : Fin 2) * 128 + 1 * q.val = q.val; omega
  show Spec.mlpRes (M := 2000) (iblk1 V c 0 t) (iblk1 V c 1 t) (iblk1 V c 2 t) (iblk1 V c 3 t) (iblk1 V c 4 t) (iblk1 V c 5 t) (iblk1 V c 6 t) (iblk1 V c 7 t) (iblk1 V c 8 t) (ix2 p q) = Spec.mlpRes (M := 50000) (V c main_arg0) (V c main_v18) (V c main_v21) (V c main_v30) (V c main_v31) (V c main_v32) (V c main_v33) (V c main_v27) (V c main_v34) (((cfg1.win 10).blk t).view.emb (ix2 p q))
  rw [he, hw3, hw4, hw5, hw6, hw7, hw8]
  exact Block.mlpRes_rows _ _ _ _ _ _ _ _ _ _ _ _ p _ q (fun l => hr0 p l hp) (fun l => hr1 p l hp) (fun l => hr2 p l hp)

theorem mem_blk9 (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v35_0).slice (win1_9.rect t)).set ↔ _
  rw [View.set_slice_whole, Rect.mem_set_unit]
  exact Iff.rfl

/-- Every row of the array lies in the block of the grid point  row / 2000 . -/
theorem cover9 (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ := idx_onto ⟨(i 0).val / 2000, by omega⟩
  obtain ⟨f0, f1, f2, f3, f4, f5, f6, f7, f8, f9, f10, f11, f12, f13, f14, f15, f16, f17, f18, f19, f20, f21, f22⟩ := idx_facts t
  have e : t.val = (i 0).val / 2000 := ht
  refine ⟨t, flush1_9 t, ?_⟩
  rw [mem_blk9]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

theorem mem_blk10 (t : Fin cfg1.N) (i : S50000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v35_1).slice (win1_10.rect t)).set ↔ _
  rw [View.set_slice_whole, Rect.mem_set_unit]
  exact Iff.rfl

/-- Every row of the array lies in the block of the grid point  row / 2000 . -/
theorem cover10 (i : S50000x128.Idx) : ∃ t : Fin cfg1.N, (cfg1.win 10).flush t = true ∧ i ∈ ((cfg1.win 10).blk t).view.set := by
  have hi0 : (i 0).val < 50000 := (i 0).isLt
  have hi1 : (i 1).val < 128 := (i 1).isLt
  obtain ⟨t, ht⟩ := idx_onto ⟨(i 0).val / 2000, by omega⟩
  obtain ⟨f0, f1, f2, f3, f4, f5, f6, f7, f8, f9, f10, f11, f12, f13, f14, f15, f16, f17, f18, f19, f20, f21, f22⟩ := idx_facts t
  have e : t.val = (i 0).val / 2000 := ht
  refine ⟨t, flush1_10 t, ?_⟩
  rw [mem_blk10]
  intro a
  match a with
  | ⟨0, _⟩ => show win1_10.index t (0 : Fin 2) * 2000 ≤ (i 0).val ∧ (i 0).val < win1_10.index t (0 : Fin 2) * 2000 + 2000; omega
  | ⟨1, _⟩ => show win1_10.index t (1 : Fin 2) * 128 ≤ (i 1).val ∧ (i 1).val < win1_10.index t (1 : Fin 2) * 128 + 128; omega

/-- After the region the first output array is the message of the operand arrays as the region found them. -/
theorem msg (c : Dev nD) : (dat1 V c).arrAt 9 cfg1.N = Spec.mlpOut (M := 50000) (V c main_arg0) (V c main_v18) (V c main_v21) (V c main_v30) (V c main_v31) (V c main_v32) (V c main_v33) (V c main_v27) (V c main_v34) :=
  (dat1 V c).arrAt_eq_of_cover 9 _ (fun t _ => flushed9_eq V c t) (cover9)

/-- After the region the second output array is the residual update. -/
theorem res (c : Dev nD) : (dat1 V c).arrAt 10 cfg1.N = Spec.mlpRes (M := 50000) (V c main_arg0) (V c main_v18) (V c main_v21) (V c main_v30) (V c main_v31) (V c main_v32) (V c main_v33) (V c main_v27) (V c main_v34) :=
  (dat1 V c).arrAt_eq_of_cover 10 _ (fun t _ => flushed10_eq V c t) (cover10)

end Cert.KernelIdeal.Region1

end
-- ==== Proof.Region2.lean ====
/-
  Kernel region 2 (200 grid points of 2000 rows over 400000 rows), read as values at the ideal instance: whatever the buffers
  hold when the region is entered, after it the first output array holds the perceptron's message and the second the
  residual update (Spec.mlpOut, Spec.mlpRes) of the nine operand arrays.  Point t loads rows 2000 t .. 2000 t + 1999
  of the three row operands and the whole weights and biases, and writes back the same rows of the two results; the
  perceptron is row-local, and the 200 blocks tile the 400000 rows.
-/
import proofs.«403012_j35450660061796_1_alg».proof.Proof.Gen.KernelIdeal.Frame
import proofs.«403012_j35450660061796_1_alg».proof.Proof.Block
import Idealize.ShloMosaic.Lib.Pipeline.Value
import Idealize.ShloMosaic.Lib.ValueIdx

set_option maxRecDepth 16384
-- the two write-back lemmas unify nine window blocks of dependent types with plain blocks
set_option maxHeartbeats 1600000

noncomputable section

namespace Cert.KernelIdeal.Region2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0); a weight's or bias's is (0, 0). -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_9.index t (0 : Fin 2) = t.val
    ∧ win2_9.index t (1 : Fin 2) = 0
    ∧ win2_10.index t (0 : Fin 2) = t.val
    ∧ win2_10.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ t.val < 200 :=
  (by decide +kernel : ∀ t : Fin grid2.N, _)

/-- Every block row index below 200 is some point's. -/
theorem idx_onto : ∀ q0 : Fin 200, ∃ t : Fin cfg2.N, t.val = q0.val :=
  (by decide +kernel : ∀ q0 : Fin 200, ∃ t : Fin grid2.N, t.val = q0.val)

/-- What grid point t writes back through output window 9 is block t of the whole-array message of the arrays the
    region finds: rows 2000 t .. 2000 t + 1999, which depend on those rows of the row operands only. -/
theorem flushed9_eq (c : Dev nD) (t : Fin cfg2.N) :
    (dat2 V c).flushed 9 t = ((cfg2.win 9).blk t).view.read (Elt Ideal) (Spec.mlpOut (M := 400000) (V c main_v15_1) (V c main_v36) (V c main_v37) (V c main_v46) (V c main_v47) (V c main_v48) (V c main_v49) (V c main_v43) (V c main_v50)) := by
  show (cfg2.win 9).cut (grid2.coords t) ((dat2 V c).after 9 t) = _
  rw [after2_9]
  unfold out2_9
  rw [View.canon_unit_zero hz]
  simp only [View.ld_unit_zero (S := S2000x128) hz, View.ld_unit_zero (S := S128x128) hz, View.ld_unit_zero (S := S1x128) hz]
  rw [Block.k2_pay1_eq]
  obtain ⟨f0, f1, f2, f3, f4, f5, f6, f7, f8, f9, f10, f11, f12, f13, f14, f15, f16, f17, f18, f19, f20, f21, f22⟩ := idx_facts t
  have hr0 : ∀ (p : Fin 2000) (l : Fin 128) (hp : t.val * 2000 + p.val < 400000), iblk2 V c 0 t (ix2 p l) = V c main_v15_1 (ix2 (⟨t.val * 2000 + p.val, hp⟩ : Fin 400000) l) := by
    intro p l hp
    show V c main_v15_1 (((cfg2.win 0).blk t).view.emb (ix2 p l)) = _
    refine congrArg (V c main_v15_1) (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * l.val = l.val; omega
  have hr1 : ∀ (p : Fin 2000) (l : Fin 128) (hp : t.val * 2000 + p.val < 400000), iblk2 V c 1 t (ix2 p l) = V c main_v36 (ix2 (⟨t.val * 2000 + p.val, hp⟩ : Fin 400000) l) := by
    intro p l hp
    show V c main_v36 (((cfg2.win 1).blk t).view.emb (ix2 p l)) = _
    refine congrArg (V c main_v36) (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * l.val = l.val; omega
  have hr2 : ∀ (p : Fin 2000) (l : Fin 128) (hp : t.val * 2000 + p.val < 400000), iblk2 V c 2 t (ix2 p l) = V c main_v37 (ix2 (⟨t.val * 2000 + p.val, hp⟩ : Fin 400000) l) := by
    intro p l hp
    show V c main_v37 (((cfg2.win 2).blk t).view.emb (ix2 p l)) = _
    refine congrArg (V c main_v37) (funext fun a => Fin.ext ?_)
    match a with
    | ⟨0, _⟩ => show win2_2.index t (0 : Fin 2) * 2000 + 1 * p.val = t.val * 2000 + p.val; omega
    | ⟨1, _⟩ => show win2_2.index t (1 : Fin 2) * 128 + 1 * l.val = l.val; omega
  have hw3 : iblk2 V c 3 t = V c main_v46 := by
    funext y
    show V c main_v46 (((cfg2.win 3).blk t).view.emb y) = _
    refine congrArg (V c main_v46) (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  have hw4 : iblk2 V c 4 t = V c main_v47 := by
    funext y
    show V c main_v47 (((cfg2.win 4).blk t).view.emb y) = _
    refine congrArg (V c main_v47) (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  have hw5 : iblk2 V c 5 t = V c main_v48 := by
    funext y
    show V c main_v48 (((cfg2.win 5).blk t).view.emb y) = _
    refine congrArg (V c main_v48) (funext fun a => Fin.ext ?_)
    match a with
    | ⟨0, _⟩ => show win2_5.index t (0 : Fin 2) * 128 + 1 * (y 0).val = (y 0).val; omega
    | ⟨1, _⟩ => show win2_5.index t (1 : Fin 2) * 128 + 1 * (y 1).val = (y 1).val; omega
  have hw6 : iblk2 V c 6 t = V c main_v49 := by
    funext y
    show V c main_v49 (((cfg2.win 6).blk t).view.emb y) = _
    refine congrArg (V c main_v49) (funext fun a => Fin.ext ?_)
    match a with
    | ⟨0, _⟩ => show win2_6.index t (0 : Fin 2) * 1 + 1 * (y 0).val = (y 0).val; omega
    | ⟨1, _⟩ => show win2_6.index t (1 : Fin 2) * 128 + 1 * (y 1).val = (y 1).val; omega
  have hw7 : iblk2 V c 7 t = V c main_v43 := by
    funext y
    show V c main_v43 (((cfg2.win 7).blk t).view.emb y) = _
    refine congrArg (V c main_v43) (funext fun a => Fin.ext ?_)
    match a with
    | ⟨0, _⟩ => show win2_7.index t (0 : Fin 2) * 128 + 1 * (y 0).val = (y 0).val; omega
    | ⟨1, _⟩ => show win2_7.index t (1 : Fin 2) * 128 + 1 * (y 1).val = (y 1).val; omega
  have hw8 : iblk2 V c 8 t = V c main_v50 := by
    funext y
    show V c main_v50 (((cfg2.win 8).blk t).view.emb y) = _
    refine congrArg (V c main_v50) (funext fun a => Fin.ext ?_)
    match a with
    | ⟨0, _⟩ => show win2_8.index t (0 : Fin 2) * 1 + 1 * (y 0).val = (y 0).val; omega
    | ⟨1, _⟩ => show win2_8.index t (1 : Fin 2) * 128 + 1 * (y 1).val = (y 1).val; omega
  funext j
  obtain ⟨p, q, rfl⟩ : ∃ (p : Fin 2000) (q : Fin 128), j = ix2 p q := ⟨j 0, j 1, eq_ix2 j⟩
  have hp : t.val * 2000 + p.val < 400000 := by have := p.isLt; omega
  have he : ((cfg2.win 9).blk t).view.emb (ix2 p q) = ix2 (⟨t.val * 2000 + p.val, hp⟩ : Fin 400000) q := by
    funext a; apply Fin.ext
    match a with
    | ⟨0, _⟩ => show win2_9.index t (0 : Fin 2) * 2000 + 1 * p.val = t.val * 2000 + p.val; omega
    | ⟨1, _⟩ => show win2_9.index t (1 : Fin 2) * 128 + 1 * q.val = q.val; omega
  show Spec.mlpOut (M := 2000) (iblk2 V c 0 t) (iblk2 V c 1 t) (iblk2 V c 2 t) (iblk2 V c 3 t) (iblk2 V c 4 t) (iblk2 V c 5 t) (iblk2 V c 6 t) (iblk2 V c 7 t) (iblk2 V c 8 t) (ix2 p q) = Spec.mlpOut (M := 400000) (V c main_v15_1) (V c main_v36) (V c main_v37) (V c main_v46) (V c main_v47) (V c main_v48) (V c main_v49) (V c main_v43) (V c main_v50) (((cfg2.win 9).blk t).view.emb (ix2 p q))
  rw [he, hw3, hw4, hw5, hw6, hw7, hw8]
  exact Block.mlpOut_rows _ _ _ _ _ _ _ _ _ _ _ _ p _ q (fun l => hr0 p l hp) (fun l => hr1 p l hp) (fun l => hr2 p l hp)

/-- What grid point t writes back through output window 10 is block t of the whole-array residual update of the arrays the
    region finds: rows 2000 t .. 2000 t + 1999, which depend on those rows of the row operands only. -/
theorem flushed10_eq (c : Dev nD) (t : Fin cfg2.N) :
    (dat2 V c).flushed 10 t = ((cfg2.win 10).blk t).view.read (Elt Ideal) (Spec.mlpRes (M := 400000) (V c main_v15_1) (V c main_v36) (V c main_v37) (V c main_v46) (V c main_v47) (V c main_v48) (V c main_v49) (V c main_v43) (V c main_v50)) := by
  show (cfg2.win 10).cut (grid2.coords t) ((dat2 V c).after 10 t) = _
  rw [after2_10]
  unfold out2_10
  rw [View.canon_unit_zero hz]
  simp only [View.ld_unit_zero (S := S2000x128) hz, View.ld_unit_zero (S := S128x128) hz, View.ld_unit_zero (S := S1x128) hz]
  rw [Block.k2_pay2_eq]
  obtain ⟨f0, f1, f2, f3, f4, f5, f6, f7, f8, f9, f10, f11, f12, f13, f14, f15, f16, f17, f18, f19, f20, f21, f22⟩ := idx_facts t
  have hr0 : ∀ (p : Fin 2000) (l : Fin 128) (hp : t.val * 2000 + p.val < 400000), iblk2 V c 0 t (ix2 p l) = V c main_v15_1 (ix2 (⟨t.val * 2000 + p.val, hp⟩ : Fin 400000) l) := by
    intro p l hp
    show V c main_v15_1 (((cfg2.win 0).blk t).view.emb (ix2 p l)) = _
    refine congrArg (V c main_v15_1) (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * l.val = l.val; omega
  have hr1 : ∀ (p : Fin 2000) (l : Fin 128) (hp : t.val * 2000 + p.val < 400000), iblk2 V c 1 t (ix2 p l) = V c main_v36 (ix2 (⟨t.val * 2000 + p.val, hp⟩ : Fin 400000) l) := by
    intro p l hp
    show V c main_v36 (((cfg2.win 1).blk t).view.emb (ix2 p l)) = _
    refine congrArg (V c main_v36) (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * l.val = l.val; omega
  have hr2 : ∀ (p : Fin 2000) (l : Fin 128) (hp : t.val * 2000 + p.val < 400000), iblk2 V c 2 t (ix2 p l) = V c main_v37 (ix2 (⟨t.val * 2000 + p.val, hp⟩ : Fin 400000) l) := by
    intro p l hp
    show V c main_v37 (((cfg2.win 2).blk t).view.emb (ix2 p l)) = _
    refine congrArg (V c main_v37) (funext fun a => Fin.ext ?_)
    match a with
    | ⟨0, _⟩ => show win2_2.index t (0 : Fin 2) * 2000 + 1 * p.val = t.val * 2000 + p.val; omega
    | ⟨1, _⟩ => show win2_2.index t (1 : Fin 2) * 128 + 1 * l.val = l.val; omega
  have hw3 : iblk2 V c 3 t = V c main_v46 := by
    funext y
    show V c main_v46 (((cfg2.win 3).blk t).view.emb y) = _
    refine congrArg (V c main_v46) (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  have hw4 : iblk2 V c 4 t = V c main_v47 := by
    funext y
    show V c main_v47 (((cfg2.win 4).blk t).view.emb y) = _
    refine congrArg (V c main_v47) (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  have hw5 : iblk2 V c 5 t = V c main_v48 := by
    funext y
    show V c main_v48 (((cfg2.win 5).blk t).view.emb y) = _
    refine congrArg (V c main_v48) (funext fun a => Fin.ext ?_)
    match a with
    | ⟨0, _⟩ => show win2_5.index t (0 : Fin 2) * 128 + 1 * (y 0).val = (y 0).val; omega
    | ⟨1, _⟩ => show win2_5.index t (1 : Fin 2) * 128 + 1 * (y 1).val = (y 1).val; omega
  have hw6 : iblk2 V c 6 t = V c main_v49 := by
    funext y
    show V c main_v49 (((cfg2.win 6).blk t).view.emb y) = _
    refine congrArg (V c main_v49) (funext fun a => Fin.ext ?_)
    match a with
    | ⟨0, _⟩ => show win2_6.index t (0 : Fin 2) * 1 + 1 * (y 0).val = (y 0).val; omega
    | ⟨1, _⟩ => show win2_6.index t (1 : Fin 2) * 128 + 1 * (y 1).val = (y 1).val; omega
  have hw7 : iblk2 V c 7 t = V c main_v43 := by
    funext y
    show V c main_v43 (((cfg2.win 7).blk t).view.emb y) = _
    refine congrArg (V c main_v43) (funext fun a => Fin.ext ?_)
    match a with
    | ⟨0, _⟩ => show win2_7.index t (0 : Fin 2) * 128 + 1 * (y 0).val = (y 0).val; omega
    | ⟨1, _⟩ => show win2_7.index t (1 : Fin 2) * 128 + 1 * (y 1).val = (y 1).val; omega
  have hw8 : iblk2 V c 8 t = V c main_v50 := by
    funext y
    show V c main_v50 (((cfg2.win 8).blk t).view.emb y) = _
    refine congrArg (V c main_v50) (funext fun a => Fin.ext ?_)
    match a with
    | ⟨0, _⟩ => show win2_8.index t (0 : Fin 2) * 1 + 1 * (y 0).val = (y 0).val; omega
    | ⟨1, _⟩ => show win2_8.index t (1 : Fin 2) * 128 + 1 * (y 1).val = (y 1).val; omega
  funext j
  obtain ⟨p, q, rfl⟩ : ∃ (p : Fin 2000) (q : Fin 128), j = ix2 p q := ⟨j 0, j 1, eq_ix2 j⟩
  have hp : t.val * 2000 + p.val < 400000 := by have := p.isLt; omega
  have he : ((cfg2.win 10).blk t).view.emb (ix2 p q) = ix2 (⟨t.val * 2000 + p.val, hp⟩ : Fin 400000) q := by
    funext a; apply Fin.ext
    match a with
    | ⟨0, _⟩ => show win2_10.index t (0 : Fin 2) * 2000 + 1 * p.val = t.val * 2000 + p.val; omega
    | ⟨1, _⟩ => show win2_10.index t (1 : Fin 2) * 128 + 1 * q.val = q.val; omega
  show Spec.mlpRes (M := 2000) (iblk2 V c 0 t) (iblk2 V c 1 t) (iblk2 V c 2 t) (iblk2 V c 3 t) (iblk2 V c 4 t) (iblk2 V c 5 t) (iblk2 V c 6 t) (iblk2 V c 7 t) (iblk2 V c 8 t) (ix2 p q) = Spec.mlpRes (M := 400000) (V c main_v15_1) (V c main_v36) (V c main_v37) (V c main_v46) (V c main_v47) (V c main_v48) (V c main_v49) (V c main_v43) (V c main_v50) (((cfg2.win 10).blk t).view.emb (ix2 p q))
  rw [he, hw3, hw4, hw5, hw6, hw7, hw8]
  exact Block.mlpRes_rows _ _ _ _ _ _ _ _ _ _ _ _ p _ q (fun l => hr0 p l hp) (fun l => hr1 p l hp) (fun l => hr2 p l hp)

theorem mem_blk9 (t : Fin cfg2.N) (i : S400000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v51_0).slice (win2_9.rect t)).set ↔ _
  rw [View.set_slice_whole, Rect.mem_set_unit]
  exact Iff.rfl

/-- Every row of the array lies in the block of the grid point  row / 2000 . -/
theorem cover9 (i : S400000x128.Idx) : ∃ t : Fin cfg2.N, (cfg2.win 9).flush t = true ∧ i ∈ ((cfg2.win 9).blk t).view.set := by
  have hi0 : (i 0).val < 400000 := (i 0).isLt
  have hi1 : (i 1).val < 128 := (i 1).isLt
  obtain ⟨t, ht⟩ := idx_onto ⟨(i 0).val / 2000, by omega⟩
  obtain ⟨f0, f1, f2, f3, f4, f5, f6, f7, f8, f9, f10, f11, f12, f13, f14, f15, f16, f17, f18, f19, f20, f21, f22⟩ := idx_facts t
  have e : t.val = (i 0).val / 2000 := ht
  refine ⟨t, flush2_9 t, ?_⟩
  rw [mem_blk9]
  intro a
  match a with
  | ⟨0, _⟩ => show win2_9.index t (0 : Fin 2) * 2000 ≤ (i 0).val ∧ (i 0).val < win2_9.index t (0 : Fin 2) * 2000 + 2000; omega
  | ⟨1, _⟩ => show win2_9.index t (1 : Fin 2) * 128 ≤ (i 1).val ∧ (i 1).val < win2_9.index t (1 : Fin 2) * 128 + 128; omega

theorem mem_blk10 (t : Fin cfg2.N) (i : S400000x128.Idx) :
    i ∈ ((cfg2.win 10).blk t).view.set ↔ ∀ a : Fin 2, win2_10.index t a * S2000x128.size a ≤ (i a).val ∧ (i a).val < win2_10.index t a * S2000x128.size a + S2000x128.size a := by
  show i ∈ ((View.whole main_v51_1).slice (win2_10.rect t)).set ↔ _
  rw [View.set_slice_whole, Rect.mem_set_unit]
  exact Iff.rfl

/-- Every row of the array lies in the block of the grid point  row / 2000 . -/
theorem cover10 (i : S400000x128.Idx) : ∃ t : Fin cfg2.N, (cfg2.win 10).flush t = true ∧ i ∈ ((cfg2.win 10).blk t).view.set := by
  have hi0 : (i 0).val < 400000 := (i 0).isLt
  have hi1 : (i 1).val < 128 := (i 1).isLt
  obtain ⟨t, ht⟩ := idx_onto ⟨(i 0).val / 2000, by omega⟩
  obtain ⟨f0, f1, f2, f3, f4, f5, f6, f7, f8, f9, f10, f11, f12, f13, f14, f15, f16, f17, f18, f19, f20, f21, f22⟩ := idx_facts t
  have e : t.val = (i 0).val / 2000 := ht
  refine ⟨t, flush2_10 t, ?_⟩
  rw [mem_blk10]
  intro a
  match a with
  | ⟨0, _⟩ => show win2_10.index t (0 : Fin 2) * 2000 ≤ (i 0).val ∧ (i 0).val < win2_10.index t (0 : Fin 2) * 2000 + 2000; omega
  | ⟨1, _⟩ => show win2_10.index t (1 : Fin 2) * 128 ≤ (i 1).val ∧ (i 1).val < win2_10.index t (1 : Fin 2) * 128 + 128; omega

/-- After the region the first output array is the message of the operand arrays as the region found them. -/
theorem msg (c : Dev nD) : (dat2 V c).arrAt 9 cfg2.N = Spec.mlpOut (M := 400000) (V c main_v15_1) (V c main_v36) (V c main_v37) (V c main_v46) (V c main_v47) (V c main_v48) (V c main_v49) (V c main_v43) (V c main_v50) :=
  (dat2 V c).arrAt_eq_of_cover 9 _ (fun t _ => flushed9_eq V c t) (cover9)

/-- After the region the second output array is the residual update. -/
theorem res (c : Dev nD) : (dat2 V c).arrAt 10 cfg2.N = Spec.mlpRes (M := 400000) (V c main_v15_1) (V c main_v36) (V c main_v37) (V c main_v46) (V c main_v47) (V c main_v48) (V c main_v49) (V c main_v43) (V c main_v50) :=
  (dat2 V c).arrAt_eq_of_cover 10 _ (fun t _ => flushed10_eq V c t) (cover10)

end Cert.KernelIdeal.Region2

end
-- ==== Proof.Region3.lean ====
/-
  Kernel region 3 (25 grid points of 2000 rows over 50000 rows), read as values at the ideal instance: whatever the buffers
  hold when the region is entered, after it the first output array holds the perceptron's message and the second the
  residual update (Spec.mlpOut, Spec.mlpRes) of the nine operand arrays.  Point t loads rows 2000 t .. 2000 t + 1999
  of the three row operands and the whole weights and biases, and writes back the same rows of the two results; the
  perceptron is row-local, and the 25 blocks tile the 50000 rows.
-/
import proofs.«403012_j35450660061796_1_alg».proof.Proof.Gen.KernelIdeal.Frame
import proofs.«403012_j35450660061796_1_alg».proof.Proof.Block
import Idealize.ShloMosaic.Lib.Pipeline.Value
import Idealize.ShloMosaic.Lib.ValueIdx

set_option maxRecDepth 16384
-- the two write-back lemmas unify nine window blocks of dependent types with plain blocks
set_option maxHeartbeats 1600000

noncomputable section

namespace Cert.KernelIdeal.Region3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0); a weight's or bias's is (0, 0). -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_9.index t (0 : Fin 2) = t.val
    ∧ win3_9.index t (1 : Fin 2) = 0
    ∧ win3_10.index t (0 : Fin 2) = t.val
    ∧ win3_10.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ t.val < 25 :=
  (by decide +kernel : ∀ t : Fin grid3.N, _)

/-- Every block row index below 25 is some point's. -/
theorem idx_onto : ∀ q0 : Fin 25, ∃ t : Fin cfg3.N, t.val = q0.val :=
  (by decide +kernel : ∀ q0 : Fin 25, ∃ t : Fin grid3.N, t.val = q0.val)

/-- What grid point t writes back through output window 9 is block t of the whole-array message of the arrays the
    region finds: rows 2000 t .. 2000 t + 1999, which depend on those rows of the row operands only. -/
theorem flushed9_eq (c : Dev nD) (t : Fin cfg3.N) :
    (dat3 V c).flushed 9 t = ((cfg3.win 9).blk t).view.read (Elt Ideal) (Spec.mlpOut (M := 50000) (V c main_v35_1) (V c main_v54) (V c main_v57) (V c main_v66) (V c main_v67) (V c main_v68) (V c main_v69) (V c main_v63) (V c main_v70)) := by
  show (cfg3.win 9).cut (grid3.coords t) ((dat3 V c).after 9 t) = _
  rw [after3_9]
  unfold out3_9
  rw [View.canon_unit_zero hz]
  simp only [View.ld_unit_zero (S := S2000x128) hz, View.ld_unit_zero (S := S128x128) hz, View.ld_unit_zero (S := S1x128) hz]
  rw [Block.k3_pay1_def, Block.k3_pay4_def, Block.k3_pay5_def, Block.k2_pay1_eq]
  obtain ⟨f0, f1, f2, f3, f4, f5, f6, f7, f8, f9, f10, f11, f12, f13, f14, f15, f16, f17, f18, f19, f20, f21, f22⟩ := idx_facts t
  have hr0 : ∀ (p : Fin 2000) (l : Fin 128) (hp : t.val * 2000 + p.val < 50000), iblk3 V c 0 t (ix2 p l) = V c main_v35_1 (ix2 (⟨t.val * 2000 + p.val, hp⟩ : Fin 50000) l) := by
    intro p l hp
    show V c main_v35_1 (((cfg3.win 0).blk t).view.emb (ix2 p l)) = _
    refine congrArg (V c main_v35_1) (funext fun a => Fin.ext ?_)
    match a with
    | ⟨0, _⟩ => show win3_0.index t (0 : Fin 2) * 2000 + 1 * p.val = t.val * 2000 + p.val; omega
    | ⟨1, _⟩ => show win3_0.index t (1 : Fin 2) * 128 + 1 * l.val = l.val; omega
  have hr1 : ∀ (p : Fin 2000) (l : Fin 128) (hp : t.val * 2000 + p.val < 50000), iblk3 V c 1 t (ix2 p l) = V c main_v54 (ix2 (⟨t.val * 2000 + p.val, hp⟩ : Fin 50000) l) := by
    intro p l hp
    show V c main_v54 (((cfg3.win 1).blk t).view.emb (ix2 p l)) = _
    refine congrArg (V c main_v54) (funext fun a => Fin.ext ?_)
    match a with
    | ⟨0, _⟩ => show win3_1.index t (0 : Fin 2) * 2000 + 1 * p.val = t.val * 2000 + p.val; omega
    | ⟨1, _⟩ => show win3_1.index t (1 : Fin 2) * 128 + 1 * l.val = l.val; omega
  have hr2 : ∀ (p : Fin 2000) (l : Fin 128) (hp : t.val * 2000 + p.val < 50000), iblk3 V c 2 t (ix2 p l) = V c main_v57 (ix2 (⟨t.val * 2000 + p.val, hp⟩ : Fin 50000) l) := by
    intro p l hp
    show V c main_v57 (((cfg3.win 2).blk t).view.emb (ix2 p l)) = _
    refine congrArg (V c main_v57) (funext fun a => Fin.ext ?_)
    match a with
    | ⟨0, _⟩ => show win3_2.index t (0 : Fin 2) * 2000 + 1 * p.val = t.val * 2000 + p.val; omega
    | ⟨1, _⟩ => show win3_2.index t (1 : Fin 2) * 128 + 1 * l.val = l.val; omega
  have hw3 : iblk3 V c 3 t = V c main_v66 := by
    funext y
    show V c main_v66 (((cfg3.win 3).blk t).view.emb y) = _
    refine congrArg (V c main_v66) (funext fun a => Fin.ext ?_)
    match a with
    | ⟨0, _⟩ => show win3_3.index t (0 : Fin 2) * 128 + 1 * (y 0).val = (y 0).val; omega
    | ⟨1, _⟩ => show win3_3.index t (1 : Fin 2) * 128 + 1 * (y 1).val = (y 1).val; omega
  have hw4 : iblk3 V c 4 t = V c main_v67 := by
    funext y
    show V c main_v67 (((cfg3.win 4).blk t).view.emb y) = _
    refine congrArg (V c main_v67) (funext fun a => Fin.ext ?_)
    match a with
    | ⟨0, _⟩ => show win3_4.index t (0 : Fin 2) * 128 + 1 * (y 0).val = (y 0).val; omega
    | ⟨1, _⟩ => show win3_4.index t (1 : Fin 2) * 128 + 1 * (y 1).val = (y 1).val; omega
  have hw5 : iblk3 V c 5 t = V c main_v68 := by
    funext y
    show V c main_v68 (((cfg3.win 5).blk t).view.emb y) = _
    refine congrArg (V c main_v68) (funext fun a => Fin.ext ?_)
    match a with
    | ⟨0, _⟩ => show win3_5.index t (0 : Fin 2) * 128 + 1 * (y 0).val = (y 0).val; omega
    | ⟨1, _⟩ => show win3_5.index t (1 : Fin 2) * 128 + 1 * (y 1).val = (y 1).val; omega
  have hw6 : iblk3 V c 6 t = V c main_v69 := by
    funext y
    show V c main_v69 (((cfg3.win 6).blk t).view.emb y) = _
    refine congrArg (V c main_v69) (funext fun a => Fin.ext ?_)
    match a with
    | ⟨0, _⟩ => show win3_6.index t (0 : Fin 2) * 1 + 1 * (y 0).val = (y 0).val; omega
    | ⟨1, _⟩ => show win3_6.index t (1 : Fin 2) * 128 + 1 * (y 1).val = (y 1).val; omega
  have hw7 : iblk3 V c 7 t = V c main_v63 := by
    funext y
    show V c main_v63 (((cfg3.win 7).blk t).view.emb y) = _
    refine congrArg (V c main_v63) (funext fun a => Fin.ext ?_)
    match a with
    | ⟨0, _⟩ => show win3_7.index t (0 : Fin 2) * 128 + 1 * (y 0).val = (y 0).val; omega
    | ⟨1, _⟩ => show win3_7.index t (1 : Fin 2) * 128 + 1 * (y 1).val = (y 1).val; omega
  have hw8 : iblk3 V c 8 t = V c main_v70 := by
    funext y
    show V c main_v70 (((cfg3.win 8).blk t).view.emb y) = _
    refine congrArg (V c main_v70) (funext fun a => Fin.ext ?_)
    match a with
    | ⟨0, _⟩ => show win3_8.index t (0 : Fin 2) * 1 + 1 * (y 0).val = (y 0).val; omega
    | ⟨1, _⟩ => show win3_8.index t (1 : Fin 2) * 128 + 1 * (y 1).val = (y 1).val; omega
  funext j
  obtain ⟨p, q, rfl⟩ : ∃ (p : Fin 2000) (q : Fin 128), j = ix2 p q := ⟨j 0, j 1, eq_ix2 j⟩
  have hp : t.val * 2000 + p.val < 50000 := by have := p.isLt; omega
  have he : ((cfg3.win 9).blk t).view.emb (ix2 p q) = ix2 (⟨t.val * 2000 + p.val, hp⟩ : Fin 50000) q := by
    funext a; apply Fin.ext
    match a with
    | ⟨0, _⟩ => show win3_9.index t (0 : Fin 2) * 2000 + 1 * p.val = t.val * 2000 + p.val; omega
    | ⟨1, _⟩ => show win3_9.index t (1 : Fin 2) * 128 + 1 * q.val = q.val; omega
  show Spec.mlpOut (M := 2000) (iblk3 V c 0 t) (iblk3 V c 1 t) (iblk3 V c 2 t) (iblk3 V c 3 t) (iblk3 V c 4 t) (iblk3 V c 5 t) (iblk3 V c 6 t) (iblk3 V c 7 t) (iblk3 V c 8 t) (ix2 p q) = Spec.mlpOut (M := 50000) (V c main_v35_1) (V c main_v54) (V c main_v57) (V c main_v66) (V c main_v67) (V c main_v68) (V c main_v69) (V c main_v63) (V c main_v70) (((cfg3.win 9).blk t).view.emb (ix2 p q))
  rw [he, hw3, hw4, hw5, hw6, hw7, hw8]
  exact Block.mlpOut_rows _ _ _ _ _ _ _ _ _ _ _ _ p _ q (fun l => hr0 p l hp) (fun l => hr1 p l hp) (fun l => hr2 p l hp)

/-- What grid point t writes back through output window 10 is block t of the whole-array residual update of the arrays the
    region finds: rows 2000 t .. 2000 t + 1999, which depend on those rows of the row operands only. -/
theorem flushed10_eq (c : Dev nD) (t : Fin cfg3.N) :
    (dat3 V c).flushed 10 t = ((cfg3.win 10).blk t).view.read (Elt Ideal) (Spec.mlpRes (M := 50000) (V c main_v35_1) (V c main_v54) (V c main_v57) (V c main_v66) (V c main_v67) (V c main_v68) (V c main_v69) (V c main_v63) (V c main_v70)) := by
  show (cfg3.win 10).cut (grid3.coords t) ((dat3 V c).after 10 t) = _
  rw [after3_10]
  unfold out3_10
  rw [View.canon_unit_zero hz]
  simp only [View.ld_unit_zero (S := S2000x128) hz, View.ld_unit_zero (S := S128x128) hz, View.ld_unit_zero (S := S1x128) hz]
  rw [Block.k3_pay2_def, Block.k3_pay3_def, Block.k3_pay4_def, Block.k3_pay5_def, Block.k2_pay2_eq]
  obtain ⟨f0, f1, f2, f3, f4, f5, f6, f7, f8, f9, f10, f11, f12, f13, f14, f15, f16, f17, f18, f19, f20, f21, f22⟩ := idx_facts t
  have hr0 : ∀ (p : Fin 2000) (l : Fin 128) (hp : t.val * 2000 + p.val < 50000), iblk3 V c 0 t (ix2 p l) = V c main_v35_1 (ix2 (⟨t.val * 2000 + p.val, hp⟩ : Fin 50000) l) := by
    intro p l hp
    show V c main_v35_1 (((cfg3.win 0).blk t).view.emb (ix2 p l)) = _
    refine congrArg (V c main_v35_1) (funext fun a => Fin.ext ?_)
    match a with
    | ⟨0, _⟩ => show win3_0.index t (0 : Fin 2) * 2000 + 1 * p.val = t.val * 2000 + p.val; omega
    | ⟨1, _⟩ => show win3_0.index t (1 : Fin 2) * 128 + 1 * l.val = l.val; omega
  have hr1 : ∀ (p : Fin 2000) (l : Fin 128) (hp : t.val * 2000 + p.val < 50000), iblk3 V c 1 t (ix2 p l) = V c main_v54 (ix2 (⟨t.val * 2000 + p.val, hp⟩ : Fin 50000) l) := by
    intro p l hp
    show V c main_v54 (((cfg3.win 1).blk t).view.emb (ix2 p l)) = _
    refine congrArg (V c main_v54) (funext fun a => Fin.ext ?_)
    match a with
    | ⟨0, _⟩ => show win3_1.index t (0 : Fin 2) * 2000 + 1 * p.val = t.val * 2000 + p.val; omega
    | ⟨1, _⟩ => show win3_1.index t (1 : Fin 2) * 128 + 1 * l.val = l.val; omega
  have hr2 : ∀ (p : Fin 2000) (l : Fin 128) (hp : t.val * 2000 + p.val < 50000), iblk3 V c 2 t (ix2 p l) = V c main_v57 (ix2 (⟨t.val * 2000 + p.val, hp⟩ : Fin 50000) l) := by
    intro p l hp
    show V c main_v57 (((cfg3.win 2).blk t).view.emb (ix2 p l)) = _
    refine congrArg (V c main_v57) (funext fun a => Fin.ext ?_)
    match a with
    | ⟨0, _⟩ => show win3_2.index t (0 : Fin 2) * 2000 + 1 * p.val = t.val * 2000 + p.val; omega
    | ⟨1, _⟩ => show win3_2.index t (1 : Fin 2) * 128 + 1 * l.val = l.val; omega
  have hw3 : iblk3 V c 3 t = V c main_v66 := by
    funext y
    show V c main_v66 (((cfg3.win 3).blk t).view.emb y) = _
    refine congrArg (V c main_v66) (funext fun a => Fin.ext ?_)
    match a with
    | ⟨0, _⟩ => show win3_3.index t (0 : Fin 2) * 128 + 1 * (y 0).val = (y 0).val; omega
    | ⟨1, _⟩ => show win3_3.index t (1 : Fin 2) * 128 + 1 * (y 1).val = (y 1).val; omega
  have hw4 : iblk3 V c 4 t = V c main_v67 := by
    funext y
    show V c main_v67 (((cfg3.win 4).blk t).view.emb y) = _
    refine congrArg (V c main_v67) (funext fun a => Fin.ext ?_)
    match a with
    | ⟨0, _⟩ => show win3_4.index t (0 : Fin 2) * 128 + 1 * (y 0).val = (y 0).val; omega
    | ⟨1, _⟩ => show win3_4.index t (1 : Fin 2) * 128 + 1 * (y 1).val = (y 1).val; omega
  have hw5 : iblk3 V c 5 t = V c main_v68 := by
    funext y
    show V c main_v68 (((cfg3.win 5).blk t).view.emb y) = _
    refine congrArg (V c main_v68) (funext fun a => Fin.ext ?_)
    match a with
    | ⟨0, _⟩ => show win3_5.index t (0 : Fin 2) * 128 + 1 * (y 0).val = (y 0).val; omega
    | ⟨1, _⟩ => show win3_5.index t (1 : Fin 2) * 128 + 1 * (y 1).val = (y 1).val; omega
  have hw6 : iblk3 V c 6 t = V c main_v69 := by
    funext y
    show V c main_v69 (((cfg3.win 6).blk t).view.emb y) = _
    refine congrArg (V c main_v69) (funext fun a => Fin.ext ?_)
    match a with
    | ⟨0, _⟩ => show win3_6.index t (0 : Fin 2) * 1 + 1 * (y 0).val = (y 0).val; omega
    | ⟨1, _⟩ => show win3_6.index t (1 : Fin 2) * 128 + 1 * (y 1).val = (y 1).val; omega
  have hw7 : iblk3 V c 7 t = V c main_v63 := by
    funext y
    show V c main_v63 (((cfg3.win 7).blk t).view.emb y) = _
    refine congrArg (V c main_v63) (funext fun a => Fin.ext ?_)
    match a with
    | ⟨0, _⟩ => show win3_7.index t (0 : Fin 2) * 128 + 1 * (y 0).val = (y 0).val; omega
    | ⟨1, _⟩ => show win3_7.index t (1 : Fin 2) * 128 + 1 * (y 1).val = (y 1).val; omega
  have hw8 : iblk3 V c 8 t = V c main_v70 := by
    funext y
    show V c main_v70 (((cfg3.win 8).blk t).view.emb y) = _
    refine congrArg (V c main_v70) (funext fun a => Fin.ext ?_)
    match a with
    | ⟨0, _⟩ => show win3_8.index t (0 : Fin 2) * 1 + 1 * (y 0).val = (y 0).val; omega
    | ⟨1, _⟩ => show win3_8.index t (1 : Fin 2) * 128 + 1 * (y 1).val = (y 1).val; omega
  funext j
  obtain ⟨p, q, rfl⟩ : ∃ (p : Fin 2000) (q : Fin 128), j = ix2 p q := ⟨j 0, j 1, eq_ix2 j⟩
  have hp : t.val * 2000 + p.val < 50000 := by have := p.isLt; omega
  have he : ((cfg3.win 10).blk t).view.emb (ix2 p q) = ix2 (⟨t.val * 2000 + p.val, hp⟩ : Fin 50000) q := by
    funext a; apply Fin.ext
    match a with
    | ⟨0, _⟩ => show win3_10.index t (0 : Fin 2) * 2000 + 1 * p.val = t.val * 2000 + p.val; omega
    | ⟨1, _⟩ => show win3_10.index t (1 : Fin 2) * 128 + 1 * q.val = q.val; omega
  show Spec.mlpRes (M := 2000) (iblk3 V c 0 t) (iblk3 V c 1 t) (iblk3 V c 2 t) (iblk3 V c 3 t) (iblk3 V c 4 t) (iblk3 V c 5 t) (iblk3 V c 6 t) (iblk3 V c 7 t) (iblk3 V c 8 t) (ix2 p q) = Spec.mlpRes (M := 50000) (V c main_v35_1) (V c main_v54) (V c main_v57) (V c main_v66) (V c main_v67) (V c main_v68) (V c main_v69) (V c main_v63) (V c main_v70) (((cfg3.win 10).blk t).view.emb (ix2 p q))
  rw [he, hw3, hw4, hw5, hw6, hw7, hw8]
  exact Block.mlpRes_rows _ _ _ _ _ _ _ _ _ _ _ _ p _ q (fun l => hr0 p l hp) (fun l => hr1 p l hp) (fun l => hr2 p l hp)

theorem mem_blk9 (t : Fin cfg3.N) (i : S50000x128.Idx) :
    i ∈ ((cfg3.win 9).blk t).view.set ↔ ∀ a : Fin 2, win3_9.index t a * S2000x128.size a ≤ (i a).val ∧ (i a).val < win3_9.index t a * S2000x128.size a + S2000x128.size a := by
  show i ∈ ((View.whole main_v71_0).slice (win3_9.rect t)).set ↔ _
  rw [View.set_slice_whole, Rect.mem_set_unit]
  exact Iff.rfl

/-- Every row of the array lies in the block of the grid point  row / 2000 . -/
theorem cover9 (i : S50000x128.Idx) : ∃ t : Fin cfg3.N, (cfg3.win 9).flush t = true ∧ i ∈ ((cfg3.win 9).blk t).view.set := by
  have hi0 : (i 0).val < 50000 := (i 0).isLt
  have hi1 : (i 1).val < 128 := (i 1).isLt
  obtain ⟨t, ht⟩ := idx_onto ⟨(i 0).val / 2000, by omega⟩
  obtain ⟨f0, f1, f2, f3, f4, f5, f6, f7, f8, f9, f10, f11, f12, f13, f14, f15, f16, f17, f18, f19, f20, f21, f22⟩ := idx_facts t
  have e : t.val = (i 0).val / 2000 := ht
  refine ⟨t, flush3_9 t, ?_⟩
  rw [mem_blk9]
  intro a
  match a with
  | ⟨0, _⟩ => show win3_9.index t (0 : Fin 2) * 2000 ≤ (i 0).val ∧ (i 0).val < win3_9.index t (0 : Fin 2) * 2000 + 2000; omega
  | ⟨1, _⟩ => show win3_9.index t (1 : Fin 2) * 128 ≤ (i 1).val ∧ (i 1).val < win3_9.index t (1 : Fin 2) * 128 + 128; omega

theorem mem_blk10 (t : Fin cfg3.N) (i : S50000x128.Idx) :
    i ∈ ((cfg3.win 10).blk t).view.set ↔ ∀ a : Fin 2, win3_10.index t a * S2000x128.size a ≤ (i a).val ∧ (i a).val < win3_10.index t a * S2000x128.size a + S2000x128.size a := by
  show i ∈ ((View.whole main_v71_1).slice (win3_10.rect t)).set ↔ _
  rw [View.set_slice_whole, Rect.mem_set_unit]
  exact Iff.rfl

/-- Every row of the array lies in the block of the grid point  row / 2000 . -/
theorem cover10 (i : S50000x128.Idx) : ∃ t : Fin cfg3.N, (cfg3.win 10).flush t = true ∧ i ∈ ((cfg3.win 10).blk t).view.set := by
  have hi0 : (i 0).val < 50000 := (i 0).isLt
  have hi1 : (i 1).val < 128 := (i 1).isLt
  obtain ⟨t, ht⟩ := idx_onto ⟨(i 0).val / 2000, by omega⟩
  obtain ⟨f0, f1, f2, f3, f4, f5, f6, f7, f8, f9, f10, f11, f12, f13, f14, f15, f16, f17, f18, f19, f20, f21, f22⟩ := idx_facts t
  have e : t.val = (i 0).val / 2000 := ht
  refine ⟨t, flush3_10 t, ?_⟩
  rw [mem_blk10]
  intro a
  match a with
  | ⟨0, _⟩ => show win3_10.index t (0 : Fin 2) * 2000 ≤ (i 0).val ∧ (i 0).val < win3_10.index t (0 : Fin 2) * 2000 + 2000; omega
  | ⟨1, _⟩ => show win3_10.index t (1 : Fin 2) * 128 ≤ (i 1).val ∧ (i 1).val < win3_10.index t (1 : Fin 2) * 128 + 128; omega

/-- After the region the first output array is the message of the operand arrays as the region found them. -/
theorem msg (c : Dev nD) : (dat3 V c).arrAt 9 cfg3.N = Spec.mlpOut (M := 50000) (V c main_v35_1) (V c main_v54) (V c main_v57) (V c main_v66) (V c main_v67) (V c main_v68) (V c main_v69) (V c main_v63) (V c main_v70) :=
  (dat3 V c).arrAt_eq_of_cover 9 _ (fun t _ => flushed9_eq V c t) (cover9)

/-- After the region the second output array is the residual update. -/
theorem res (c : Dev nD) : (dat3 V c).arrAt 10 cfg3.N = Spec.mlpRes (M := 50000) (V c main_v35_1) (V c main_v54) (V c main_v57) (V c main_v66) (V c main_v67) (V c main_v68) (V c main_v69) (V c main_v63) (V c main_v70) :=
  (dat3 V c).arrAt_eq_of_cover 10 _ (fun t _ => flushed10_eq V c t) (cover10)

end Cert.KernelIdeal.Region3

end
-- ==== Proof.Fold.lean ====
/-
  The idealized kernel's two results as the shared mathematics of the argument arrays.

  The buffer contents at every boundary of @main are a fold from the launch memory: a host stretch applies its
  operations' functions; a kernel region leaves in its two output arrays the perceptron's message and residual update
  of the nine operand arrays it found (the region modules), and every other buffer as it was.  Walking that fold:
  step 0's edge region finds the edges, the gathered sender and receiver rows (a gather that fills out-of-range rows,
  which under the index precondition is the plain gather), and the step's weights sliced out of the stacked
  arguments; its message is segment-summed into the node region's operands; step 1 repeats this from step 0's nodes
  and edges.  No stretch and no region writes an argument.
-/
import proofs.«403012_j35450660061796_1_alg».proof.Proof.Gen.KernelIdeal.Frame
import proofs.«403012_j35450660061796_1_alg».proof.Proof.Spec
import proofs.«403012_j35450660061796_1_alg».proof.Proof.Take
import proofs.«403012_j35450660061796_1_alg».proof.Proof.Region0
import proofs.«403012_j35450660061796_1_alg».proof.Proof.Region1
import proofs.«403012_j35450660061796_1_alg».proof.Proof.Region2
import proofs.«403012_j35450660061796_1_alg».proof.Proof.Region3
import Idealize.ShloMosaic.Lib.StableHlo.Run

set_option maxRecDepth 16384

noncomputable section

namespace Cert.KernelIdeal.Fold

open Idealize.ShloMosaic Idealize.ShloMosaic.TcCoe Idealize.ShloMosaic.StableHlo
open Idealize.SL Idealize.SL.Sem
open Cert.KernelIdeal Cert.KernelIdeal.Gen Cert.KernelIdeal.Facts₀

variable (m : (ℓ : Loc nD τ sig) → Buf (Elt Ideal) ℓ) (ρ : Dev nD → PrngReg)

/-- The twelve argument arrays of core c as launched. -/
def argsOf (c : Dev nD) : Spec.Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11)⟩

/-- Read a buffer through host stretches: every operation's result at its own buffer is its function of its
    operands, and at any other buffer what was there. -/
macro "fold_read" : tactic =>
  `(tactic| (simp only [hostOps0, hostOps0_1, hostOps0_2, hostOps1, hostOps2, hostOps2_1, hostOps2_2, hostOps3]; after_results_simp))

variable (c : Dev nD)

set_option hygiene false in
/-- A buffer at region 0's entry, through the three stretches before it, from the launch memory. -/
macro "rd3 " b:term : tactic =>
  `(tactic| (show StableHlo.after hostOps0_2 (StableHlo.after hostOps0_1 (StableHlo.after hostOps0 (W0 m ρ c))) (Proc.devRef .tc $b) = _; fold_read))
set_option hygiene false in
/-- A buffer at region 1's entry, through the stretch after region 0. -/
macro "rd5 " b:term : tactic =>
  `(tactic| (show StableHlo.after hostOps1 (W4 m ρ c) (Proc.devRef .tc $b) = _; fold_read))
set_option hygiene false in
/-- A buffer at region 2's entry, through the three stretches after region 1. -/
macro "rd9 " b:term : tactic =>
  `(tactic| (show StableHlo.after hostOps2_2 (StableHlo.after hostOps2_1 (StableHlo.after hostOps2 (W6 m ρ c))) (Proc.devRef .tc $b) = _; fold_read))
set_option hygiene false in
/-- A buffer at region 3's entry, through the stretch after region 2. -/
macro "rd11 " b:term : tactic =>
  `(tactic| (show StableHlo.after hostOps3 (W10 m ρ c) (Proc.devRef .tc $b) = _; fold_read))
set_option hygiene false in
/-- A buffer that is none of region 0's arrays, at its exit: as at its entry. -/
macro "keep4 " b:term : tactic => `(tactic| (refine (W4_of_ne m ρ c $b (by decide)).trans ?_; rd3 $b))
set_option hygiene false in
macro "keep6 " b:term : tactic => `(tactic| (refine (W6_of_ne m ρ c $b (by decide)).trans ?_; rd5 $b))
set_option hygiene false in
macro "keep10 " b:term : tactic => `(tactic| (refine (W10_of_ne m ρ c $b (by decide)).trans ?_; rd9 $b))
set_option hygiene false in
macro "keep12 " b:term : tactic => `(tactic| (refine (W12_of_ne m ρ c $b (by decide)).trans ?_; rd11 $b))

/-! ## Step 0: the edge update (region 0) -/

theorem e3_x : V3 m ρ c main_arg1 = (argsOf m c).edges := by rd3 main_arg1 <;> rfl
/-- The gathered sender rows: written by the first stretch (the kernel's filling gather of the nodes by the
    senders), untouched by the next two. -/
theorem e3_s : V3 m ρ c main_v0 = Take.take (argsOf m c).nodes (argsOf m c).snd := by
  show StableHlo.after hostOps0_2 (StableHlo.after hostOps0_1 (StableHlo.after hostOps0 (W0 m ρ c))) (Proc.devRef .tc main_v0) = _
  have h : StableHlo.after hostOps0 (W0 m ρ c) (Proc.devRef .tc main_v0) = Take.take (argsOf m c).nodes (argsOf m c).snd :=
    Take.hostOps0_take (W0 m ρ c)
  generalize StableHlo.after hostOps0 (W0 m ρ c) = W' at h ⊢
  simp only [hostOps0_1, hostOps0_2]
  after_results_simp
  exact h
/-- The gathered receiver rows: written by the second stretch from the nodes and receivers the first left alone. -/
theorem e3_r : V3 m ρ c main_v1 = Take.take (argsOf m c).nodes (argsOf m c).rcv := by
  show StableHlo.after hostOps0_2 (StableHlo.after hostOps0_1 (StableHlo.after hostOps0 (W0 m ρ c))) (Proc.devRef .tc main_v1) = _
  have h := Take.hostOps0_1_take (StableHlo.after hostOps0 (W0 m ρ c))
  have a0 : StableHlo.after hostOps0 (W0 m ρ c) (Proc.devRef .tc main_arg0) = (argsOf m c).nodes := by
    simp only [hostOps0]; after_results_simp <;> rfl
  have a11 : StableHlo.after hostOps0 (W0 m ρ c) (Proc.devRef .tc main_arg11) = (argsOf m c).rcv := by
    simp only [hostOps0]; after_results_simp <;> rfl
  rw [a0, a11] at h
  generalize StableHlo.after hostOps0_1 (StableHlo.after hostOps0 (W0 m ρ c)) = W' at h ⊢
  simp only [hostOps0_2]
  after_results_simp
  exact h
theorem e3_wa : V3 m ρ c main_v10 = Spec.chunkA (Spec.w1At0 (argsOf m c).eW1) := by rd3 main_v10 <;> rfl
theorem e3_wb : V3 m ρ c main_v11 = Spec.chunkB (Spec.w1At0 (argsOf m c).eW1) := by rd3 main_v11 <;> rfl
theorem e3_wc : V3 m ρ c main_v12 = Spec.chunkC (Spec.w1At0 (argsOf m c).eW1) := by rd3 main_v12 <;> rfl
theorem e3_b1 : V3 m ρ c main_v13 = Spec.biasRow (Spec.bAt0 (argsOf m c).eb1) := by rd3 main_v13 <;> rfl
theorem e3_w2 : V3 m ρ c main_v7 = Spec.w2At0 (argsOf m c).eW2 := by rd3 main_v7 <;> rfl
theorem e3_b2 : V3 m ρ c main_v14 = Spec.biasRow (Spec.bAt0 (argsOf m c).eb2) := by rd3 main_v14 <;> rfl

section
variable (hS : Spec.InRange (argsOf m c).snd) (hR : Spec.InRange (argsOf m c).rcv)
include hS hR

/-- After region 0 its first output holds step 0's message. -/
theorem x4_msg : W4 m ρ c (Proc.devRef .tc main_v15_0) = Spec.msg0 (argsOf m c) := by
  refine (W4_arr m ρ c 9).trans ?_
  rw [Region0.msg (V3 m ρ) c, e3_x, e3_s, e3_r, e3_wa, e3_wb, e3_wc, e3_b1, e3_w2, e3_b2, Take.take_eq _ _ hS, Take.take_eq _ _ hR]
  rfl
/-- And its second output the edges after step 0. -/
theorem x4_e1 : W4 m ρ c (Proc.devRef .tc main_v15_1) = Spec.edges1 (argsOf m c) := by
  refine (W4_arr m ρ c 10).trans ?_
  rw [Region0.res (V3 m ρ) c, e3_x, e3_s, e3_r, e3_wa, e3_wb, e3_wc, e3_b1, e3_w2, e3_b2, Take.take_eq _ _ hS, Take.take_eq _ _ hR]
  rfl
end

/-! No stretch before region 0 and not region 0 writes an argument. -/
theorem x4_arg0 : W4 m ρ c (Proc.devRef .tc main_arg0) = (argsOf m c).nodes := by keep4 main_arg0 <;> rfl
theorem x4_arg2 : W4 m ρ c (Proc.devRef .tc main_arg2) = (argsOf m c).eW1 := by keep4 main_arg2 <;> rfl
theorem x4_arg3 : W4 m ρ c (Proc.devRef .tc main_arg3) = (argsOf m c).eb1 := by keep4 main_arg3 <;> rfl
theorem x4_arg4 : W4 m ρ c (Proc.devRef .tc main_arg4) = (argsOf m c).eW2 := by keep4 main_arg4 <;> rfl
theorem x4_arg5 : W4 m ρ c (Proc.devRef .tc main_arg5) = (argsOf m c).eb2 := by keep4 main_arg5 <;> rfl
theorem x4_arg6 : W4 m ρ c (Proc.devRef .tc main_arg6) = (argsOf m c).nW1 := by keep4 main_arg6 <;> rfl
theorem x4_arg7 : W4 m ρ c (Proc.devRef .tc main_arg7) = (argsOf m c).nb1 := by keep4 main_arg7 <;> rfl
theorem x4_arg8 : W4 m ρ c (Proc.devRef .tc main_arg8) = (argsOf m c).nW2 := by keep4 main_arg8 <;> rfl
theorem x4_arg9 : W4 m ρ c (Proc.devRef .tc main_arg9) = (argsOf m c).nb2 := by keep4 main_arg9 <;> rfl
theorem x4_arg10 : W4 m ρ c (Proc.devRef .tc main_arg10) = (argsOf m c).snd := by keep4 main_arg10 <;> rfl
theorem x4_arg11 : W4 m ρ c (Proc.devRef .tc main_arg11) = (argsOf m c).rcv := by keep4 main_arg11 <;> rfl

/-! ## Step 0: the node update (region 1) -/

theorem e5_x : V5 m ρ c main_arg0 = (argsOf m c).nodes := by rd5 main_arg0; exact x4_arg0 m ρ c
theorem e5_wa : V5 m ρ c main_v30 = Spec.chunkA (Spec.w1At0 (argsOf m c).nW1) := by rd5 main_v30; rw [x4_arg6]; rfl
theorem e5_wb : V5 m ρ c main_v31 = Spec.chunkB (Spec.w1At0 (argsOf m c).nW1) := by rd5 main_v31; rw [x4_arg6]; rfl
theorem e5_wc : V5 m ρ c main_v32 = Spec.chunkC (Spec.w1At0 (argsOf m c).nW1) := by rd5 main_v32; rw [x4_arg6]; rfl
theorem e5_b1 : V5 m ρ c main_v33 = Spec.biasRow (Spec.bAt0 (argsOf m c).nb1) := by rd5 main_v33; rw [x4_arg7]; rfl
theorem e5_w2 : V5 m ρ c main_v27 = Spec.w2At0 (argsOf m c).nW2 := by rd5 main_v27; rw [x4_arg8]; rfl
theorem e5_b2 : V5 m ρ c main_v34 = Spec.biasRow (Spec.bAt0 (argsOf m c).nb2) := by rd5 main_v34; rw [x4_arg9]; rfl

section
variable (hS : Spec.InRange (argsOf m c).snd) (hR : Spec.InRange (argsOf m c).rcv)
include hS hR

theorem e5_s : V5 m ρ c main_v18 = Spec.sent0 (argsOf m c) := by rd5 main_v18; rw [x4_arg10, x4_msg m ρ c hS hR]; rfl
theorem e5_r : V5 m ρ c main_v21 = Spec.recv0 (argsOf m c) := by rd5 main_v21; rw [x4_arg11, x4_msg m ρ c hS hR]; rfl

/-- After region 1 its second output holds the nodes after step 0. -/
theorem x6_n1 : W6 m ρ c (Proc.devRef .tc main_v35_1) = Spec.nodes1 (argsOf m c) := by
  refine (W6_arr m ρ c 10).trans ?_
  rw [Region1.res (V5 m ρ) c, e5_x, e5_s m ρ c hS hR, e5_r m ρ c hS hR, e5_wa, e5_wb, e5_wc, e5_b1, e5_w2, e5_b2]
  rfl
/-- The edges after step 0 pass the stretch and region 1 untouched. -/
theorem x6_e1 : W6 m ρ c (Proc.devRef .tc main_v15_1) = Spec.edges1 (argsOf m c) := by
  keep6 main_v15_1; exact x4_e1 m ρ c hS hR
end

theorem x6_arg2 : W6 m ρ c (Proc.devRef .tc main_arg2) = (argsOf m c).eW1 := by keep6 main_arg2; exact x4_arg2 m ρ c
theorem x6_arg3 : W6 m ρ c (Proc.devRef .tc main_arg3) = (argsOf m c).eb1 := by keep6 main_arg3; exact x4_arg3 m ρ c
theorem x6_arg4 : W6 m ρ c (Proc.devRef .tc main_arg4) = (argsOf m c).eW2 := by keep6 main_arg4; exact x4_arg4 m ρ c
theorem x6_arg5 : W6 m ρ c (Proc.devRef .tc main_arg5) = (argsOf m c).eb2 := by keep6 main_arg5; exact x4_arg5 m ρ c
theorem x6_arg6 : W6 m ρ c (Proc.devRef .tc main_arg6) = (argsOf m c).nW1 := by keep6 main_arg6; exact x4_arg6 m ρ c
theorem x6_arg7 : W6 m ρ c (Proc.devRef .tc main_arg7) = (argsOf m c).nb1 := by keep6 main_arg7; exact x4_arg7 m ρ c
theorem x6_arg8 : W6 m ρ c (Proc.devRef .tc main_arg8) = (argsOf m c).nW2 := by keep6 main_arg8; exact x4_arg8 m ρ c
theorem x6_arg9 : W6 m ρ c (Proc.devRef .tc main_arg9) = (argsOf m c).nb2 := by keep6 main_arg9; exact x4_arg9 m ρ c
theorem x6_arg10 : W6 m ρ c (Proc.devRef .tc main_arg10) = (argsOf m c).snd := by keep6 main_arg10; exact x4_arg10 m ρ c
theorem x6_arg11 : W6 m ρ c (Proc.devRef .tc main_arg11) = (argsOf m c).rcv := by keep6 main_arg11; exact x4_arg11 m ρ c

/-! ## Step 1: the edge update (region 2) -/

theorem e9_wa : V9 m ρ c main_v46 = Spec.chunkA (Spec.w1At1 (argsOf m c).eW1) := by rd9 main_v46; rw [x6_arg2]; rfl
theorem e9_wb : V9 m ρ c main_v47 = Spec.chunkB (Spec.w1At1 (argsOf m c).eW1) := by rd9 main_v47; rw [x6_arg2]; rfl
theorem e9_wc : V9 m ρ c main_v48 = Spec.chunkC (Spec.w1At1 (argsOf m c).eW1) := by rd9 main_v48; rw [x6_arg2]; rfl
theorem e9_b1 : V9 m ρ c main_v49 = Spec.biasRow (Spec.bAt1 (argsOf m c).eb1) := by rd9 main_v49; rw [x6_arg3]; rfl
theorem e9_w2 : V9 m ρ c main_v43 = Spec.w2At1 (argsOf m c).eW2 := by rd9 main_v43; rw [x6_arg4]; rfl
theorem e9_b2 : V9 m ρ c main_v50 = Spec.biasRow (Spec.bAt1 (argsOf m c).eb2) := by rd9 main_v50; rw [x6_arg5]; rfl

section
variable (hS : Spec.InRange (argsOf m c).snd) (hR : Spec.InRange (argsOf m c).rcv)
include hS hR

theorem e9_x : V9 m ρ c main_v15_1 = Spec.edges1 (argsOf m c) := by rd9 main_v15_1; exact x6_e1 m ρ c hS hR
theorem e9_s : V9 m ρ c main_v36 = Take.take (Spec.nodes1 (argsOf m c)) (argsOf m c).snd := by
  show StableHlo.after hostOps2_2 (StableHlo.after hostOps2_1 (StableHlo.after hostOps2 (W6 m ρ c))) (Proc.devRef .tc main_v36) = _
  have h := Take.hostOps2_take (W6 m ρ c)
  rw [x6_n1 m ρ c hS hR, x6_arg10] at h
  generalize StableHlo.after hostOps2 (W6 m ρ c) = W' at h ⊢
  simp only [hostOps2_1, hostOps2_2]
  after_results_simp
  exact h
theorem e9_r : V9 m ρ c main_v37 = Take.take (Spec.nodes1 (argsOf m c)) (argsOf m c).rcv := by
  show StableHlo.after hostOps2_2 (StableHlo.after hostOps2_1 (StableHlo.after hostOps2 (W6 m ρ c))) (Proc.devRef .tc main_v37) = _
  have h := Take.hostOps2_1_take (StableHlo.after hostOps2 (W6 m ρ c))
  have a0 : StableHlo.after hostOps2 (W6 m ρ c) (Proc.devRef .tc main_v35_1) = Spec.nodes1 (argsOf m c) := by
    simp only [hostOps2]; after_results_simp; exact x6_n1 m ρ c hS hR
  have a11 : StableHlo.after hostOps2 (W6 m ρ c) (Proc.devRef .tc main_arg11) = (argsOf m c).rcv := by
    simp only [hostOps2]; after_results_simp; exact x6_arg11 m ρ c
  rw [a0, a11] at h
  generalize StableHlo.after hostOps2_1 (StableHlo.after hostOps2 (W6 m ρ c)) = W' at h ⊢
  simp only [hostOps2_2]
  after_results_simp
  exact h

/-- After region 2 its first output holds step 1's message ... -/
theorem x10_msg : W10 m ρ c (Proc.devRef .tc main_v51_0) = Spec.msg1 (argsOf m c) := by
  refine (W10_arr m ρ c 9).trans ?_
  rw [Region2.msg (V9 m ρ) c, e9_x m ρ c hS hR, e9_s m ρ c hS hR, e9_r m ρ c hS hR, e9_wa, e9_wb, e9_wc, e9_b1, e9_w2, e9_b2,
    Take.take_eq _ _ hS, Take.take_eq _ _ hR]
  rfl
/-- ... and its second the edges after step 1. -/
theorem x10_e2 : W10 m ρ c (Proc.devRef .tc main_v51_1) = Spec.edges2 (argsOf m c) := by
  refine (W10_arr m ρ c 10).trans ?_
  rw [Region2.res (V9 m ρ) c, e9_x m ρ c hS hR, e9_s m ρ c hS hR, e9_r m ρ c hS hR, e9_wa, e9_wb, e9_wc, e9_b1, e9_w2, e9_b2,
    Take.take_eq _ _ hS, Take.take_eq _ _ hR]
  rfl
/-- The nodes after step 0 pass the stretches and region 2 untouched. -/
theorem x10_n1 : W10 m ρ c (Proc.devRef .tc main_v35_1) = Spec.nodes1 (argsOf m c) := by
  keep10 main_v35_1; exact x6_n1 m ρ c hS hR
end

theorem x10_arg6 : W10 m ρ c (Proc.devRef .tc main_arg6) = (argsOf m c).nW1 := by keep10 main_arg6; exact x6_arg6 m ρ c
theorem x10_arg7 : W10 m ρ c (Proc.devRef .tc main_arg7) = (argsOf m c).nb1 := by keep10 main_arg7; exact x6_arg7 m ρ c
theorem x10_arg8 : W10 m ρ c (Proc.devRef .tc main_arg8) = (argsOf m c).nW2 := by keep10 main_arg8; exact x6_arg8 m ρ c
theorem x10_arg9 : W10 m ρ c (Proc.devRef .tc main_arg9) = (argsOf m c).nb2 := by keep10 main_arg9; exact x6_arg9 m ρ c
theorem x10_arg10 : W10 m ρ c (Proc.devRef .tc main_arg10) = (argsOf m c).snd := by keep10 main_arg10; exact x6_arg10 m ρ c
theorem x10_arg11 : W10 m ρ c (Proc.devRef .tc main_arg11) = (argsOf m c).rcv := by keep10 main_arg11; exact x6_arg11 m ρ c

/-! ## Step 1: the node update (region 3) -/

theorem e11_wa : V11 m ρ c main_v66 = Spec.chunkA (Spec.w1At1 (argsOf m c).nW1) := by rd11 main_v66; rw [x10_arg6]; rfl
theorem e11_wb : V11 m ρ c main_v67 = Spec.chunkB (Spec.w1At1 (argsOf m c).nW1) := by rd11 main_v67; rw [x10_arg6]; rfl
theorem e11_wc : V11 m ρ c main_v68 = Spec.chunkC (Spec.w1At1 (argsOf m c).nW1) := by rd11 main_v68; rw [x10_arg6]; rfl
theorem e11_b1 : V11 m ρ c main_v69 = Spec.biasRow (Spec.bAt1 (argsOf m c).nb1) := by rd11 main_v69; rw [x10_arg7]; rfl
theorem e11_w2 : V11 m ρ c main_v63 = Spec.w2At1 (argsOf m c).nW2 := by rd11 main_v63; rw [x10_arg8]; rfl
theorem e11_b2 : V11 m ρ c main_v70 = Spec.biasRow (Spec.bAt1 (argsOf m c).nb2) := by rd11 main_v70; rw [x10_arg9]; rfl

section
variable (hS : Spec.InRange (argsOf m c).snd) (hR : Spec.InRange (argsOf m c).rcv)
include hS hR

theorem e11_x : V11 m ρ c main_v35_1 = Spec.nodes1 (argsOf m c) := by rd11 main_v35_1; exact x10_n1 m ρ c hS hR
theorem e11_s : V11 m ρ c main_v54 = Spec.sent1 (argsOf m c) := by rd11 main_v54; rw [x10_arg10, x10_msg m ρ c hS hR]; rfl
theorem e11_r : V11 m ρ c main_v57 = Spec.recv1 (argsOf m c) := by rd11 main_v57; rw [x10_arg11, x10_msg m ρ c hS hR]; rfl

/-- THE RESULTS.  At the last boundary the fourth region's second output holds the nodes after step 1 ... -/
theorem nodes2_eq : W12 m ρ c (Proc.devRef .tc main_v71_1) = Spec.nodes2 (argsOf m c) := by
  refine (W12_arr m ρ c 10).trans ?_
  rw [Region3.res (V11 m ρ) c, e11_x m ρ c hS hR, e11_s m ρ c hS hR, e11_r m ρ c hS hR, e11_wa, e11_wb, e11_wc, e11_b1, e11_w2, e11_b2]
  rfl
/-- ... and the third region's second output, untouched since, the edges after step 1. -/
theorem edges2_eq : W12 m ρ c (Proc.devRef .tc main_v51_1) = Spec.edges2 (argsOf m c) := by
  keep12 main_v51_1; exact x10_e2 m ρ c hS hR
end

end Cert.KernelIdeal.Fold

end
-- ==== Proof.PreDecode.lean ====
/-
  What the precondition says about the two index arrays.

  The precondition is a conjunction of twelve tests, folded left to right: ten say that an argument array holds only
  finite numbers, and the last two say, of the sender indices and then of the receiver indices, that every entry s
  satisfies s ≥ -50000 and s < 50000 as a signed 32-bit word.  Each of these two is itself "all entries pass": a
  conjunction, over the whole array, of the entrywise conjunction of the two comparisons.  A conjunction that comes
  out true has every conjunct true, so from the precondition each entry of either index array passes both
  comparisons; read as integers, the constants are -50000 and 50000, and that is the range the gathers need.
-/
import proofs.«403012_j35450660061796_1_alg».proof.Defs
import proofs.«403012_j35450660061796_1_alg».proof.Proof.Spec
import Idealize.ShloMosaic.Lib.ReduceAll
import Idealize.ShloMosaic.Lib.ValueIdx

noncomputable section

namespace Cert.KernelIdeal.PreDecode

open Idealize.ShloMosaic Idealize.ShloMosaic.ValueIdx

/-- The two constants of the range test, read as signed integers. -/
theorem toInt_lo : (4294917296#32 : BitVec 32).toInt = -50000 := by decide
theorem toInt_hi : (50000#32 : BitVec 32).toInt = 50000 := by decide

/-- An entry that passes "s ≥ -50000" and "s < 50000" lies in the range. -/
theorem entry_range (s : BitVec 32) (hge : IntOp.cmpi .sge s 4294917296#32 = 1#1) (hlt : IntOp.cmpi .slt s 50000#32 = 1#1) :
    -50000 ≤ s.toInt ∧ s.toInt < 50000 := by
  have a := IntOp.cmpi_sge.1 hge
  have b := IntOp.cmpi_slt.1 hlt
  rw [toInt_lo] at a
  rw [toInt_hi] at b
  exact ⟨a, b⟩

/-- The scalar result has one index. -/
local instance : Subsingleton Cert.Pre_finite_inputs.S_.Idx := ⟨fun a b => funext fun d => d.elim0⟩

section
variable [Cert.Pre_finite_inputs.Facts]

/-- The last stretch of the precondition, which finishes the senders' test and makes the receivers': if it comes out
    true then every sender entry passed the first comparison (made before this stretch) and passes the second, and
    every receiver entry passes both. -/
theorem part3_decode (a10 a11 : IVec Cert.Pre_finite_inputs.S400000 32) (v48 : IVec Cert.Pre_finite_inputs.S_ 1)
    (v50 : IVec Cert.Pre_finite_inputs.S400000 1)
    (e : Cert.Pre_finite_inputs.fn_part3 (F := Ideal) a10 a11 v48 v50 ix0 = 1#1) :
    (∀ k, v50 k = 1#1 ∧ (a10 k).toInt < 50000) ∧ (∀ k, -50000 ≤ (a11 k).toInt ∧ (a11 k).toInt < 50000) := by
  unfold Cert.Pre_finite_inputs.fn_part3 at e
  obtain ⟨e1, e2⟩ := IntOp.andi_eq_one.1 (show IntOp.andi _ _ = 1#1 from e)
  obtain ⟨-, e4⟩ := IntOp.andi_eq_one.1 (show IntOp.andi _ _ = 1#1 from e1)
  refine ⟨fun k => ?_, fun k => ?_⟩
  · have t := Host.reduce_andi_all _ _ _ _ _ e4 k
    obtain ⟨p, q⟩ := IntOp.andi_eq_one.1 (show IntOp.andi _ _ = 1#1 from t)
    have b := IntOp.cmpi_slt.1 (show IntOp.cmpi .slt (a10 k) 50000#32 = 1#1 from q)
    rw [toInt_hi] at b
    exact ⟨p, b⟩
  · have t := Host.reduce_andi_all _ _ _ _ _ e2 k
    obtain ⟨p, q⟩ := IntOp.andi_eq_one.1 (show IntOp.andi _ _ = 1#1 from t)
    exact entry_range (a11 k) p q

/-- The precondition gives both index arrays in range, on every device. -/
theorem inRange_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    Spec.InRange (m ((c.tc : Thread Cert.KernelIdeal.nD Cert.KernelIdeal.τ).loc Cert.KernelIdeal.main_arg10))
      ∧ Spec.InRange (m ((c.tc : Thread Cert.KernelIdeal.nD Cert.KernelIdeal.τ).loc Cert.KernelIdeal.main_arg11)) := by
  have e := congrFun (h c) ix0
  obtain ⟨d10, d11⟩ := part3_decode _ _ _ _ e
  refine ⟨fun k => ?_, fun k => d11 k⟩
  obtain ⟨p, q⟩ := d10 k
  exact ⟨(entry_range _ p (by rw [IntOp.cmpi_slt, toInt_hi]; exact q)).1, q⟩

end

end Cert.KernelIdeal.PreDecode

end
-- ==== Proof.RefEdge.lean ====
/-
  The reference's edge perceptron is the shared two-layer perceptron.

  The reference joins the three operand rows [X | A | B] into one row of width 384 and multiplies it by the whole
  first-layer weight (384 rows); the shared mathematics multiplies each operand by its own 128-row chunk of that
  weight and adds the three products.  A sum over 384 columns is the sum of its three thirds, and on each third the
  joined row reads one operand and the weight one chunk, so the two agree entry by entry; extended-real addition is
  commutative and associative, so the regrouping asks no finiteness.  The biases (a vector made a row and copied down
  all rows, against a one-row matrix) and the rectifier (a maximum with an array of zeros, against a maximum with 0)
  agree by reading them at an index.
-/
import proofs.«403012_j35450660061796_1_alg».proof.Proof.ReadP
import proofs.«403012_j35450660061796_1_alg».proof.Proof.Spec
import Idealize.ShloMosaic.Lib.Pipeline.Value
import Idealize.ShloMosaic.Lib.ValueIdx
import Idealize.ShloMosaic.Lib.StackMember
import Idealize.ShloMosaic.PureOps.Ideal.Laws
import Mathlib.Algebra.BigOperators.Fin

noncomputable section

namespace Cert.ReferenceIdeal.RefEdge

open Cert.ReferenceIdeal Cert.ReferenceIdeal.Facts₀ Idealize.ShloMosaic Idealize.ShloMosaic.ValueIdx

variable [Cert.KernelIdeal.Facts₀]

/-! ## A sum over 384 indices is the sum of its three thirds -/

/-- The three embeddings of a 128-range into the 384-range: the first, the middle and the last third. -/
abbrev inA (l : Fin 128) : Fin 384 := ⟨l.val, by have := l.isLt; omega⟩
abbrev inB (l : Fin 128) : Fin 384 := ⟨128 + l.val, by have := l.isLt; omega⟩
abbrev inC (l : Fin 128) : Fin 384 := ⟨256 + l.val, by have := l.isLt; omega⟩

/-- A finite sum over 384 indices, grouped as (first third + middle third) + last third.  Addition of extended reals
    is commutative and associative, so no finiteness is asked. -/
theorem sum_thirds (f : Fin 384 → EReal) :
    ∑ c : Fin 384, f c = ((∑ l : Fin 128, f (inA l)) + ∑ l : Fin 128, f (inB l)) + ∑ l : Fin 128, f (inC l) := by
  have e : ∀ g : Fin (128 + 128 + 128) → EReal,
      ∑ c, g c = ((∑ l : Fin 128, g (Fin.castAdd 128 (Fin.castAdd 128 l))) + ∑ l : Fin 128, g (Fin.castAdd 128 (Fin.natAdd 128 l)))
        + ∑ l : Fin 128, g (Fin.natAdd (128 + 128) l) := by
    intro g
    rw [Fin.sum_univ_add, Fin.sum_univ_add]
  exact e f

/-! ## The concatenated row, read third by third -/

section Cat

variable (X A B : FVec Ideal S400000x128 .f32)

/-- The rows [X | A | B] laid side by side, 384 wide. -/
abbrev cat3 : FVec Ideal S400000x384 .f32 :=
  concatenate S400000x384 1 [⟨S400000x128, X⟩, ⟨S400000x128, A⟩, ⟨S400000x128, B⟩]
    concatenates_S400000x128_S400000x128_S400000x128_S400000x384_d1

/-- On its first third the joined row reads its first operand. -/
theorem cat3_inA (r : Fin 400000) (l : Fin 128) : cat3 X A B (ix2 r (inA l)) = X (ix2 r l) :=
  concatenate_apply_piece (t := S400000x384) 1 [⟨S400000x128, X⟩, ⟨S400000x128, A⟩, ⟨S400000x128, B⟩]
    concatenates_S400000x128_S400000x128_S400000x128_S400000x384_d1 (ix2 r (inA l)) 0 (show (0 : Nat) < 3 by omega) S400000x128 X rfl rfl 0 rfl (ix2 r l)
    (fun b hb => by
      match b with
      | ⟨0, _⟩ => rfl
      | ⟨1, _⟩ => exact absurd rfl hb)
    (Nat.zero_add _)

/-- On its middle third, the second. -/
theorem cat3_inB (r : Fin 400000) (l : Fin 128) : cat3 X A B (ix2 r (inB l)) = A (ix2 r l) :=
  concatenate_apply_piece (t := S400000x384) 1 [⟨S400000x128, X⟩, ⟨S400000x128, A⟩, ⟨S400000x128, B⟩]
    concatenates_S400000x128_S400000x128_S400000x128_S400000x384_d1 (ix2 r (inB l)) 1 (show (1 : Nat) < 3 by omega) S400000x128 A rfl rfl 128 rfl (ix2 r l)
    (fun b hb => by
      match b with
      | ⟨0, _⟩ => rfl
      | ⟨1, _⟩ => exact absurd rfl hb)
    rfl

/-- On its last third, the third. -/
theorem cat3_inC (r : Fin 400000) (l : Fin 128) : cat3 X A B (ix2 r (inC l)) = B (ix2 r l) :=
  concatenate_apply_piece (t := S400000x384) 1 [⟨S400000x128, X⟩, ⟨S400000x128, A⟩, ⟨S400000x128, B⟩]
    concatenates_S400000x128_S400000x128_S400000x128_S400000x384_d1 (ix2 r (inC l)) 2 (show (2 : Nat) < 3 by omega) S400000x128 B rfl rfl 256 rfl (ix2 r l)
    (fun b hb => by
      match b with
      | ⟨0, _⟩ => rfl
      | ⟨1, _⟩ => exact absurd rfl hb)
    rfl

end Cat

/-! ## The weight's three row-chunks, the biases, the rectifier's zero, the two products: each read at an index -/

theorem chunkA_apply (W1 : FVec Ideal S384x128 .f32) (l k : Fin 128) :
    Cert.Spec.chunkA W1 (ix2 l k) = W1 (ix2 (inA l) k) := by
  unfold Cert.Spec.chunkA
  exact extractStridedSlice_apply _ W1 _ (ix2 l k) (ix2 (inA l) k) (fun a => by
    match a with
    | ⟨0, _⟩ => exact (Nat.zero_add _).symm
    | ⟨1, _⟩ => exact (Nat.zero_add _).symm)

theorem chunkB_apply (W1 : FVec Ideal S384x128 .f32) (l k : Fin 128) :
    Cert.Spec.chunkB W1 (ix2 l k) = W1 (ix2 (inB l) k) := by
  unfold Cert.Spec.chunkB
  exact extractStridedSlice_apply _ W1 _ (ix2 l k) (ix2 (inB l) k) (fun a => by
    match a with
    | ⟨0, _⟩ => rfl
    | ⟨1, _⟩ => exact (Nat.zero_add _).symm)

theorem chunkC_apply (W1 : FVec Ideal S384x128 .f32) (l k : Fin 128) :
    Cert.Spec.chunkC W1 (ix2 l k) = W1 (ix2 (inC l) k) := by
  unfold Cert.Spec.chunkC
  exact extractStridedSlice_apply _ W1 _ (ix2 l k) (ix2 (inC l) k) (fun a => by
    match a with
    | ⟨0, _⟩ => rfl
    | ⟨1, _⟩ => exact (Nat.zero_add _).symm)

/-- A bias as a one-row matrix reads the bias at the column. -/
theorem biasRow_apply (b : FVec Ideal S128 .f32) (k : Fin 128) :
    Cert.Spec.biasRow b (ix2 (0 : Fin 1) k) = b (ix1 k) := by
  unfold Cert.Spec.biasRow
  exact shapeCast_apply b _ (ix2 (0 : Fin 1) k) (ix1 k)
    (by rewrite [Shape.rowMajor_val_two, Shape.rowMajor_val_one]; show k.val = 0 * 128 + k.val; omega)

/-- A bias made a row and copied down all rows reads the bias at the column. -/
theorem biasBcast_apply (b : FVec Ideal S128 .f32) (r : Fin 400000) (k : Fin 128) :
    broadcastInDim S400000x128 ![0, 1] bcast_S1x128_S400000x128_0_1 (broadcastInDim S1x128 ![1] bcast_S128_S1x128_1 b) (ix2 r k)
      = b (ix1 k) := by
  rw [broadcastInDim_apply _ bcast_S1x128_S400000x128_0_1 _ (ix2 r k) (ix2 (0 : Fin 1) k) (fun a => by
    match a with
    | ⟨0, _⟩ => show 0 = if (1 : Nat) = 1 then 0 else r.val; rw [if_pos rfl]
    | ⟨1, _⟩ => show k.val = if (128 : Nat) = 1 then 0 else k.val; rw [if_neg (by decide)])]
  exact broadcastInDim_apply _ bcast_S128_S1x128_1 b (ix2 (0 : Fin 1) k) (ix1 k) (fun a => by
    match a with
    | ⟨0, _⟩ => show k.val = if (128 : Nat) = 1 then 0 else k.val; rw [if_neg (by decide)])

/-- The rectifier's second operand is zero everywhere. -/
theorem zeros_apply (i : S400000x128.Idx) :
    broadcastInDim S400000x128 ![] bcast_S_S400000x128 (constant (F := Ideal) S_ .f32 0x00000000#32) i = (0 : EReal) := by
  rw [broadcastInDim_apply _ bcast_S_S400000x128 _ i ix0 (fun a => a.elim0)]
  exact Ideal.ofBits_zero_f32

/-- The first product at an entry: the sum over the 384 columns of the left row against the weight's column. -/
theorem dot1_apply (Y : FVec Ideal S400000x384 .f32) (W : FVec Ideal S384x128 .f32) (r : Fin 400000) (k : Fin 128) :
    Host.dotGeneral dot_S400000x384_S384x128_S400000x128_1_0_0_1_n_n none Y W (ix2 r k)
      = ∑ c : Fin 384, Y (ix2 r c) * W (ix2 c k) :=
  StackMember.dotGeneral_plain_apply none Y W r k

/-- The second product at an entry. -/
theorem dot2_apply (Y : FVec Ideal S400000x128 .f32) (W : FVec Ideal S128x128 .f32) (r : Fin 400000) (j : Fin 128) :
    Host.dotGeneral dot_S400000x128_S128x128_S400000x128_1_0_0_1_n_n none Y W (ix2 r j)
      = ∑ k : Fin 128, Y (ix2 r k) * W (ix2 k j) :=
  StackMember.dotGeneral_plain_apply none Y W r j

/-! ## The reference's perceptron, as it prints, is the shared one -/

section Chain

variable (X A B : FVec Ideal S400000x128 .f32) (W1 : FVec Ideal S384x128 .f32) (b1 : FVec Ideal S128 .f32)
  (W2 : FVec Ideal S128x128 .f32) (b2 : FVec Ideal S128 .f32)

/-- The printed first layer: the joined rows times the whole weight, plus the bias copied down the rows, rectified. -/
def refHidden : FVec Ideal S400000x128 .f32 :=
  maximumf
    (addf (Host.dotGeneral dot_S400000x384_S384x128_S400000x128_1_0_0_1_n_n none (cat3 X A B) W1)
      (broadcastInDim S400000x128 ![0, 1] bcast_S1x128_S400000x128_0_1 (broadcastInDim S1x128 ![1] bcast_S128_S1x128_1 b1)))
    (broadcastInDim S400000x128 ![] bcast_S_S400000x128 (constant S_ .f32 0x00000000#32))

/-- The printed perceptron: the first layer times the second weight, plus its bias, rectified. -/
def refMlp : FVec Ideal S400000x128 .f32 :=
  maximumf
    (addf (Host.dotGeneral dot_S400000x128_S128x128_S400000x128_1_0_0_1_n_n none (refHidden X A B W1 b1) W2)
      (broadcastInDim S400000x128 ![0, 1] bcast_S1x128_S400000x128_0_1 (broadcastInDim S1x128 ![1] bcast_S128_S1x128_1 b2)))
    (broadcastInDim S400000x128 ![] bcast_S_S400000x128 (constant S_ .f32 0x00000000#32))

/-- The first layer at row r, unit k.  The product of the joined row with the whole weight is the sum over 384 columns;
    split in thirds, each third reads one operand against one row-chunk of the weight. -/
theorem refHidden_apply (r : Fin 400000) (k : Fin 128) :
    refHidden X A B W1 b1 (ix2 r k)
      = Cert.Spec.hidden X A B (Cert.Spec.chunkA W1) (Cert.Spec.chunkB W1) (Cert.Spec.chunkC W1) (Cert.Spec.biasRow b1) r k := by
  unfold refHidden Cert.Spec.hidden
  rw [maximumf_apply, addf_apply, dot1_apply, biasBcast_apply, zeros_apply, sum_thirds]
  simp only [cat3_inA, cat3_inB, cat3_inC, chunkA_apply, chunkB_apply, chunkC_apply, biasRow_apply]

/-- The printed perceptron is the shared one of the same operands, the weight cut in its three row-chunks. -/
theorem refMlp_eq :
    refMlp X A B W1 b1 W2 b2
      = Cert.Spec.mlpOut (M := 400000) X A B (Cert.Spec.chunkA W1) (Cert.Spec.chunkB W1) (Cert.Spec.chunkC W1)
          (Cert.Spec.biasRow b1) W2 (Cert.Spec.biasRow b2) := by
  funext i
  obtain ⟨r, j, rfl⟩ : ∃ (r : Fin 400000) (j : Fin 128), i = ix2 r j := ⟨i 0, i 1, eq_ix2 i⟩
  unfold refMlp
  rw [maximumf_apply, addf_apply, dot2_apply, biasBcast_apply, zeros_apply]
  show _ = max ((∑ k : Fin 128, Cert.Spec.hidden X A B (Cert.Spec.chunkA W1) (Cert.Spec.chunkB W1) (Cert.Spec.chunkC W1)
      (Cert.Spec.biasRow b1) r k * W2 (ix2 k j)) + Cert.Spec.biasRow b2 (ix2 (0 : Fin 1) j)) 0
  rw [biasRow_apply]
  simp only [refHidden_apply]

end Chain

/-! ## The two steps' edge perceptrons -/

/-- Step 0: the message is the shared perceptron of the edge rows and the two gathered node rows. -/
theorem msg0 (x0 : (⟨S50000x128, .f32⟩ : BufTy).Contents (Elt Ideal)) (x1 : (⟨S400000x128, .f32⟩ : BufTy).Contents (Elt Ideal))
    (x2 : (⟨S2x384x128, .f32⟩ : BufTy).Contents (Elt Ideal)) (x3 : (⟨S2x128, .f32⟩ : BufTy).Contents (Elt Ideal))
    (x4 : (⟨S2x128x128, .f32⟩ : BufTy).Contents (Elt Ideal)) (x5 : (⟨S2x128, .f32⟩ : BufTy).Contents (Elt Ideal))
    (x10 x11 : (⟨S400000, .i32⟩ : BufTy).Contents (Elt Ideal)) :
    Read.val_main_v32 (F := Ideal) x0 x1 x2 x3 x4 x5 x10 x11
      = Cert.Spec.mlpOut (M := 400000) x1 (Read.val_main_v6 (F := Ideal) x0 x10) (Read.val_main_v13 (F := Ideal) x0 x11)
          (Cert.Spec.chunkA (Read.val_main_v16 (F := Ideal) x2)) (Cert.Spec.chunkB (Read.val_main_v16 (F := Ideal) x2))
          (Cert.Spec.chunkC (Read.val_main_v16 (F := Ideal) x2))
          (Cert.Spec.biasRow (Read.val_main_v18 (F := Ideal) x3)) (Read.val_main_v20 (F := Ideal) x4)
          (Cert.Spec.biasRow (Read.val_main_v22 (F := Ideal) x5)) := by
  have h : Read.val_main_v32 (F := Ideal) x0 x1 x2 x3 x4 x5 x10 x11
      = refMlp x1 (Read.val_main_v6 (F := Ideal) x0 x10) (Read.val_main_v13 (F := Ideal) x0 x11)
          (Read.val_main_v16 (F := Ideal) x2) (Read.val_main_v18 (F := Ideal) x3) (Read.val_main_v20 (F := Ideal) x4)
          (Read.val_main_v22 (F := Ideal) x5) := by
    unfold Read.val_main_v32 Read.val_main_v31 Read.val_main_v30 Read.val_main_v29 Read.val_main_v28 Read.val_main_v27
      Read.val_main_v26 Read.val_main_v25 Read.val_main_v24 Read.val_main_v23 Read.val_main_v14
      Read.val_main_call0_v0 Read.val_main_call0_cst Read.val_main_call1_v0 Read.val_main_call1_cst refMlp refHidden
    rfl
  rw [h, refMlp_eq]

/-- Step 1: the same of step 0's updated edges and the rows gathered from step 0's updated nodes. -/
theorem msg1 (x0 : (⟨S50000x128, .f32⟩ : BufTy).Contents (Elt Ideal)) (x1 : (⟨S400000x128, .f32⟩ : BufTy).Contents (Elt Ideal))
    (x2 : (⟨S2x384x128, .f32⟩ : BufTy).Contents (Elt Ideal)) (x3 : (⟨S2x128, .f32⟩ : BufTy).Contents (Elt Ideal))
    (x4 : (⟨S2x128x128, .f32⟩ : BufTy).Contents (Elt Ideal)) (x5 : (⟨S2x128, .f32⟩ : BufTy).Contents (Elt Ideal))
    (x6 : (⟨S2x384x128, .f32⟩ : BufTy).Contents (Elt Ideal)) (x7 : (⟨S2x128, .f32⟩ : BufTy).Contents (Elt Ideal))
    (x8 : (⟨S2x128x128, .f32⟩ : BufTy).Contents (Elt Ideal)) (x9 : (⟨S2x128, .f32⟩ : BufTy).Contents (Elt Ideal))
    (x10 x11 : (⟨S400000, .i32⟩ : BufTy).Contents (Elt Ideal)) :
    Read.val_main_v92 (F := Ideal) x0 x1 x2 x3 x4 x5 x6 x7 x8 x9 x10 x11
      = Cert.Spec.mlpOut (M := 400000) (Read.val_main_v59 (F := Ideal) x0 x1 x2 x3 x4 x5 x10 x11)
          (Read.val_main_v66 (F := Ideal) x0 x1 x2 x3 x4 x5 x6 x7 x8 x9 x10 x11)
          (Read.val_main_v73 (F := Ideal) x0 x1 x2 x3 x4 x5 x6 x7 x8 x9 x10 x11)
          (Cert.Spec.chunkA (Read.val_main_v76 (F := Ideal) x2)) (Cert.Spec.chunkB (Read.val_main_v76 (F := Ideal) x2))
          (Cert.Spec.chunkC (Read.val_main_v76 (F := Ideal) x2))
          (Cert.Spec.biasRow (Read.val_main_v78 (F := Ideal) x3)) (Read.val_main_v80 (F := Ideal) x4)
          (Cert.Spec.biasRow (Read.val_main_v82 (F := Ideal) x5)) := by
  have h : Read.val_main_v92 (F := Ideal) x0 x1 x2 x3 x4 x5 x6 x7 x8 x9 x10 x11
      = refMlp (Read.val_main_v59 (F := Ideal) x0 x1 x2 x3 x4 x5 x10 x11)
          (Read.val_main_v66 (F := Ideal) x0 x1 x2 x3 x4 x5 x6 x7 x8 x9 x10 x11)
          (Read.val_main_v73 (F := Ideal) x0 x1 x2 x3 x4 x5 x6 x7 x8 x9 x10 x11)
          (Read.val_main_v76 (F := Ideal) x2) (Read.val_main_v78 (F := Ideal) x3) (Read.val_main_v80 (F := Ideal) x4)
          (Read.val_main_v82 (F := Ideal) x5) := by
    unfold Read.val_main_v92 Read.val_main_v91 Read.val_main_v90 Read.val_main_v89 Read.val_main_v88 Read.val_main_v87
      Read.val_main_v86 Read.val_main_v85 Read.val_main_v84 Read.val_main_v83 Read.val_main_v74
      Read.val_main_call4_v0 Read.val_main_call4_cst Read.val_main_call5_v0 Read.val_main_call5_cst refMlp refHidden
    rfl
  rw [h, refMlp_eq]

end Cert.ReferenceIdeal.RefEdge

end
-- ==== Proof.RefNode.lean ====
/-
  The reference's node perceptron is the shared perceptron.

  Per step the reference updates the nodes by  relu (relu ([X | A | B] · W1 + b1) · W2 + b2)  where [X | A | B] joins the
  node array and the two aggregates along the columns (384 columns) and W1 has 384 rows.  The shared mathematics has
  instead the three partial products of X, A, B against the three 128-row chunks of W1, grouped ((x·Wa + a·Wb) + b·Wc),
  the biases as one-row matrices, and the rectifier as a maximum with 0.

  The two agree: a sum over the 384 joined columns is the sum of its three consecutive thirds (a finite sum in a
  commutative monoid may be regrouped; the extended reals' addition is one, so no finiteness is used); on each third
  the joined array reads its own operand and the weight reads its own chunk; a bias spread over the rows reads the
  bias at the column, as does the one-row matrix; the rectifier's zero array is 0 everywhere.

  The composition is proved once over arbitrary operands (`chain`); the reference's two steps are instances of it.
-/
import proofs.«403012_j35450660061796_1_alg».proof.Proof.ReadP
import proofs.«403012_j35450660061796_1_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import Mathlib.Algebra.BigOperators.Fin

noncomputable section

namespace Cert.ReferenceIdeal.RefNode

open Cert.ReferenceIdeal Cert.ReferenceIdeal.Gen Idealize.ShloMosaic Idealize.ShloMosaic.ValueIdx

variable [Cert.KernelIdeal.Facts₀]

/-- A sum over 384 terms is the sum of its three consecutive thirds (any grouping of a finite sum in a commutative
    monoid; nothing about finiteness of the terms is used). -/
theorem sum_thirds (f : Fin 384 → EReal) :
    ∑ k : Fin 384, f k
      = ((∑ l : Fin 128, f ⟨l.val, by omega⟩) + (∑ l : Fin 128, f ⟨128 + l.val, by omega⟩))
        + (∑ l : Fin 128, f ⟨256 + l.val, by omega⟩) := by
  have h1 : ∑ k : Fin 384, f k
      = (∑ i : Fin 256, f (Fin.castAdd 128 i)) + ∑ i : Fin 128, f (Fin.natAdd 256 i) :=
    Fin.sum_univ_add (a := 256) (b := 128) f
  have h2 : (∑ i : Fin 256, f (Fin.castAdd 128 i))
      = (∑ i : Fin 128, f (Fin.castAdd 128 (Fin.castAdd 128 i)))
        + ∑ i : Fin 128, f (Fin.castAdd 128 (Fin.natAdd 128 i)) :=
    Fin.sum_univ_add (a := 128) (b := 128) (fun i => f (Fin.castAdd 128 i))
  rw [h1, h2]
  rfl

/-- The three row-chunks of the first-layer weight, read at an index: rows 0.., 128.., 256.. of the whole weight. -/
theorem chunkA_apply (W1 : FVec Ideal S384x128 .f32) (l k : Fin 128) :
    Spec.chunkA W1 (ix2 l k) = W1 (ix2 ⟨l.val, by omega⟩ k) := by
  unfold Spec.chunkA
  exact slice2_axis0_apply 0 W1 _ l k ⟨l.val, by omega⟩ (Nat.zero_add _).symm

theorem chunkB_apply (W1 : FVec Ideal S384x128 .f32) (l k : Fin 128) :
    Spec.chunkB W1 (ix2 l k) = W1 (ix2 ⟨128 + l.val, by omega⟩ k) := by
  unfold Spec.chunkB
  exact slice2_axis0_apply 128 W1 _ l k ⟨128 + l.val, by omega⟩ rfl

theorem chunkC_apply (W1 : FVec Ideal S384x128 .f32) (l k : Fin 128) :
    Spec.chunkC W1 (ix2 l k) = W1 (ix2 ⟨256 + l.val, by omega⟩ k) := by
  unfold Spec.chunkC
  exact slice2_axis0_apply 256 W1 _ l k ⟨256 + l.val, by omega⟩ rfl

/-- A bias as a one-row matrix, read at its one row. -/
theorem biasRow_apply (b : FVec Ideal S128 .f32) (k : Fin 128) :
    Spec.biasRow b (ix2 (0 : Fin 1) k) = b (ix1 k) := by
  unfold Spec.biasRow
  exact shapeCast_a_1a_apply b _ 0 k

/-- The concatenation [X | A | B] along the columns, read in each of its three thirds: the column's own operand. -/
theorem cat_apply_X (X A B : FVec Ideal S50000x128 .f32) (r : Fin 50000) (l : Fin 128) :
    concatenate S50000x384 1 [⟨S50000x128, X⟩, ⟨S50000x128, A⟩, ⟨S50000x128, B⟩]
        concatenates_S50000x128_S50000x128_S50000x128_S50000x384_d1 (ix2 r ⟨l.val, by omega⟩) = X (ix2 r l) := by
  refine concatenate_apply_piece (t := S50000x384) 1 [⟨S50000x128, X⟩, ⟨S50000x128, A⟩, ⟨S50000x128, B⟩]
    concatenates_S50000x128_S50000x128_S50000x128_S50000x384_d1 (ix2 r ⟨l.val, by omega⟩) 0 (by simp) S50000x128 X rfl rfl 0 rfl (ix2 r l) (fun b hb => ?_) ?_
  · match b with
    | ⟨0, _⟩ => rfl
    | ⟨1, _⟩ => exact absurd rfl hb
  · exact Nat.zero_add _

theorem cat_apply_A (X A B : FVec Ideal S50000x128 .f32) (r : Fin 50000) (l : Fin 128) :
    concatenate S50000x384 1 [⟨S50000x128, X⟩, ⟨S50000x128, A⟩, ⟨S50000x128, B⟩]
        concatenates_S50000x128_S50000x128_S50000x128_S50000x384_d1 (ix2 r ⟨128 + l.val, by omega⟩) = A (ix2 r l) := by
  refine concatenate_apply_piece (t := S50000x384) 1 [⟨S50000x128, X⟩, ⟨S50000x128, A⟩, ⟨S50000x128, B⟩]
    concatenates_S50000x128_S50000x128_S50000x128_S50000x384_d1 (ix2 r ⟨128 + l.val, by omega⟩) 1 (by simp) S50000x128 A rfl rfl 128 rfl (ix2 r l) (fun b hb => ?_) ?_
  · match b with
    | ⟨0, _⟩ => rfl
    | ⟨1, _⟩ => exact absurd rfl hb
  · rfl

theorem cat_apply_B (X A B : FVec Ideal S50000x128 .f32) (r : Fin 50000) (l : Fin 128) :
    concatenate S50000x384 1 [⟨S50000x128, X⟩, ⟨S50000x128, A⟩, ⟨S50000x128, B⟩]
        concatenates_S50000x128_S50000x128_S50000x128_S50000x384_d1 (ix2 r ⟨256 + l.val, by omega⟩) = B (ix2 r l) := by
  refine concatenate_apply_piece (t := S50000x384) 1 [⟨S50000x128, X⟩, ⟨S50000x128, A⟩, ⟨S50000x128, B⟩]
    concatenates_S50000x128_S50000x128_S50000x128_S50000x384_d1 (ix2 r ⟨256 + l.val, by omega⟩) 2 (by simp) S50000x128 B rfl rfl 256 rfl (ix2 r l) (fun b hb => ?_) ?_
  · match b with
    | ⟨0, _⟩ => rfl
    | ⟨1, _⟩ => exact absurd rfl hb
  · rfl

/-- The two products of the perceptron, read at an index: the sum over the contracted coordinate. -/
theorem dot384_apply (L : FVec Ideal S50000x384 .f32) (R : FVec Ideal S384x128 .f32) (r : Fin 50000) (j : Fin 128) :
    Host.dotGeneral dot_S50000x384_S384x128_S50000x128_1_0_0_1_n_n none L R (ix2 r j)
      = ∑ c : Fin 384, L (ix2 r c) * R (ix2 c j) :=
  StackMember.dotGeneral_plain_apply (m := 50000) (n := 128) (k := 384) none L R r j

theorem dot128_apply (L : FVec Ideal S50000x128 .f32) (R : FVec Ideal S128x128 .f32) (r : Fin 50000) (j : Fin 128) :
    Host.dotGeneral dot_S50000x128_S128x128_S50000x128_1_0_0_1_n_n none L R (ix2 r j)
      = ∑ c : Fin 128, L (ix2 r c) * R (ix2 c j) :=
  StackMember.dotGeneral_plain_apply (m := 50000) (n := 128) (k := 128) none L R r j

/-- A bias spread over the rows (first to one row, then to all), read at an index: the bias at the column. -/
theorem biasBcast_apply (b : FVec Ideal S128 .f32) (r : Fin 50000) (j : Fin 128) :
    broadcastInDim S50000x128 ![0, 1] bcast_S1x128_S50000x128_0_1
        (broadcastInDim S1x128 ![1] bcast_S128_S1x128_1 b) (ix2 r j) = b (ix1 j) := by
  rw [broadcastInDim_apply _ bcast_S1x128_S50000x128_0_1 _ (ix2 r j) (ix2 (0 : Fin 1) j) (fun a => by
        match a with
        | ⟨0, _⟩ => rfl
        | ⟨1, _⟩ => rfl),
    broadcastInDim_apply _ bcast_S128_S1x128_1 b (ix2 (0 : Fin 1) j) (ix1 j) (fun a => by
        match a with
        | ⟨0, _⟩ => rfl)]

/-- The rectifier's zero array is 0 everywhere. -/
theorem zeros_apply (i : S50000x128.Idx) :
    broadcastInDim S50000x128 ![] bcast_S_S50000x128 (constant (F := Ideal) S_ .f32 0x00000000#32) i = 0 := by
  rw [broadcastInDim_apply _ bcast_S_S50000x128 _ i ix0 (fun a => a.elim0), constant_apply, Ideal.ofBits_zero_f32]

/-- The hidden layer: the product of the concatenated row with the whole first weight, plus the bias, rectified, is the
    shared mathematics' hidden unit (the three partial products against the weight's three row-chunks). -/
theorem hidden_eq (X A B : FVec Ideal S50000x128 .f32) (W1 : FVec Ideal S384x128 .f32) (b1 : FVec Ideal S128 .f32)
    (r : Fin 50000) (k : Fin 128) :
    max ((∑ c : Fin 384,
            concatenate S50000x384 1 [⟨S50000x128, X⟩, ⟨S50000x128, A⟩, ⟨S50000x128, B⟩]
              concatenates_S50000x128_S50000x128_S50000x128_S50000x384_d1 (ix2 r c) * W1 (ix2 c k))
          + b1 (ix1 k)) 0
      = Spec.hidden (M := 50000) X A B (Spec.chunkA W1) (Spec.chunkB W1) (Spec.chunkC W1) (Spec.biasRow b1) r k := by
  unfold Spec.hidden
  rw [sum_thirds, biasRow_apply]
  simp only [cat_apply_X, cat_apply_A, cat_apply_B, chunkA_apply, chunkB_apply, chunkC_apply]

/-- The printed composition of the node perceptron over any operands: concatenate, product with the first weight, bias,
    rectifier, product with the second weight, bias, rectifier, is the shared mathematics' perceptron. -/
theorem chain (X A B : FVec Ideal S50000x128 .f32) (W1 : FVec Ideal S384x128 .f32) (b1 : FVec Ideal S128 .f32)
    (W2 : FVec Ideal S128x128 .f32) (b2 : FVec Ideal S128 .f32) :
    maximumf (addf
        (Host.dotGeneral dot_S50000x128_S128x128_S50000x128_1_0_0_1_n_n none
          (maximumf (addf
              (Host.dotGeneral dot_S50000x384_S384x128_S50000x128_1_0_0_1_n_n none
                (concatenate S50000x384 1 [⟨S50000x128, X⟩, ⟨S50000x128, A⟩, ⟨S50000x128, B⟩]
                  concatenates_S50000x128_S50000x128_S50000x128_S50000x384_d1) W1)
              (broadcastInDim S50000x128 ![0, 1] bcast_S1x128_S50000x128_0_1
                (broadcastInDim S1x128 ![1] bcast_S128_S1x128_1 b1)))
            (broadcastInDim S50000x128 ![] bcast_S_S50000x128 (constant (F := Ideal) S_ .f32 0x00000000#32)))
          W2)
        (broadcastInDim S50000x128 ![0, 1] bcast_S1x128_S50000x128_0_1
          (broadcastInDim S1x128 ![1] bcast_S128_S1x128_1 b2)))
      (broadcastInDim S50000x128 ![] bcast_S_S50000x128 (constant (F := Ideal) S_ .f32 0x00000000#32))
    = Spec.mlpOut (M := 50000) X A B (Spec.chunkA W1) (Spec.chunkB W1) (Spec.chunkC W1) (Spec.biasRow b1) W2
        (Spec.biasRow b2) := by
  funext i
  obtain ⟨r, j, rfl⟩ : ∃ (r : Fin 50000) (j : Fin 128), i = ix2 r j := ⟨i 0, i 1, eq_ix2 i⟩
  rw [maximumf_apply, addf_apply, dot128_apply, biasBcast_apply, zeros_apply]
  show _ = max ((∑ k : Fin 128, Spec.hidden (M := 50000) X A B (Spec.chunkA W1) (Spec.chunkB W1) (Spec.chunkC W1)
      (Spec.biasRow b1) r k * W2 (ix2 k j)) + Spec.biasRow b2 (ix2 (0 : Fin 1) j)) 0
  rw [biasRow_apply]
  refine congrArg (fun s => max (s + b2 (ix1 j)) 0) (Finset.sum_congr rfl fun k _ => ?_)
  rw [maximumf_apply, addf_apply, dot384_apply, biasBcast_apply, zeros_apply, hidden_eq]

/-- Step 0's node perceptron in the reference is the shared perceptron of the node array and the two aggregates, with
    step 0's weights: the printed stages are the composition above at these operands. -/
theorem newn0 (x0 : (⟨S50000x128, .f32⟩ : BufTy).Contents (Elt Ideal))
    (x1 : (⟨S400000x128, .f32⟩ : BufTy).Contents (Elt Ideal))
    (x2 : (⟨S2x384x128, .f32⟩ : BufTy).Contents (Elt Ideal))
    (x3 : (⟨S2x128, .f32⟩ : BufTy).Contents (Elt Ideal))
    (x4 : (⟨S2x128x128, .f32⟩ : BufTy).Contents (Elt Ideal))
    (x5 : (⟨S2x128, .f32⟩ : BufTy).Contents (Elt Ideal))
    (x6 : (⟨S2x384x128, .f32⟩ : BufTy).Contents (Elt Ideal))
    (x7 : (⟨S2x128, .f32⟩ : BufTy).Contents (Elt Ideal))
    (x8 : (⟨S2x128x128, .f32⟩ : BufTy).Contents (Elt Ideal))
    (x9 : (⟨S2x128, .f32⟩ : BufTy).Contents (Elt Ideal))
    (x10 x11 : (⟨S400000, .i32⟩ : BufTy).Contents (Elt Ideal)) :
    Read.val_main_v57 (F := Ideal) x0 x1 x2 x3 x4 x5 x6 x7 x8 x9 x10 x11
      = Spec.mlpOut (M := 50000) x0 (Read.val_main_v35 (F := Ideal) x0 x1 x2 x3 x4 x5 x10 x11) (Read.val_main_v38 (F := Ideal) x0 x1 x2 x3 x4 x5 x10 x11)
          (Spec.chunkA (Read.val_main_v41 (F := Ideal) x6)) (Spec.chunkB (Read.val_main_v41 (F := Ideal) x6))
          (Spec.chunkC (Read.val_main_v41 (F := Ideal) x6))
          (Spec.biasRow (Read.val_main_v43 (F := Ideal) x7)) (Read.val_main_v45 (F := Ideal) x8)
          (Spec.biasRow (Read.val_main_v47 (F := Ideal) x9)) := by
  unfold Read.val_main_v57 Read.val_main_v56 Read.val_main_v55 Read.val_main_v54 Read.val_main_v53 Read.val_main_v52
    Read.val_main_v51 Read.val_main_v50 Read.val_main_v49 Read.val_main_v48 Read.val_main_v39
    Read.val_main_call2_v0 Read.val_main_call2_cst Read.val_main_call3_v0 Read.val_main_call3_cst
  exact chain x0 (Read.val_main_v35 (F := Ideal) x0 x1 x2 x3 x4 x5 x10 x11) (Read.val_main_v38 (F := Ideal) x0 x1 x2 x3 x4 x5 x10 x11)
    (Read.val_main_v41 (F := Ideal) x6) (Read.val_main_v43 (F := Ideal) x7) (Read.val_main_v45 (F := Ideal) x8)
    (Read.val_main_v47 (F := Ideal) x9)

/-- Step 1's node perceptron in the reference, likewise, of step 0's updated nodes and step 1's two aggregates, with
    step 1's weights. -/
theorem newn1 (x0 : (⟨S50000x128, .f32⟩ : BufTy).Contents (Elt Ideal))
    (x1 : (⟨S400000x128, .f32⟩ : BufTy).Contents (Elt Ideal))
    (x2 : (⟨S2x384x128, .f32⟩ : BufTy).Contents (Elt Ideal))
    (x3 : (⟨S2x128, .f32⟩ : BufTy).Contents (Elt Ideal))
    (x4 : (⟨S2x128x128, .f32⟩ : BufTy).Contents (Elt Ideal))
    (x5 : (⟨S2x128, .f32⟩ : BufTy).Contents (Elt Ideal))
    (x6 : (⟨S2x384x128, .f32⟩ : BufTy).Contents (Elt Ideal))
    (x7 : (⟨S2x128, .f32⟩ : BufTy).Contents (Elt Ideal))
    (x8 : (⟨S2x128x128, .f32⟩ : BufTy).Contents (Elt Ideal))
    (x9 : (⟨S2x128, .f32⟩ : BufTy).Contents (Elt Ideal))
    (x10 x11 : (⟨S400000, .i32⟩ : BufTy).Contents (Elt Ideal)) :
    Read.val_main_v117 (F := Ideal) x0 x1 x2 x3 x4 x5 x6 x7 x8 x9 x10 x11
      = Spec.mlpOut (M := 50000) (Read.val_main_v58 (F := Ideal) x0 x1 x2 x3 x4 x5 x6 x7 x8 x9 x10 x11) (Read.val_main_v95 (F := Ideal) x0 x1 x2 x3 x4 x5 x6 x7 x8 x9 x10 x11)
          (Read.val_main_v98 (F := Ideal) x0 x1 x2 x3 x4 x5 x6 x7 x8 x9 x10 x11)
          (Spec.chunkA (Read.val_main_v101 (F := Ideal) x6)) (Spec.chunkB (Read.val_main_v101 (F := Ideal) x6))
          (Spec.chunkC (Read.val_main_v101 (F := Ideal) x6))
          (Spec.biasRow (Read.val_main_v103 (F := Ideal) x7)) (Read.val_main_v105 (F := Ideal) x8)
          (Spec.biasRow (Read.val_main_v107 (F := Ideal) x9)) := by
  unfold Read.val_main_v117 Read.val_main_v116 Read.val_main_v115 Read.val_main_v114 Read.val_main_v113
    Read.val_main_v112 Read.val_main_v111 Read.val_main_v110 Read.val_main_v109 Read.val_main_v108 Read.val_main_v99
    Read.val_main_call6_v0 Read.val_main_call6_cst Read.val_main_call7_v0 Read.val_main_call7_cst
  exact chain (Read.val_main_v58 (F := Ideal) x0 x1 x2 x3 x4 x5 x6 x7 x8 x9 x10 x11) (Read.val_main_v95 (F := Ideal) x0 x1 x2 x3 x4 x5 x6 x7 x8 x9 x10 x11)
    (Read.val_main_v98 (F := Ideal) x0 x1 x2 x3 x4 x5 x6 x7 x8 x9 x10 x11)
    (Read.val_main_v101 (F := Ideal) x6) (Read.val_main_v103 (F := Ideal) x7) (Read.val_main_v105 (F := Ideal) x8)
    (Read.val_main_v107 (F := Ideal) x9)

end Cert.ReferenceIdeal.RefNode

end
-- ==== Proof.RefValue.lean ====
/-
  The reference's two results are the node and edge arrays after the second message-passing step.

  Stage by stage: the reference wraps an index array (negative entries counted from the end) and gathers the node rows it
  names; its edge perceptron is the shared one of the edge rows and the two gathered rows (the message); the updated
  edges are the edges plus the message; the message summed into the sender and the receiver nodes gives the two
  aggregates; its node perceptron is the shared one of the nodes and the two aggregates, added to the nodes.  The
  second step repeats the first from the first step's nodes and edges, with the second slices of the stacked weights.
  Each stage equals the shared mathematics' stage of the same operands; the results follow by rewriting stage by stage.
-/
import proofs.«403012_j35450660061796_1_alg».proof.Proof.ReadP
import proofs.«403012_j35450660061796_1_alg».proof.Proof.Spec
import proofs.«403012_j35450660061796_1_alg».proof.Proof.RefEdge
import proofs.«403012_j35450660061796_1_alg».proof.Proof.RefNode

noncomputable section

namespace Cert.ReferenceIdeal.RefValue

open Cert.ReferenceIdeal Idealize.ShloMosaic

variable [Cert.KernelIdeal.Facts₀]

/-! ## The small stages: index wrapping, the weights' slices -/

section Small

variable (idx : (⟨S400000, .i32⟩ : BufTy).Contents (Elt Ideal))
  (W1 : (⟨S2x384x128, .f32⟩ : BufTy).Contents (Elt Ideal)) (b : (⟨S2x128, .f32⟩ : BufTy).Contents (Elt Ideal))
  (W2 : (⟨S2x128x128, .f32⟩ : BufTy).Contents (Elt Ideal))

/-- The four places the reference wraps an index array are the shared wrapping. -/
theorem v5_eq : Read.val_main_v5 (F := Ideal) idx = Cert.Spec.wrapIdx idx := by
  unfold Read.val_main_v5 Read.val_main_v4 Read.val_main_v3 Read.val_main_v2 Read.val_main_v1 Read.val_main_v0
    Read.val_main_c Read.val_main_c_0 Cert.Spec.wrapIdx
  rfl
theorem v12_eq : Read.val_main_v12 (F := Ideal) idx = Cert.Spec.wrapIdx idx := by
  unfold Read.val_main_v12 Read.val_main_v11 Read.val_main_v10 Read.val_main_v9 Read.val_main_v8 Read.val_main_v7
    Read.val_main_c_1 Read.val_main_c_2 Cert.Spec.wrapIdx
  rfl
theorem v65_eq : Read.val_main_v65 (F := Ideal) idx = Cert.Spec.wrapIdx idx := by
  unfold Read.val_main_v65 Read.val_main_v64 Read.val_main_v63 Read.val_main_v62 Read.val_main_v61 Read.val_main_v60
    Read.val_main_c_4 Read.val_main_c_5 Cert.Spec.wrapIdx
  rfl
theorem v72_eq : Read.val_main_v72 (F := Ideal) idx = Cert.Spec.wrapIdx idx := by
  unfold Read.val_main_v72 Read.val_main_v71 Read.val_main_v70 Read.val_main_v69 Read.val_main_v68 Read.val_main_v67
    Read.val_main_c_6 Read.val_main_c_7 Cert.Spec.wrapIdx
  rfl

/-- The stacked weights' slices: step 0's … -/
theorem v16_eq : Read.val_main_v16 (F := Ideal) W1 = Cert.Spec.w1At0 W1 := by
  unfold Read.val_main_v16 Read.val_main_v15 Cert.Spec.w1At0; rfl
theorem v18_eq : Read.val_main_v18 (F := Ideal) b = Cert.Spec.bAt0 b := by
  unfold Read.val_main_v18 Read.val_main_v17 Cert.Spec.bAt0; rfl
theorem v20_eq : Read.val_main_v20 (F := Ideal) W2 = Cert.Spec.w2At0 W2 := by
  unfold Read.val_main_v20 Read.val_main_v19 Cert.Spec.w2At0; rfl
theorem v22_eq : Read.val_main_v22 (F := Ideal) b = Cert.Spec.bAt0 b := by
  unfold Read.val_main_v22 Read.val_main_v21 Cert.Spec.bAt0; rfl
theorem v41_eq : Read.val_main_v41 (F := Ideal) W1 = Cert.Spec.w1At0 W1 := by
  unfold Read.val_main_v41 Read.val_main_v40 Cert.Spec.w1At0; rfl
theorem v43_eq : Read.val_main_v43 (F := Ideal) b = Cert.Spec.bAt0 b := by
  unfold Read.val_main_v43 Read.val_main_v42 Cert.Spec.bAt0; rfl
theorem v45_eq : Read.val_main_v45 (F := Ideal) W2 = Cert.Spec.w2At0 W2 := by
  unfold Read.val_main_v45 Read.val_main_v44 Cert.Spec.w2At0; rfl
theorem v47_eq : Read.val_main_v47 (F := Ideal) b = Cert.Spec.bAt0 b := by
  unfold Read.val_main_v47 Read.val_main_v46 Cert.Spec.bAt0; rfl
/-- … and step 1's. -/
theorem v76_eq : Read.val_main_v76 (F := Ideal) W1 = Cert.Spec.w1At1 W1 := by
  unfold Read.val_main_v76 Read.val_main_v75 Cert.Spec.w1At1; rfl
theorem v78_eq : Read.val_main_v78 (F := Ideal) b = Cert.Spec.bAt1 b := by
  unfold Read.val_main_v78 Read.val_main_v77 Cert.Spec.bAt1; rfl
theorem v80_eq : Read.val_main_v80 (F := Ideal) W2 = Cert.Spec.w2At1 W2 := by
  unfold Read.val_main_v80 Read.val_main_v79 Cert.Spec.w2At1; rfl
theorem v82_eq : Read.val_main_v82 (F := Ideal) b = Cert.Spec.bAt1 b := by
  unfold Read.val_main_v82 Read.val_main_v81 Cert.Spec.bAt1; rfl
theorem v101_eq : Read.val_main_v101 (F := Ideal) W1 = Cert.Spec.w1At1 W1 := by
  unfold Read.val_main_v101 Read.val_main_v100 Cert.Spec.w1At1; rfl
theorem v103_eq : Read.val_main_v103 (F := Ideal) b = Cert.Spec.bAt1 b := by
  unfold Read.val_main_v103 Read.val_main_v102 Cert.Spec.bAt1; rfl
theorem v105_eq : Read.val_main_v105 (F := Ideal) W2 = Cert.Spec.w2At1 W2 := by
  unfold Read.val_main_v105 Read.val_main_v104 Cert.Spec.w2At1; rfl
theorem v107_eq : Read.val_main_v107 (F := Ideal) b = Cert.Spec.bAt1 b := by
  unfold Read.val_main_v107 Read.val_main_v106 Cert.Spec.bAt1; rfl

end Small

/-! ## The two steps, stage by stage -/

section Steps

variable (x0 : (⟨S50000x128, .f32⟩ : BufTy).Contents (Elt Ideal)) (x1 : (⟨S400000x128, .f32⟩ : BufTy).Contents (Elt Ideal))
  (x2 : (⟨S2x384x128, .f32⟩ : BufTy).Contents (Elt Ideal)) (x3 : (⟨S2x128, .f32⟩ : BufTy).Contents (Elt Ideal))
  (x4 : (⟨S2x128x128, .f32⟩ : BufTy).Contents (Elt Ideal)) (x5 : (⟨S2x128, .f32⟩ : BufTy).Contents (Elt Ideal))
  (x6 : (⟨S2x384x128, .f32⟩ : BufTy).Contents (Elt Ideal)) (x7 : (⟨S2x128, .f32⟩ : BufTy).Contents (Elt Ideal))
  (x8 : (⟨S2x128x128, .f32⟩ : BufTy).Contents (Elt Ideal)) (x9 : (⟨S2x128, .f32⟩ : BufTy).Contents (Elt Ideal))
  (x10 x11 : (⟨S400000, .i32⟩ : BufTy).Contents (Elt Ideal))

/-- The twelve argument arrays as one record. -/
abbrev args : Cert.Spec.Args := ⟨x0, x1, x2, x3, x4, x5, x6, x7, x8, x9, x10, x11⟩

/-- Step 0's gathered sender and receiver rows. -/
theorem sRows0_eq : Read.val_main_v6 (F := Ideal) x0 x10 = Cert.Spec.sRows0 (args x0 x1 x2 x3 x4 x5 x6 x7 x8 x9 x10 x11) := by
  unfold Read.val_main_v6; rw [v5_eq]; rfl
theorem rRows0_eq : Read.val_main_v13 (F := Ideal) x0 x11 = Cert.Spec.rRows0 (args x0 x1 x2 x3 x4 x5 x6 x7 x8 x9 x10 x11) := by
  unfold Read.val_main_v13; rw [v12_eq]; rfl

/-- Step 0's message. -/
theorem msg0_eq : Read.val_main_v32 (F := Ideal) x0 x1 x2 x3 x4 x5 x10 x11
    = Cert.Spec.msg0 (args x0 x1 x2 x3 x4 x5 x6 x7 x8 x9 x10 x11) := by
  rw [RefEdge.msg0, sRows0_eq x0 x1 x2 x3 x4 x5 x6 x7 x8 x9 x10 x11, rRows0_eq x0 x1 x2 x3 x4 x5 x6 x7 x8 x9 x10 x11,
    v16_eq, v18_eq, v20_eq, v22_eq]
  rfl

/-- Step 0's updated edges: the edges plus the message. -/
theorem edges1_eq : Read.val_main_v59 (F := Ideal) x0 x1 x2 x3 x4 x5 x10 x11
    = Cert.Spec.edges1 (args x0 x1 x2 x3 x4 x5 x6 x7 x8 x9 x10 x11) := by
  unfold Read.val_main_v59; rw [msg0_eq x0 x1 x2 x3 x4 x5 x6 x7 x8 x9 x10 x11]; rfl

/-- Step 0's two aggregates. -/
theorem sent0_eq : Read.val_main_v35 (F := Ideal) x0 x1 x2 x3 x4 x5 x10 x11
    = Cert.Spec.sent0 (args x0 x1 x2 x3 x4 x5 x6 x7 x8 x9 x10 x11) := by
  unfold Read.val_main_v35 Read.val_main_v34 Read.val_main_v33 Read.val_main_cst
  rw [msg0_eq x0 x1 x2 x3 x4 x5 x6 x7 x8 x9 x10 x11]; rfl
theorem recv0_eq : Read.val_main_v38 (F := Ideal) x0 x1 x2 x3 x4 x5 x10 x11
    = Cert.Spec.recv0 (args x0 x1 x2 x3 x4 x5 x6 x7 x8 x9 x10 x11) := by
  unfold Read.val_main_v38 Read.val_main_v37 Read.val_main_v36 Read.val_main_cst_3
  rw [msg0_eq x0 x1 x2 x3 x4 x5 x6 x7 x8 x9 x10 x11]; rfl

/-- Step 0's updated nodes: the nodes plus the node perceptron of the nodes and the two aggregates. -/
theorem nodes1_eq : Read.val_main_v58 (F := Ideal) x0 x1 x2 x3 x4 x5 x6 x7 x8 x9 x10 x11
    = Cert.Spec.nodes1 (args x0 x1 x2 x3 x4 x5 x6 x7 x8 x9 x10 x11) := by
  unfold Read.val_main_v58
  rw [RefNode.newn0, sent0_eq x0 x1 x2 x3 x4 x5 x6 x7 x8 x9 x10 x11, recv0_eq x0 x1 x2 x3 x4 x5 x6 x7 x8 x9 x10 x11,
    v41_eq, v43_eq, v45_eq, v47_eq]
  rfl

/-- Step 1's gathered rows, from step 0's nodes. -/
theorem sRows1_eq : Read.val_main_v66 (F := Ideal) x0 x1 x2 x3 x4 x5 x6 x7 x8 x9 x10 x11
    = Cert.Spec.sRows1 (args x0 x1 x2 x3 x4 x5 x6 x7 x8 x9 x10 x11) := by
  unfold Read.val_main_v66; rw [v65_eq, nodes1_eq]; rfl
theorem rRows1_eq : Read.val_main_v73 (F := Ideal) x0 x1 x2 x3 x4 x5 x6 x7 x8 x9 x10 x11
    = Cert.Spec.rRows1 (args x0 x1 x2 x3 x4 x5 x6 x7 x8 x9 x10 x11) := by
  unfold Read.val_main_v73; rw [v72_eq, nodes1_eq]; rfl

/-- Step 1's message. -/
theorem msg1_eq : Read.val_main_v92 (F := Ideal) x0 x1 x2 x3 x4 x5 x6 x7 x8 x9 x10 x11
    = Cert.Spec.msg1 (args x0 x1 x2 x3 x4 x5 x6 x7 x8 x9 x10 x11) := by
  rw [RefEdge.msg1, edges1_eq x0 x1 x2 x3 x4 x5 x6 x7 x8 x9 x10 x11, sRows1_eq, rRows1_eq, v76_eq, v78_eq, v80_eq, v82_eq]
  rfl

/-- Step 1's two aggregates. -/
theorem sent1_eq : Read.val_main_v95 (F := Ideal) x0 x1 x2 x3 x4 x5 x6 x7 x8 x9 x10 x11
    = Cert.Spec.sent1 (args x0 x1 x2 x3 x4 x5 x6 x7 x8 x9 x10 x11) := by
  unfold Read.val_main_v95 Read.val_main_v94 Read.val_main_v93 Read.val_main_cst_8
  rw [msg1_eq]; rfl
theorem recv1_eq : Read.val_main_v98 (F := Ideal) x0 x1 x2 x3 x4 x5 x6 x7 x8 x9 x10 x11
    = Cert.Spec.recv1 (args x0 x1 x2 x3 x4 x5 x6 x7 x8 x9 x10 x11) := by
  unfold Read.val_main_v98 Read.val_main_v97 Read.val_main_v96 Read.val_main_cst_9
  rw [msg1_eq]; rfl

/-! ## The two results -/

/-- The reference's first result is the node array after the second step. -/
theorem nodes_eq : Read.val_main_v118 (F := Ideal) x0 x1 x2 x3 x4 x5 x6 x7 x8 x9 x10 x11
    = Cert.Spec.nodes2 ⟨x0, x1, x2, x3, x4, x5, x6, x7, x8, x9, x10, x11⟩ := by
  unfold Read.val_main_v118
  rw [RefNode.newn1, nodes1_eq, sent1_eq, recv1_eq, v101_eq, v103_eq, v105_eq, v107_eq]
  rfl

/-- The reference's second result is the edge array after the second step. -/
theorem edges_eq : Read.val_main_v119 (F := Ideal) x0 x1 x2 x3 x4 x5 x6 x7 x8 x9 x10 x11
    = Cert.Spec.edges2 ⟨x0, x1, x2, x3, x4, x5, x6, x7, x8, x9, x10, x11⟩ := by
  unfold Read.val_main_v119
  rw [msg1_eq, edges1_eq x0 x1 x2 x3 x4 x5 x6 x7 x8 x9 x10 x11]
  rfl

end Steps

end Cert.ReferenceIdeal.RefValue

end
-- ==== Proof.lean ====
/-
  A two-step message-passing network on a graph of 50000 nodes and 400000 edges, width 128: per step, gather each
  edge's sender and receiver node rows, update the edges by a two-layer perceptron of [edge | sender | receiver]
  (keeping the message), sum the messages into their sender and receiver nodes, update the nodes by a second
  perceptron of [node | sent | received]; both updates are residual.  The kernel runs each perceptron as a pipelined
  region over blocks of 2000 rows, with the first layer as three partial products against the three row-chunks of its
  weight and the operands rounded to bf16 before each product; the reference multiplies the concatenated rows by the
  whole weight.

  At the ideal instance the roundings are the identity and the three partial products are the one product regrouped
  (a finite sum on the extended reals may be regrouped freely), so both programs compute Spec.nodes2 and Spec.edges2
  of the argument arrays: the kernel by the fold through its four regions and host stretches (Fold), the reference by
  its run read stretch by stretch and stage by stage (RefRun, RefValue).  The one place the programs differ as printed is the gather: the kernel's
  fills a row whose index is out of range, the reference's clamps; under the precondition every index names a row
  (counted from the front or, negative, from the end), and there the two gathers agree (Take, PreDecode).
  The three frames are the generated ones; nothing was rewritten by the idealization, so 'preserves' is trivial.
-/
import proofs.«403012_j35450660061796_1_alg».proof.Defs
import proofs.«403012_j35450660061796_1_alg».proof.Proof.Gen.Kernel
import proofs.«403012_j35450660061796_1_alg».proof.Proof.Gen.Kernel.Frame
import proofs.«403012_j35450660061796_1_alg».proof.Proof.Gen.KernelIdeal
import proofs.«403012_j35450660061796_1_alg».proof.Proof.Gen.KernelIdeal.Frame
import proofs.«403012_j35450660061796_1_alg».proof.Proof.Gen.ReferenceIdeal
import proofs.«403012_j35450660061796_1_alg».proof.Proof.RefRun
import proofs.«403012_j35450660061796_1_alg».proof.Proof.Gen.Pre_finite_inputs
import proofs.«403012_j35450660061796_1_alg».proof.Proof.KRun
import proofs.«403012_j35450660061796_1_alg».proof.Proof.Fold
import proofs.«403012_j35450660061796_1_alg».proof.Proof.PreDecode
import proofs.«403012_j35450660061796_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run (read stretch by stretch) with the results dropped. -/
theorem frame_ri : Cert.frame_ReferenceIdeal := fun m ρ _ =>
  (θ_run Cert.ReferenceIdeal.defs _ _).mono (fun _ h c => (h c).2.2) (Cert.ReferenceIdeal.RefRun.run m ρ)

/-- From memories agreeing on the arguments both idealized programs end with the node and edge arrays after the second
    step, Spec.nodes2 and Spec.edges2 of the kernel's argument arrays. -/
theorem algebraic : Cert.algebraic_KernelIdeal_ReferenceIdeal := by
  intro m ρ m' ρ' hpre hagree
  have hIn := fun c => Cert.KernelIdeal.PreDecode.inRange_of_pre m hpre c
  refine ⟨fun c => Spec.nodes2 (Cert.KernelIdeal.Fold.argsOf m c), fun c => Spec.edges2 (Cert.KernelIdeal.Fold.argsOf m c), ?_, ?_⟩
  · exact (θ_run Cert.KernelIdeal.defs _ _).mono
      (fun r h c => ⟨(h c).1.trans (Cert.KernelIdeal.Fold.nodes2_eq m ρ c (hIn c).1 (hIn c).2),
        (h c).2.1.trans (Cert.KernelIdeal.Fold.edges2_eq m ρ c (hIn c).1 (hIn c).2), (h c).2.2⟩)
      (Cert.KernelIdeal.Results.run (F := Ideal) m ρ)
  · refine (θ_run Cert.ReferenceIdeal.defs _ _).mono (fun r h c => ⟨(h c).1.trans ?_, (h c).2.1.trans ?_, (h c).2.2⟩)
      (Cert.ReferenceIdeal.RefRun.run m' ρ')
    · obtain ⟨h0, h1, h2, h3, h4, h5, h6, h7, h8, h9, h10, h11⟩ := hagree c
      rw [Cert.ReferenceIdeal.RefValue.nodes_eq, h0, h1, h2, h3, h4, h5, h6, h7, h8, h9, h10, h11]
      rfl
    · obtain ⟨h0, h1, h2, h3, h4, h5, h6, h7, h8, h9, h10, h11⟩ := hagree c
      rw [Cert.ReferenceIdeal.RefValue.edges_eq, h0, h1, h2, h3, h4, h5, h6, h7, h8, h9, h10, h11]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
